-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8x8 : Shape := ⟨3, ![1024, 8, 8]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S256x41024 : S_.BroadcastsInDim S256x41024 (![] : Fin 0 → Fin S256x41024.rank)
  reducesTo_S256x41024_S_d0_1 : S256x41024.ReducesTo [0, 1] S_
  h_S_ : 0 < S_.numel
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32 .f32) (main_arg9 : FVec F S1x32 .f32) (main_arg10 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg9
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S32x512 .f32) (main_arg6 : FVec F S32 .f32) (main_arg7 : FVec F S32x32 .f32) (main_arg8 : FVec F S32 .f32) (main_arg9 : FVec F S1x32 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x512 .f32 := Host.absf main_arg5
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_v33

def fn {F : FTy → Type} [FloatOps F] (main_arg0 : IVec S1024x8x8 32) (main_arg1 : FVec F S256x41024 .f32) (main_arg2 : FVec F S256 .f32) (main_arg3 : FVec F S256x41024 .f32) (main_arg4 : FVec F S256 .f32) (main_arg5 : FVec F S32x512 .f32) (main_arg6 : FVec F S32 .f32) (main_arg7 : FVec F S32x32 .f32) (main_arg8 : FVec F S32 .f32) (main_arg9 : FVec F S1x32 .f32) (main_arg10 : FVec F S1 .f32) : IVec S_ 1 :=
  let main_v0 : FVec F S256x41024 .f32 := Host.absf main_arg1
  let main_cst : FVec F S_ .f32 := constant S_ .f32 0x7F800000#32
  let main_v1 : FVec F S256x41024 .f32 := broadcastInDim S256x41024 ![] bcast_S_S256x41024 main_cst
  let main_v2 : IVec S256x41024 1 := cmpf .olt main_v0 main_v1
  let main_c : IVec S_ 1 := constantI S_ 1 1#1
  let main_v3 : IVec S_ 1 := (fun x v => Host.reduce IntOp.andi x v reducesTo_S256x41024_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x41024 .f32 := Host.absf main_arg3
  let main_cst_2 : FVec F S_ .f32 := constant S_ .f32 0x7F800000#32
  let main_v10 : FVec F S256x41024 .f32 := broadcastInDim S256x41024 ![] bcast_S_S256x41024 main_cst_2
  let main_v11 : IVec S256x41024 1 := cmpf .olt main_v9 main_v10
  let main_c_3 : IVec S_ 1 := constantI S_ 1 1#1
  let main_v12 : IVec S_ 1 := (fun x v => Host.reduce IntOp.andi x v reducesTo_S256x41024_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S1024x8x8 : Shape := ⟨3, ![1024, 8, 8]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1024x64 : Shape := ⟨2, ![1024, 64]⟩
abbrev S_ : Shape := ⟨0, ![]⟩
abbrev S1024 : Shape := ⟨1, ![1024]⟩
abbrev S1024x384 : Shape := ⟨2, ![1024, 384]⟩
abbrev S256x64x641 : Shape := ⟨3, ![256, 64, 641]⟩
abbrev S256x64x384 : Shape := ⟨3, ![256, 64, 384]⟩
abbrev S64x256x384 : Shape := ⟨3, ![64, 256, 384]⟩
abbrev S1024x1 : Shape := ⟨2, ![1024, 1]⟩
abbrev S1x256x384 : Shape := ⟨3, ![1, 256, 384]⟩
abbrev S1024x256 : Shape := ⟨2, ![1024, 256]⟩
abbrev S256x384 : Shape := ⟨2, ![256, 384]⟩
abbrev S1x256 : Shape := ⟨2, ![1, 256]⟩
abbrev S1024x512 : Shape := ⟨2, ![1024, 512]⟩
abbrev S1024x32 : Shape := ⟨2, ![1024, 32]⟩
abbrev S1x1 : Shape := ⟨2, ![1, 1]⟩

abbrev nBuf : Space → Nat
  | .hbm => 80
  | .vmem => 19
  | .smem => 0
  | _ => 0

abbrev bufTy : (tb : Table) → Fin (tcTables nBuf tb) → BufTy
  | .hbm, ⟨0, _⟩ => ⟨S1024x8x8, .i32⟩
  | .hbm, ⟨1, _⟩ => ⟨S256x41024, .f32⟩
  | .hbm, ⟨2, _⟩ => ⟨S256, .f32⟩
  | .hbm, ⟨3, _⟩ => ⟨S256x41024, .f32⟩
  | .hbm, ⟨4, _⟩ => ⟨S256, .f32⟩
  | .hbm, ⟨5, _⟩ => ⟨S32x512, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1024x64, .i32⟩
  | .hbm, ⟨12, _⟩ => ⟨S_, .i32⟩
  | .hbm, ⟨13, _⟩ => ⟨S1024x64, .i32⟩
  | .hbm, ⟨14, _⟩ => ⟨S1024x64, .i1⟩
  | .hbm, ⟨15, _⟩ => ⟨S1024x64, .i32⟩
  | .hbm, ⟨16, _⟩ => ⟨S_, .i1⟩
  | .hbm, ⟨17, _⟩ => ⟨S_, .i32⟩
  | .hbm, ⟨18, _⟩ => ⟨S1024, .i1⟩
  | .hbm, ⟨19, _⟩ => ⟨S1024, .i32⟩
  | .hbm, ⟨20, _⟩ => ⟨S_, .i32⟩
  | .hbm, ⟨21, _⟩ => ⟨S1024x64, .i32⟩
  | .hbm, ⟨22, _⟩ => ⟨S1024x64, .i1⟩
  | .hbm, ⟨23, _⟩ => ⟨S1024x64, .i32⟩
  | .hbm, ⟨24, _⟩ => ⟨S_, .i1⟩
  | .hbm, ⟨25, _⟩ => ⟨S_, .i32⟩
  | .hbm, ⟨26, _⟩ => ⟨S1024, .i1⟩
  | .hbm, ⟨27, _⟩ => ⟨S1024, .i32⟩
  | .hbm, ⟨28, _⟩ => ⟨S_, .f32⟩
  | .hbm, ⟨29, _⟩ => ⟨S1024x64, .f32⟩
  | .hbm, ⟨30, _⟩ => ⟨S_, .i32⟩
  | .hbm, ⟨31, _⟩ => ⟨S1024x64, .i32⟩
  | .hbm, ⟨32, _⟩ => ⟨S1024x64, .i1⟩
  | .hbm, ⟨33, _⟩ => ⟨S1024x64, .f32⟩
  | .hbm, ⟨34, _⟩ => ⟨S_, .i32⟩
  | .hbm, ⟨35, _⟩ => ⟨S1024x64, .i32⟩
  | .hbm, ⟨36, _⟩ => ⟨S1024x64, .i1⟩
  | .hbm, ⟨37, _⟩ => ⟨S1024x64, .f32⟩
  | .hbm, ⟨38, _⟩ => ⟨S_, .i32⟩
  | .hbm, ⟨39, _⟩ => ⟨S1024x64, .i32⟩
  | .hbm, ⟨40, _⟩ => ⟨S1024x64, .i1⟩
  | .hbm, ⟨41, _⟩ => ⟨S1024x64, .f32⟩
  | .hbm, ⟨42, _⟩ => ⟨S_, .i32⟩
  | .hbm, ⟨43, _⟩ => ⟨S1024x64, .i32⟩
  | .hbm, ⟨44, _⟩ => ⟨S1024x64, .i1⟩
  | .hbm, ⟨45, _⟩ => ⟨S1024x64, .f32⟩
  | .hbm, ⟨46, _⟩ => ⟨S_, .i32⟩
  | .hbm, ⟨47, _⟩ => ⟨S1024x64, .i32⟩
  | .hbm, ⟨48, _⟩ => ⟨S1024x64, .i1⟩
  | .hbm, ⟨49, _⟩ => ⟨S1024x64, .f32⟩
  | .hbm, ⟨50, _⟩ => ⟨S1024x384, .f32⟩
  | .hbm, ⟨51, _⟩ => ⟨S_, .i32⟩
  | .hbm, ⟨52, _⟩ => ⟨S1024x64, .i32⟩
  | .hbm, ⟨53, _⟩ => ⟨S1024x64, .i1⟩
  | .hbm, ⟨54, _⟩ => ⟨S1024x64, .f32⟩
  | .hbm, ⟨55, _⟩ => ⟨S_, .i32⟩
  | .hbm, ⟨56, _⟩ => ⟨S1024x64, .i32⟩
  | .hbm, ⟨57, _⟩ => ⟨S1024x64, .i1⟩
  | .hbm, ⟨58, _⟩ => ⟨S1024x64, .f32⟩
  | .hbm, ⟨59, _⟩ => ⟨S_, .i32⟩
  | .hbm, ⟨60, _⟩ => ⟨S1024x64, .i32⟩
  | .hbm, ⟨61, _⟩ => ⟨S1024x64, .i1⟩
  | .hbm, ⟨62, _⟩ => ⟨S1024x64, .f32⟩
  | .hbm, ⟨63, _⟩ => ⟨S_, .i32⟩
  | .hbm, ⟨64, _⟩ => ⟨S1024x64, .i32⟩
  | .hbm, ⟨65, _⟩ => ⟨S1024x64, .i1⟩
  | .hbm, ⟨66, _⟩ => ⟨S1024x64, .f32⟩
  | .hbm, ⟨67, _⟩ => ⟨S_, .i32⟩
  | .hbm, ⟨68, _⟩ => ⟨S1024x64, .i32⟩
  | .hbm, ⟨69, _⟩ => ⟨S1024x64, .i1⟩
  | .hbm, ⟨70, _⟩ => ⟨S1024x64, .f32⟩
  | .hbm, ⟨71, _⟩ => ⟨S1024x384, .f32⟩
  | .hbm, ⟨72, _⟩ => ⟨S256x64x641, .f32⟩
  | .hbm, ⟨73, _⟩ => ⟨S256x64x384, .f32⟩
  | .hbm, ⟨74, _⟩ => ⟨S64x256x384, .f32⟩
  | .hbm, ⟨75, _⟩ => ⟨S256x64x641, .f32⟩
  | .hbm, ⟨76, _⟩ => ⟨S256x64x384, .f32⟩
  | .hbm, ⟨77, _⟩ => ⟨S64x256x384, .f32⟩
  | .hbm, ⟨78, _⟩ => ⟨S1024x1, .f32⟩
  | .hbm, ⟨79, _⟩ => ⟨S1024, .f32⟩
  | .local _ .vmem, ⟨0, _⟩ => ⟨S1024x384, .f32⟩
  | .local _ .vmem, ⟨1, _⟩ => ⟨S1024x384, .f32⟩
  | .local _ .vmem, ⟨2, _⟩ => ⟨S1024, .i32⟩
  | .local _ .vmem, ⟨3, _⟩ => ⟨S1024, .i32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S256, .f32⟩
  | .local _ .vmem, ⟨9, _⟩ => ⟨S256, .f32⟩
  | .local _ .vmem, ⟨10, _⟩ => ⟨S32x512, .f32⟩
  | .local _ .vmem, ⟨11, _⟩ => ⟨S32, .f32⟩
  | .local _ .vmem, ⟨12, _⟩ => ⟨S32x32, .f32⟩
  | .local _ .vmem, ⟨13, _⟩ => ⟨S32, .f32⟩
  | .local _ .vmem, ⟨14, _⟩ => ⟨S1x32, .f32⟩
  | .local _ .vmem, ⟨15, _⟩ => ⟨S1, .f32⟩
  | .local _ .vmem, ⟨16, _⟩ => ⟨S1024x1, .f32⟩
  | .local _ .vmem, ⟨17, _⟩ => ⟨S1024x256, .f32⟩
  | .local _ .vmem, ⟨18, _⟩ => ⟨S1024x256, .f32⟩
  | _, _ => ⟨S1024x8x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_c : Ref sig .tc := ⟨.hbm, 16, rfl⟩
abbrev main_call0_c_0 : Ref sig .tc := ⟨.hbm, 17, rfl⟩
abbrev main_call0_v1_0 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_call1_v0 : Ref sig .tc := ⟨.hbm, 23, rfl⟩
abbrev main_call1_c : Ref sig .tc := ⟨.hbm, 24, rfl⟩
abbrev main_call1_c_0 : Ref sig .tc := ⟨.hbm, 25, rfl⟩
abbrev main_call1_v1_0 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_c_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_6 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_7 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_8 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_9 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_10 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v47 : BitVec 1 := Scalar.cmpi .eq arg0 c63_i32
  let v48 : BitVec 32 := Scalar.extui v47
  let c0_i32_21 : BitVec 32 := 0#32
  let v49 : BitVec 1 := Scalar.cmpi .ne v48 c0_i32_21
  v49

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

class Facts₀ : Prop where
  shapeCasts_S1024x8x8_S1024x64 : S1024x8x8.ShapeCasts S1024x64
  bcast_S_S1024x64 : S_.BroadcastsInDim S1024x64 (![] : Fin 0 → Fin S1024x64.rank)
  reducesTo_S1024x64_S1024_d1 : S1024x64.ReducesTo [1] S1024
  h_S_ : 0 < S_.numel
  concatenates_S1024x64_S1024x64_S1024x64_S1024x64_S1024x64_S1024x64_S1024x384_d1 : Shape.Concatenates [S1024x64, S1024x64, S1024x64, S1024x64, S1024x64, S1024x64] S1024x384 1
  shapeCasts_S256x41024_S256x64x641 : S256x41024.ShapeCasts S256x64x641
  slices_S256x64x641_S256x64x384_0_0_0 : S256x64x641.Slices ![0, 0, 0] S256x64x384
  transposes_S256x64x384_S64x256x384_1_0_2 : S256x64x384.Transposes [1, 0, 2] S64x256x384
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256x384_S1x256x384_0_0_0 : ∀ a, (![0, 0, 0] : Fin 3 → Nat) a + S1x256x384.size a ≤ S1x256x384.size a
  h_S1x256x384 : 0 < S1x256x384.numel
  shapeCasts_S1x256x384_S1x256x384 : S1x256x384.ShapeCasts S1x256x384
  shapeCasts_S1x256x384_S256x384 : S1x256x384.ShapeCasts S256x384
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1024 : S1024.ShapeCasts S1024
  natLt_1_32 : 1 < 32
  shapeCasts_S1024_S1024x1 : S1024.ShapeCasts S1024x1
  broadcasts_S1024x1_S1024x256 : S1024x1.Broadcasts S1024x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  concatenates_S1024x256_S1024x256_S1024x512_d1 : Shape.Concatenates [S1024x256, S1024x256] S1024x512 1
  inb_S32x512_S32x512_0_0 : ∀ a, (![0, 0] : Fin 2 → Nat) a + S32x512.size a ≤ S32x512.size a
  h_S32x512 : 0 < S32x512.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  dot_S1024x384_S256x384_S1024x256_1_1_0_0_n_n_wf : DotDims.WF S1024x384 S256x384 S1024x256 [1] [1] [0] [0] [] []
  dot_S1024x512_S32x512_S1024x32_1_1_0_0_n_n_wf : DotDims.WF S1024x512 S32x512 S1024x32 [1] [1] [0] [0] [] []
  dot_S1024x32_S32x32_S1024x32_1_1_0_0_n_n_wf : DotDims.WF S1024x32 S32x32 S1024x32 [1] [1] [0] [0] [] []
  dot_S1024x32_S1x32_S1024x1_1_1_0_0_n_n_wf : DotDims.WF S1024x32 S1x32 S1024x1 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x384.size a ≤ S1024x384.size a
  hwx0_0 : ∀ i : grid0.Coords, EltTy.bits .f32 = 32 ∨ (Rect.block (s := S1024x384) S1024x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .i32 = 32 ∨ (Rect.block (s := S1024) S1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .i32 = 32 ∨ (Rect.block (s := S1024) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x384.size a ≤ S64x256x384.size a
  hwx0_4 : ∀ i : grid0.Coords, EltTy.bits .f32 = 32 ∨ (Rect.block (s := S64x256x384) S1x256x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x384.size a ≤ S64x256x384.size a
  hwx0_5 : ∀ i : grid0.Coords, EltTy.bits .f32 = 32 ∨ (Rect.block (s := S64x256x384) S1x256x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x512.size a ≤ S32x512.size a
  hwx0_8 : ∀ i : grid0.Coords, EltTy.bits .f32 = 32 ∨ (Rect.block (s := S32x512) S32x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x32.size a ≤ S32x32.size a
  hwx0_10 : ∀ i : grid0.Coords, EltTy.bits .f32 = 32 ∨ (Rect.block (s := S32x32) S32x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S1024x1.size a
  hwx0_14 : ∀ i : grid0.Coords, EltTy.bits .f32 = 32 ∨ (Rect.block (s := S1024x1) S1024x1.size (cc0_transform_14 i) (hinb0_14 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S1024x384_S256x384_S1024x256_1_1_0_0_n_n : DotDims S1024x384 S256x384 S1024x256 where
  lhsContracting := [1]
  rhsContracting := [1]
  lhsNonContracting := [0]
  rhsNonContracting := [0]
  lhsBatch := []
  rhsBatch := []
  wf := dot_S1024x384_S256x384_S1024x256_1_1_0_0_n_n_wf
def dot_S1024x512_S32x512_S1024x32_1_1_0_0_n_n : DotDims S1024x512 S32x512 S1024x32 where
  lhsContracting := [1]
  rhsContracting := [1]
  lhsNonContracting := [0]
  rhsNonContracting := [0]
  lhsBatch := []
  rhsBatch := []
  wf := dot_S1024x512_S32x512_S1024x32_1_1_0_0_n_n_wf
def dot_S1024x32_S32x32_S1024x32_1_1_0_0_n_n : DotDims S1024x32 S32x32 S1024x32 where
  lhsContracting := [1]
  rhsContracting := [1]
  lhsNonContracting := [0]
  rhsNonContracting := [0]
  lhsBatch := []
  rhsBatch := []
  wf := dot_S1024x32_S32x32_S1024x32_1_1_0_0_n_n_wf
def dot_S1024x32_S1x32_S1024x1_1_1_0_0_n_n : DotDims S1024x32 S1x32 S1024x1 where
  lhsContracting := [1]
  rhsContracting := [1]
  lhsNonContracting := [0]
  rhsNonContracting := [0]
  lhsBatch := []
  rhsBatch := []
  wf := dot_S1024x32_S1x32_S1024x1_1_1_0_0_n_n_wf

abbrev win0_0 : Pipeline.Window sig grid0 :=
  Pipeline.Window.ofSpec (Memref.whole main_v39) S1024x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x256x384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1x256x384.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S32x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v46) S1024x1.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S1024x8x8 : Shape := ⟨3, ![1024, 8, 8]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1024x64 : Shape := ⟨2, ![1024, 64]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x41024 : Shape := ⟨2, ![1024, 41024]⟩
abbrev S1024x64x1 : Shape := ⟨3, ![1024, 64, 1]⟩
abbrev S1024x64x2 : Shape := ⟨3, ![1024, 64, 2]⟩
abbrev S1024x82048 : Shape := ⟨2, ![1024, 82048]⟩
abbrev S41024x256 : Shape := ⟨2, ![41024, 256]⟩
abbrev S1024x256 : Shape := ⟨2, ![1024, 256]⟩
abbrev S1x256 : Shape := ⟨2, ![1, 256]⟩
abbrev S1024x512 : Shape := ⟨2, ![1024, 512]⟩
abbrev S512x32 : Shape := ⟨2, ![512, 32]⟩
abbrev S1024x32 : Shape := ⟨2, ![1024, 32]⟩
abbrev S32x1 : Shape := ⟨2, ![32, 1]⟩
abbrev S1x1 : Shape := ⟨2, ![1, 1]⟩

abbrev nBuf : Space → Nat
  | .hbm => 171
  | .vmem => 0
  | .smem => 0
  | _ => 0

abbrev hbmTy0_0 (i : Nat) : BufTy := match i % 128 with
  | 0 => ⟨S1024x8x8, .i32⟩
  | 1 => ⟨S256x41024, .f32⟩
  | 2 => ⟨S256, .f32⟩
  | 3 => ⟨S256x41024, .f32⟩
  | 4 => ⟨S256, .f32⟩
  | 5 => ⟨S32x512, .f32⟩
  | 6 => ⟨S32, .f32⟩
  | 7 => ⟨S32x32, .f32⟩
  | 8 => ⟨S32, .f32⟩
  | 9 => ⟨S1x32, .f32⟩
  | 10 => ⟨S1, .f32⟩
  | 11 => ⟨S1024x64, .i32⟩
  | 12 => ⟨S64, .i32⟩
  | 13 => ⟨S_, .i32⟩
  | 14 => ⟨S1024x64, .i32⟩
  | 15 => ⟨S1024x64, .i1⟩
  | 16 => ⟨S1024x64, .i32⟩
  | 17 => ⟨S_, .i1⟩
  | 18 => ⟨S_, .i32⟩
  | 19 => ⟨S1024, .i1⟩
  | 20 => ⟨S1024, .i32⟩
  | 21 => ⟨S_, .i32⟩
  | 22 => ⟨S1024x64, .i32⟩
  | 23 => ⟨S1024x64, .i1⟩
  | 24 => ⟨S1024x64, .i32⟩
  | 25 => ⟨S_, .i1⟩
  | 26 => ⟨S_, .i32⟩
  | 27 => ⟨S1024, .i1⟩
  | 28 => ⟨S1024, .i32⟩
  | 29 => ⟨S_, .i32⟩
  | 30 => ⟨S1024x64, .i32⟩
  | 31 => ⟨S1024x64, .i1⟩
  | 32 => ⟨S_, .i32⟩
  | 33 => ⟨S1024x64, .i32⟩
  | 34 => ⟨S1024x64, .i1⟩
  | 35 => ⟨S1024x64, .i1⟩
  | 36 => ⟨S_, .i32⟩
  | 37 => ⟨S1024x64, .i32⟩
  | 38 => ⟨S1024x64, .i1⟩
  | 39 => ⟨S_, .i32⟩
  | 40 => ⟨S1024x64, .i32⟩
  | 41 => ⟨S1024x64, .i1⟩
  | 42 => ⟨S1024x64, .i1⟩
  | 43 => ⟨S1024x1, .i32⟩
  | 44 => ⟨S_, .i32⟩
  | 45 => ⟨S1024x1, .i32⟩
  | 46 => ⟨S1024x1, .i32⟩
  | 47 => ⟨S_, .i32⟩
  | 48 => ⟨S1024x64, .i32⟩
  | 49 => ⟨S1024x64, .i32⟩
  | 50 => ⟨S_, .i32⟩
  | 51 => ⟨S1024x64, .i32⟩
  | 52 => ⟨S1024x64, .i32⟩
  | 53 => ⟨S1024x64, .i32⟩
  | 54 => ⟨S1024x64, .i32⟩
  | 55 => ⟨S1x64, .i32⟩
  | 56 => ⟨S1024x64, .i32⟩
  | 57 => ⟨S1024x64, .i32⟩
  | 58 => ⟨S1024x1, .i32⟩
  | 59 => ⟨S_, .i32⟩
  | 60 => ⟨S1024x1, .i32⟩
  | 61 => ⟨S1024x1, .i32⟩
  | 62 => ⟨S_, .i32⟩
  | 63 => ⟨S1024x64, .i32⟩
  | 64 => ⟨S1024x64, .i32⟩
  | 65 => ⟨S_, .i32⟩
  | 66 => ⟨S1024x64, .i32⟩
  | 67 => ⟨S1024x64, .i32⟩
  | 68 => ⟨S1024x64, .i32⟩
  | 69 => ⟨S1024x64, .i32⟩
  | 70 => ⟨S1x64, .i32⟩
  | 71 => ⟨S1024x64, .i32⟩
  | 72 => ⟨S1024x64, .i32⟩
  | 73 => ⟨S_, .i32⟩
  | 74 => ⟨S_, .i32⟩
  | 75 => ⟨S1024x64, .i32⟩
  | 76 => ⟨S1024x64, .i32⟩
  | 77 => ⟨S_, .i32⟩
  | 78 => ⟨S_, .i32⟩
  | 79 => ⟨S1024x64, .i32⟩
  | 80 => ⟨S1024x64, .i32⟩
  | 81 => ⟨S1024, .i32⟩
  | 82 => ⟨S1024x1, .i32⟩
  | 83 => ⟨S_, .f32⟩
  | 84 => ⟨S1024x41024, .f32⟩
  | 85 => ⟨S_, .i32⟩
  | 86 => ⟨S1024x1, .i32⟩
  | 87 => ⟨S1024x1, .i1⟩
  | 88 => ⟨S_, .i32⟩
  | 89 => ⟨S1024x1, .i32⟩
  | 90 => ⟨S1024x1, .i32⟩
  | 91 => ⟨S1024x1, .i32⟩
  | 92 => ⟨S_, .i32⟩
  | 93 => ⟨S1024x64, .i32⟩
  | 94 => ⟨S1024x64, .i1⟩
  | 95 => ⟨S_, .i32⟩
  | 96 => ⟨S1024x64, .i32⟩
  | 97 => ⟨S1024x64, .i32⟩
  | 98 => ⟨S1024x64, .i32⟩
  | 99 => ⟨S1024x64, .i32⟩
  | 100 => ⟨S1024x64x1, .i32⟩
  | 101 => ⟨S1024x64x1, .i32⟩
  | 102 => ⟨S1024x64x2, .i32⟩
  | 103 => ⟨S_, .f32⟩
  | 104 => ⟨S1024x64, .f32⟩
  | 105 => ⟨S1024x41024, .f32⟩
  | 106 => ⟨S_, .f32⟩
  | 107 => ⟨S1024x41024, .f32⟩
  | 108 => ⟨S_, .i32⟩
  | 109 => ⟨S1024x1, .i32⟩
  | 110 => ⟨S1024x1, .i1⟩
  | 111 => ⟨S_, .i32⟩
  | 112 => ⟨S1024x1, .i32⟩
  | 113 => ⟨S1024x1, .i32⟩
  | 114 => ⟨S1024x1, .i32⟩
  | 115 => ⟨S_, .i32⟩
  | 116 => ⟨S1024x64, .i32⟩
  | 117 => ⟨S1024x64, .i1⟩
  | 118 => ⟨S_, .i32⟩
  | 119 => ⟨S1024x64, .i32⟩
  | 120 => ⟨S1024x64, .i32⟩
  | 121 => ⟨S1024x64, .i32⟩
  | 122 => ⟨S1024x64, .i32⟩
  | 123 => ⟨S1024x64x1, .i32⟩
  | 124 => ⟨S1024x64x1, .i32⟩
  | 125 => ⟨S1024x64x2, .i32⟩
  | 126 => ⟨S_, .f32⟩
  | 127 => ⟨S1024x64, .f32⟩
  | _ => ⟨S1024x8x8, .i32⟩

abbrev hbmTy0_1 (i : Nat) : BufTy := match i % 128 with
  | 0 => ⟨S1024x41024, .f32⟩
  | 1 => ⟨S1024x82048, .f32⟩
  | 2 => ⟨S1024x41024, .f32⟩
  | 3 => ⟨S1024x41024, .f32⟩
  | 4 => ⟨S41024x256, .f32⟩
  | 5 => ⟨S1024x256, .f32⟩
  | 6 => ⟨S1x256, .f32⟩
  | 7 => ⟨S1024x256, .f32⟩
  | 8 => ⟨S1024x256, .f32⟩
  | 9 => ⟨S_, .f32⟩
  | 10 => ⟨S1024x256, .f32⟩
  | 11 => ⟨S1024x256, .f32⟩
  | 12 => ⟨S41024x256, .f32⟩
  | 13 => ⟨S1024x256, .f32⟩
  | 14 => ⟨S1x256, .f32⟩
  | 15 => ⟨S1024x256, .f32⟩
  | 16 => ⟨S1024x256, .f32⟩
  | 17 => ⟨S_, .f32⟩
  | 18 => ⟨S1024x256, .f32⟩
  | 19 => ⟨S1024x256, .f32⟩
  | 20 => ⟨S1024x512, .f32⟩
  | 21 => ⟨S512x32, .f32⟩
  | 22 => ⟨S1024x32, .f32⟩
  | 23 => ⟨S1x32, .f32⟩
  | 24 => ⟨S1024x32, .f32⟩
  | 25 => ⟨S1024x32, .f32⟩
  | 26 => ⟨S_, .f32⟩
  | 27 => ⟨S1024x32, .f32⟩
  | 28 => ⟨S1024x32, .f32⟩
  | 29 => ⟨S32x32, .f32⟩
  | 30 => ⟨S1024x32, .f32⟩
  | 31 => ⟨S1x32, .f32⟩
  | 32 => ⟨S1024x32, .f32⟩
  | 33 => ⟨S1024x32, .f32⟩
  | 34 => ⟨S_, .f32⟩
  | 35 => ⟨S1024x32, .f32⟩
  | 36 => ⟨S1024x32, .f32⟩
  | 37 => ⟨S32x1, .f32⟩
  | 38 => ⟨S1024x1, .f32⟩
  | 39 => ⟨S1x1, .f32⟩
  | 40 => ⟨S1024x1, .f32⟩
  | 41 => ⟨S1024x1, .f32⟩
  | 42 => ⟨S1024, .f32⟩
  | _ => ⟨S1024x8x8, .i32⟩

abbrev hbmTy (i : Nat) : BufTy := match i / 128 with
  | 0 => hbmTy0_0 i
  | 1 => hbmTy0_1 i
  | _ => ⟨S1024x8x8, .i32⟩

abbrev bufTy : (tb : Table) → Fin (tcTables nBuf tb) → BufTy
  | .hbm, ⟨i, _⟩ => hbmTy i
  | _, _ => ⟨S1024x8x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_c : Ref sig .tc := ⟨.hbm, 17, rfl⟩
abbrev main_call0_c_0 : Ref sig .tc := ⟨.hbm, 18, rfl⟩
abbrev main_call0_v1_0 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_c : Ref sig .tc := ⟨.hbm, 25, rfl⟩
abbrev main_call1_c_0 : Ref sig .tc := ⟨.hbm, 26, rfl⟩
abbrev main_call1_v1_0 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_c_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_5 : Ref sig .tc := ⟨.hbm, 44, rfl⟩
abbrev main_v19 : Ref sig .tc := ⟨.hbm, 45, rfl⟩
abbrev main_v20 : Ref sig .tc := ⟨.hbm, 46, rfl⟩
abbrev main_c_6 : Ref sig .tc := ⟨.hbm, 47, rfl⟩
abbrev main_v21 : Ref sig .tc := ⟨.hbm, 48, rfl⟩
abbrev main_v22 : Ref sig .tc := ⟨.hbm, 49, rfl⟩
abbrev main_c_7 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_v31 : Ref sig .tc := ⟨.hbm, 60, rfl⟩
abbrev main_v32 : Ref sig .tc := ⟨.hbm, 61, rfl⟩
abbrev main_c_9 : Ref sig .tc := ⟨.hbm, 62, rfl⟩
abbrev main_v33 : Ref sig .tc := ⟨.hbm, 63, rfl⟩
abbrev main_v34 : Ref sig .tc := ⟨.hbm, 64, rfl⟩
abbrev main_c_10 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_11 : Ref sig .tc := ⟨.hbm, 73, rfl⟩
abbrev main_call2_v0 : Ref sig .tc := ⟨.hbm, 74, rfl⟩
abbrev main_call2_v1 : Ref sig .tc := ⟨.hbm, 75, rfl⟩
abbrev main_v42 : Ref sig .tc := ⟨.hbm, 76, rfl⟩
abbrev main_c_12 : Ref sig .tc := ⟨.hbm, 77, rfl⟩
abbrev main_call3_v0 : Ref sig .tc := ⟨.hbm, 78, rfl⟩
abbrev main_call3_v1 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst : Ref sig .tc := ⟨.hbm, 83, rfl⟩
abbrev main_v46 : Ref sig .tc := ⟨.hbm, 84, rfl⟩
abbrev main_c_13 : Ref sig .tc := ⟨.hbm, 85, rfl⟩
abbrev main_v47 : Ref sig .tc := ⟨.hbm, 86, rfl⟩
abbrev main_v48 : Ref sig .tc := ⟨.hbm, 87, rfl⟩
abbrev main_c_14 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c_15 : Ref sig .tc := ⟨.hbm, 92, rfl⟩
abbrev main_v52 : Ref sig .tc := ⟨.hbm, 93, rfl⟩
abbrev main_v53 : Ref sig .tc := ⟨.hbm, 94, rfl⟩
abbrev main_c_16 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_17 : Ref sig .tc := ⟨.hbm, 103, rfl⟩
abbrev main_v61 : Ref sig .tc := ⟨.hbm, 104, rfl⟩
abbrev main_v62 : Ref sig .tc := ⟨.hbm, 105, rfl⟩
abbrev main_cst_18 : Ref sig .tc := ⟨.hbm, 106, rfl⟩
abbrev main_v63 : Ref sig .tc := ⟨.hbm, 107, rfl⟩
abbrev main_c_19 : Ref sig .tc := ⟨.hbm, 108, rfl⟩
abbrev main_v64 : Ref sig .tc := ⟨.hbm, 109, rfl⟩
abbrev main_v65 : Ref sig .tc := ⟨.hbm, 110, rfl⟩
abbrev main_c_20 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_21 : Ref sig .tc := ⟨.hbm, 115, rfl⟩
abbrev main_v69 : Ref sig .tc := ⟨.hbm, 116, rfl⟩
abbrev main_v70 : Ref sig .tc := ⟨.hbm, 117, rfl⟩
abbrev main_c_22 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_23 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_call4_cst : Ref sig .tc := ⟨.hbm, 137, rfl⟩
abbrev main_call4_v0 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_call5_cst : Ref sig .tc := ⟨.hbm, 145, rfl⟩
abbrev main_call5_v0 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_call6_cst : Ref sig .tc := ⟨.hbm, 154, rfl⟩
abbrev main_call6_v0 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_call7_cst : Ref sig .tc := ⟨.hbm, 162, rfl⟩
abbrev main_call7_v0 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩

abbrev nD : Nat := 1
abbrev τ : Topo := Topo.v7x

variable {F : FTy → Type} [FloatOps F]

class Facts₀ : Prop where
  shapeCasts_S1024x8x8_S1024x64 : S1024x8x8.ShapeCasts S1024x64
  bcast_S_S1024x64 : S_.BroadcastsInDim S1024x64 (![] : Fin 0 → Fin S1024x64.rank)
  reducesTo_S1024x64_S1024_d1 : S1024x64.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x41024 : S_.BroadcastsInDim S1024x41024 (![] : Fin 0 → Fin S1024x41024.rank)
  bcast_S1024x64_S1024x64x1_0_1 : S1024x64.BroadcastsInDim S1024x64x1 (![0, 1] : Fin 2 → Fin S1024x64x1.rank)
  concatenates_S1024x64x1_S1024x64x1_S1024x64x2_d2 : Shape.Concatenates [S1024x64x1, S1024x64x1] S1024x64x2 2
  concatenates_S1024x41024_S1024x41024_S1024x82048_d1 : Shape.Concatenates [S1024x41024, S1024x41024] S1024x82048 1
  slices_S1024x82048_S1024x41024_0_0 : S1024x82048.Slices ![0, 0] S1024x41024
  slices_S1024x82048_S1024x41024_0_41024 : S1024x82048.Slices ![0, 41024] S1024x41024
  transposes_S256x41024_S41024x256_1_0 : S256x41024.Transposes [1, 0] S41024x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  concatenates_S1024x256_S1024x256_S1024x512_d1 : Shape.Concatenates [S1024x256, S1024x256] S1024x512 1
  transposes_S32x512_S512x32_1_0 : S32x512.Transposes [1, 0] S512x32
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  scatter_S1024x41024_S1024x64x2_S1024x64_n_01_01_2_wf : ScatterDims.WF S1024x41024 S1024x64x2 S1024x64 [] [0, 1] [0, 1] 2
  dot_S1024x41024_S41024x256_S1024x256_1_0_0_1_n_n_wf : DotDims.WF S1024x41024 S41024x256 S1024x256 [1] [0] [0] [1] [] []
  dot_S1024x512_S512x32_S1024x32_1_0_0_1_n_n_wf : DotDims.WF S1024x512 S512x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S1024x41024_S1024x64x2_S1024x64_n_01_01_2 : ScatterDims S1024x41024 S1024x64x2 S1024x64 where
  updateWindowDims := []
  insertedWindowDims := [0, 1]
  scatterDimsToOperandDims := [0, 1]
  indexVectorDim := 2
  wf := scatter_S1024x41024_S1024x64x2_S1024x64_n_01_01_2_wf
def dot_S1024x41024_S41024x256_S1024x256_1_0_0_1_n_n : DotDims S1024x41024 S41024x256 S1024x256 where
  lhsContracting := [1]
  rhsContracting := [0]
  lhsNonContracting := [0]
  rhsNonContracting := [1]
  lhsBatch := []
  rhsBatch := []
  wf := dot_S1024x41024_S41024x256_S1024x256_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.K.Runs.lean ====
import proofs.«431275_j61529701482572_2_alg».proof.Proof.Gen.Kernel.Launch
import proofs.«431275_j61529701482572_2_alg».proof.Proof.Gen.Kernel.Skeleton
import proofs.«431275_j61529701482572_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the one region

Five stretches of host operations come before the region and one after it.  None of them allocates, each touches
TensorCore references only, and none writes an argument array: every one writes its own result buffer. -/

/-- The stretches of host operations that precede the region, in program order. -/
abbrev hostPre : List (List (HloOp τ sig (Elt F))) := [hostOps0, hostOps0_1, hostOps0_2, hostOps0_3, hostOps0_4]

/-- What core `c`'s buffers hold when the region is entered: the launch contents pushed through the host
    operations that precede it. -/
abbrev V0 (c : Dev nD) : Valuation τ sig (Elt F) := StableHlo.after (List.flatten hostPre) (fun b => m (c, b))
/-- The same contents read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the earlier stretches, the region, the later stretch: started from the launch contents it
    reduces to the region, entered at `V`, continued by the later stretch. -/
theorem hmain (𝒱₀ : Variants) : Pipeline.HMainK (Ix := Unit) (Name := ℕ) (U := UR sig nD τ) (Lvl := ℕ) cfgs 0 defs₀ 𝒱₀ m (main (F := F))
      (fun c b => V0 m c (Proc.devRef .tc b)) (fun _ => Pipeline.chain ([hostOps1].map StableHlo.seq)) :=
  Pipeline.hmain_around cfgs 0 defs₀ 𝒱₀ m main hostPre [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-! ## No stretch writes an argument array -/

/-- Every reference the earlier stretches write, in program order (each operation writes its own result). -/
def preW : List (Ref sig .tc) :=
  [main_v0, main_c, main_v1, main_v2,
   main_call0_v0, main_call0_c, main_call0_c_0, main_call0_v1_0, main_v3,
   main_c_0, main_v4, main_v5,
   main_call1_v0, main_call1_c, main_call1_c_0, main_call1_v1_0, main_v6,
   main_cst, main_v7, main_c_1, main_v8, main_v9, main_v10, main_c_2, main_v11, main_v12, main_v13,
   main_c_3, main_v14, main_v15, main_v16, main_c_4, main_v17, main_v18, main_v19,
   main_c_5, main_v20, main_v21, main_v22, main_v23,
   main_c_6, main_v24, main_v25, main_v26, main_c_7, main_v27, main_v28, main_v29,
   main_c_8, main_v30, main_v31, main_v32, main_c_9, main_v33, main_v34, main_v35,
   main_c_10, main_v36, main_v37, main_v38, main_v39,
   main_v40, main_v41, main_v42, main_v43, main_v44, main_v45]

/-- Each operation of the earlier stretches writes a reference of that list. -/
theorem hostPre_writes : (List.flatten (hostPre (F := F))).Forall fun op =>
    op.writes ⊆ (preW.map (Proc.devRef (τ := τ) .tc)).toFinset := by
  simp only [hostPre, hostOps0, hostOps0_1, hostOps0_2, hostOps0_3, hostOps0_4, List.flatten_cons, List.flatten_nil,
    List.append_nil, List.cons_append, List.nil_append, List.Forall, StableHlo.nullary_writes, StableHlo.unary_writes,
    StableHlo.binary_writes, StableHlo.quaternary_writes, StableHlo.reshape_writes, StableHlo.nary_writes,
    Finset.singleton_subset_iff, List.mem_toFinset]
  repeat' apply And.intro
  all_goals exact List.mem_map_of_mem (by decide)

/-- Argument 0 is not in the list: the region finds it as launched. -/
theorem V_main_arg0 (c : Dev nD) : V m c main_arg0 = m ((c : Thread nD τ).loc main_arg0) :=
  StableHlo.after_of_writes_sub (W := preW) _ _ hostPre_writes (by decide)
/-- Argument 1 is not in the list: the region finds it as launched. -/
theorem V_main_arg1 (c : Dev nD) : V m c main_arg1 = m ((c : Thread nD τ).loc main_arg1) :=
  StableHlo.after_of_writes_sub (W := preW) _ _ hostPre_writes (by decide)
/-- Argument 2 is not in the list: the region finds it as launched. -/
theorem V_main_arg2 (c : Dev nD) : V m c main_arg2 = m ((c : Thread nD τ).loc main_arg2) :=
  StableHlo.after_of_writes_sub (W := preW) _ _ hostPre_writes (by decide)
/-- Argument 3 is not in the list: the region finds it as launched. -/
theorem V_main_arg3 (c : Dev nD) : V m c main_arg3 = m ((c : Thread nD τ).loc main_arg3) :=
  StableHlo.after_of_writes_sub (W := preW) _ _ hostPre_writes (by decide)
/-- Argument 4 is not in the list: the region finds it as launched. -/
theorem V_main_arg4 (c : Dev nD) : V m c main_arg4 = m ((c : Thread nD τ).loc main_arg4) :=
  StableHlo.after_of_writes_sub (W := preW) _ _ hostPre_writes (by decide)
/-- Argument 5 is not in the list: the region finds it as launched. -/
theorem V_main_arg5 (c : Dev nD) : V m c main_arg5 = m ((c : Thread nD τ).loc main_arg5) :=
  StableHlo.after_of_writes_sub (W := preW) _ _ hostPre_writes (by decide)
/-- Argument 6 is not in the list: the region finds it as launched. -/
theorem V_main_arg6 (c : Dev nD) : V m c main_arg6 = m ((c : Thread nD τ).loc main_arg6) :=
  StableHlo.after_of_writes_sub (W := preW) _ _ hostPre_writes (by decide)
/-- Argument 7 is not in the list: the region finds it as launched. -/
theorem V_main_arg7 (c : Dev nD) : V m c main_arg7 = m ((c : Thread nD τ).loc main_arg7) :=
  StableHlo.after_of_writes_sub (W := preW) _ _ hostPre_writes (by decide)
/-- Argument 8 is not in the list: the region finds it as launched. -/
theorem V_main_arg8 (c : Dev nD) : V m c main_arg8 = m ((c : Thread nD τ).loc main_arg8) :=
  StableHlo.after_of_writes_sub (W := preW) _ _ hostPre_writes (by decide)
/-- Argument 9 is not in the list: the region finds it as launched. -/
theorem V_main_arg9 (c : Dev nD) : V m c main_arg9 = m ((c : Thread nD τ).loc main_arg9) :=
  StableHlo.after_of_writes_sub (W := preW) _ _ hostPre_writes (by decide)
/-- Argument 10 is not in the list: the region finds it as launched. -/
theorem V_main_arg10 (c : Dev nD) : V m c main_arg10 = m ((c : Thread nD τ).loc main_arg10) :=
  StableHlo.after_of_writes_sub (W := preW) _ _ hostPre_writes (by decide)

/-! ## The stretch after the region -/

/-- It touches the pipeline's arrays and the buffers that bypass the region only: with nothing prefetched every
    unscoped TensorCore reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- Its one operation writes the reshaped result, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  obtain rfl := List.mem_singleton.mp hop
  rw [StableHlo.reshape_writes, Finset.mem_singleton]
  exact StableHlo.devRef_ne_of_ne ((by decide : ∀ w, Pipeline.arrRef spec0 w ≠ main_v47) w)

/-- A reference that is neither the reshaped result nor a window's array holds after the later stretch what the
    region found in it. -/
theorem tail_keeps (dats : (p : Fin 1) → (c : Dev nD) → Dat τ (Elt F) Unit ℕ (UR sig nD τ) ℕ (cfgs p) c) (c : Dev nD)
    (b : Ref sig .tc) (hb : b ≠ main_v47) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (fun op hop => by
      simp only [hostOps1, List.flatten_cons, List.flatten_nil, List.append_nil, List.mem_singleton] at hop
      subst hop
      rw [StableHlo.reshape_writes, Finset.mem_singleton]
      exact StableHlo.devRef_ne_of_ne hb),
    Pipeline.withArrays_of_ne _ c (V0 m c) _ b harr]

/-- Argument 0 is no window's array and the later stretch does not write it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_keeps m dats c main_arg0 (by decide) (by decide)).trans (V_main_arg0 m c)
/-- Argument 1 is no window's array and the later stretch does not write it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (by decide) (by decide)).trans (V_main_arg1 m c)
/-- Argument 3 is no window's array and the later stretch does not write it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_keeps m dats c main_arg3 (by decide) (by decide)).trans (V_main_arg3 m c)

/-! ## The windows' blocks -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds the window's block at every point, whether the pipeline fetched it
there or not (where it did not, the block index has not moved since the last fetch) — for any proof data whose array
is the region-entry contents and whose body leaves the block in place.  One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## From the frame run's post to the frame claim's -/

/-- For any proof data whose arrays are the region-entry contents: a run ending with every window's array at what
    the library computes from the data, and every bypassing buffer at what the later stretch leaves, ends with every
    argument array as launched.  A staged argument (windows 6 to 13) is an input, whose array the pipeline never
    writes; arguments 0, 1 and 3 bypass the region and the later stretch does not write them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 6).trans (((dats 0 c).arrAt_in 6 rfl _).trans ((hA c 6).trans (V_main_arg2 m c))),
      ((h c).2 main_arg3 (Pipeline.mem_restRefs_of main_arg3 (by decide) (by decide))).trans (W_main_arg3 m dats c),
      ((h c).1 7).trans (((dats 0 c).arrAt_in 7 rfl _).trans ((hA c 7).trans (V_main_arg4 m c))),
      ((h c).1 8).trans (((dats 0 c).arrAt_in 8 rfl _).trans ((hA c 8).trans (V_main_arg5 m c))),
      ((h c).1 9).trans (((dats 0 c).arrAt_in 9 rfl _).trans ((hA c 9).trans (V_main_arg6 m c))),
      ((h c).1 10).trans (((dats 0 c).arrAt_in 10 rfl _).trans ((hA c 10).trans (V_main_arg7 m c))),
      ((h c).1 11).trans (((dats 0 c).arrAt_in 11 rfl _).trans ((hA c 11).trans (V_main_arg8 m c))),
      ((h c).1 12).trans (((dats 0 c).arrAt_in 12 rfl _).trans ((hA c 12).trans (V_main_arg9 m c))),
      ((h c).1 13).trans (((dats 0 c).arrAt_in 13 rfl _).trans ((hA c 13).trans (V_main_arg10 m c)))⟩) h

/-! ## The two conditions of the body -/

/-- The first `scf.if`: the grid coordinate is 0 (the scratch accumulators are reset). -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second `scf.if`: the grid coordinate is 63 (the result is computed from the accumulators and stored). -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
/-- At the first point the body stores nothing into the output window, and the pipeline does not write it back. -/
theorem idleAt0_14_A : ∀ t : Fin cfg0.N, cond0_0 (grid0.coords t) → ¬cond0_1 (grid0.coords t) → cfg0.idle 14 (grid0.coords t) = true := by decide +kernel
theorem noFlush0_14_A : ∀ t : Fin cfg0.N, cond0_0 (grid0.coords t) → ¬cond0_1 (grid0.coords t) → (cfg0.win 14).flush t = false := by decide +kernel
/-- Likewise at the points strictly between the first and the last. -/
theorem idleAt0_14_B : ∀ t : Fin cfg0.N, ¬cond0_0 (grid0.coords t) → ¬cond0_1 (grid0.coords t) → cfg0.idle 14 (grid0.coords t) = true := by decide +kernel
theorem noFlush0_14_B : ∀ t : Fin cfg0.N, ¬cond0_0 (grid0.coords t) → ¬cond0_1 (grid0.coords t) → (cfg0.win 14).flush t = false := by decide +kernel
/-- At the last point the output window is live: the body stores the result into it. -/
theorem liveAt0_14_C : ∀ t : Fin cfg0.N, ¬cond0_0 (grid0.coords t) → cond0_1 (grid0.coords t) → cfg0.idle 14 (grid0.coords t) = false := by decide +kernel

/-! ## The memrefs the body is called with -/

/-- One staging buffer of the output window, through which its contents are stated. -/
abbrev VO0_14 : View sig .tc .vmem S1024x1 .f32 := (Memref.whole cc0_stg14_0 : Memref sig .tc .vmem S1024x1 .f32).view
abbrev ms0_0 (t : Fin cfg0.N) : Memref sig .tc .vmem S1024x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x32 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x32 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1 .f32 := win0_14.stage (cfg0.slots t 14)
abbrev hs0_14 (t : Fin cfg0.N) : (ms0_14 t).IsWhole := hstage0_14 ((cfg0.slots t 14).cast nbuf0_14)
/-- The two scratch accumulators: whole scoped buffers of the kernel's own, passed beside the windows. -/
abbrev scM0_0 : Memref sig .tc .vmem S1024x256 .f32 := Memref.whole cc0_scratch0
abbrev scM0_1 : Memref sig .tc .vmem S1024x256 .f32 := Memref.whole cc0_scratch1
/-- The same as views: what they hold is stated through these. -/
abbrev VS0_0 : View sig .tc .vmem S1024x256 .f32 := scM0_0.view
abbrev VS0_1 : View sig .tc .vmem S1024x256 .f32 := scM0_1.view

/-- The class invariant of the region, with the two scratch accumulators as memrefs owned at some contents: what the
    body obligation hands the run at the first point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunA.lean ====
import proofs.«431275_j61529701482572_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE FIRST POINT (the coordinate is 0 and is not 63).  On whole memrefs — the fourteen inputs' at
    their contents `x·`, the output window's at contents `xi14` it does not touch, the two scratch accumulators at
    anything — the body runs to a continuation holding the inputs and the output window as they were and each
    accumulator with a list of pieces written into it.  The accumulators are first reset (a zero fill each), then the
    point's contribution is added: the pieces, last store first, are the witness the symbolic run finds; the output
    window gets none. -/
noncomputable def kernelRun0_A (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) :
    Σ' (L14 : List (View.Piece (Elt F) S1024x1 .f32)) (LS0 : List (View.Piece (Elt F) S1024x256 .f32)), { LS1 : List (View.Piece (Elt F) S1024x256 .f32) //
      ∀ (xi14 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, fun xi14 E K => ?run⟩
  case run =>
    simp only [cc0__ffn_kernel_eq_skeleton]; unfold cc0__ffn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    iexists _; iexact HS1

end Cert.Kernel.Hand

end
-- ==== Proof.K.RunB.lean ====
import proofs.«431275_j61529701482572_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY STRICTLY BETWEEN THE FIRST AND THE LAST POINT (the coordinate is neither 0 nor 63).  As at the first
    point, but nothing is reset: the accumulators are taken at the contents `xs0`, `xs1` the point before left, and
    each gets the point's contribution added to what it held — one piece each, over what was read. -/
noncomputable def kernelRun0_B (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) :
    Σ' (L14 : List (View.Piece (Elt F) S1024x1 .f32)) (LS0 : List (View.Piece (Elt F) S1024x256 .f32)), { LS1 : List (View.Piece (Elt F) S1024x256 .f32) //
      ∀ (xi14 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, fun xi14 E K => ?run⟩
  case run =>
    simp only [cc0__ffn_kernel_eq_skeleton]; unfold cc0__ffn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hfs0; obtain rfl := harg17.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    iexists _; iexact HS1

end Cert.Kernel.Hand

end
-- ==== Proof.K.RunC.lean ====
import proofs.«431275_j61529701482572_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE LAST POINT (the coordinate is 63 and is not 0).  The accumulators are taken at the contents
    `xs0`, `xs1` the point before left and get the point's contribution as in the middle case; then the result is
    computed from the two accumulators as they now stand and the small weight inputs, and stored over the whole output
    window, which is taken at anything and returned with that one piece written. -/
noncomputable def kernelRun0_C (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) :
    Σ' (L14 : List (View.Piece (Elt F) S1024x1 .f32)) (LS0 : List (View.Piece (Elt F) S1024x256 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__ffn_kernel_eq_skeleton]; unfold cc0__ffn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hfs0; obtain rfl := harg17.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [HS0]; · iexists _; iexact HS0
    iexists _; iexact HS1

end Cert.Kernel.Hand

end
-- ==== Proof.K.Frame.lean ====
import proofs.«431275_j61529701482572_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the body stores nothing into the output window: no pieces.  The value below (junk read back) is a
    placeholder nothing consults, the window being neither written back there nor read at the next point. -/
def out0_A_14 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) : Vec F S1024x1 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).1)

/-- The pieces the body writes into scratch accumulator 0 at the first point cover it (each is a store of the whole accumulator). -/
theorem scover0_A_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (y : S1024x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1 S1024x256.size (by sl_kernel_rfl) y

/-- What the body leaves in scratch accumulator 0 at the first point: its pieces read back. -/
def sout0_A_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) : Vec F S1024x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1)

/-- The pieces the body writes into scratch accumulator 1 at the first point cover it (each is a store of the whole accumulator). -/
theorem scover0_A_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (y : S1024x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.2.1 S1024x256.size (by sl_kernel_rfl) y

/-- What the body leaves in scratch accumulator 1 at the first point: its pieces read back. -/
def sout0_A_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) : Vec F S1024x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.2.1)

/-- Strictly between the first and the last point the body stores nothing into the output window: no pieces.  The value below (junk read back) is a
    placeholder nothing consults, the window being neither written back there nor read at the next point. -/
def out0_B_14 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x1 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1)

/-- The pieces the body writes into scratch accumulator 0 strictly between the first and the last point cover it (each is a store of the whole accumulator). -/
theorem scover0_B_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1 S1024x256.size (by sl_kernel_rfl) y

/-- What the body leaves in scratch accumulator 0 strictly between the first and the last point: its pieces read back. -/
def sout0_B_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1)

/-- The pieces the body writes into scratch accumulator 1 strictly between the first and the last point cover it (each is a store of the whole accumulator). -/
theorem scover0_B_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1 S1024x256.size (by sl_kernel_rfl) y

/-- What the body leaves in scratch accumulator 1 strictly between the first and the last point: its pieces read back. -/
def sout0_B_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1)

/-- At the last point the one piece stored into the output window is the whole window: the pieces cover it. -/
theorem cover0_C_14 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1 S1024x1.size (by sl_kernel_rfl) y

/-- What the body leaves in the output window's staging buffer at the last point: its piece read back. -/
def out0_C_14 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x1 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1)

/-- The pieces the body writes into scratch accumulator 0 at the last point cover it (each is a store of the whole accumulator). -/
theorem scover0_C_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1 S1024x256.size (by sl_kernel_rfl) y

/-- What the body leaves in scratch accumulator 0 at the last point: its pieces read back. -/
def sout0_C_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1)

/-- The pieces the body writes into scratch accumulator 1 at the last point cover it (each is a store of the whole accumulator). -/
theorem scover0_C_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1 S1024x256.size (by sl_kernel_rfl) y

/-- What the body leaves in scratch accumulator 1 at the last point: its pieces read back. -/
def sout0_C_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x256 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1)

/-! ## What the output window and the accumulators hold after each point -/

/-- THE ACCUMULATION.  After the body at position `n`: (the output window's staging buffer, accumulator 0,
    accumulator 1).  Position 0 is the first case, run at that point's memrefs and input blocks, the accumulators
    taken at anything; a later position is the last case when it is 63 and the middle case otherwise, run over what
    position `n - 1` left in the two accumulators. -/
def outsAt0 (c : Dev nD) : (n : ℕ) → n < cfg0.N → Vec F S1024x1 .f32 × Vec F S1024x256 .f32 × Vec F S1024x256 .f32
  | 0, hn =>
      (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr rfl) (fun h => (by decide : ¬(0 : ℕ) = 63) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr rfl) (fun h => (by decide : ¬(0 : ℕ) = 63) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr rfl) (fun h => (by decide : ¬(0 : ℕ) = 63) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩))
  | n + 1, hn =>
    if h1 : n + 1 = 63 then
      (out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2)
    else
      (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2)

/-- `outsAt0` at the first point: the first case's contents. -/
theorem outsAt0_A (c : Dev nD) (t : Fin cfg0.N) (h0 : t.val = 0) (h1 : ¬t.val = 63) :
    outsAt0 m c t.val t.isLt =
      (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact absurd h0 (Nat.succ_ne_zero n)

/-- `outsAt0` strictly between the first and the last point: the middle case's contents over what the point before left. -/
theorem outsAt0_B (c : Dev nD) (t : Fin cfg0.N) (h0 : ¬t.val = 0) (h1 : ¬t.val = 63) :
    outsAt0 m c t.val t.isLt =
      (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd rfl h0
  | succ n => exact (dif_neg h1).trans rfl

/-- `outsAt0` at the last point: the last case's contents over what the point before left. -/
theorem outsAt0_C (c : Dev nD) (t : Fin cfg0.N) (h0 : ¬t.val = 0) (h1 : t.val = 63) :
    outsAt0 m c t.val t.isLt =
      (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant, point by point -/

/-- Before position 0 the class invariant (both accumulators at anything); before position `n + 1` both accumulators
    owned at what position `n` left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- On core `c`: the arrays as the region finds them; after the body at point `t` each input's buffer at its block and
    the output window's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨_ + 15, h⟩ => absurd h (Nat.not_lt.2 (Nat.le_add_left _ _))
  Φ t := PhiS m c t.val (Nat.le_of_lt_succ t.isLt)
  q _ := fullShare
  owed _ := 0

/-- The data's arrays are the region-entry contents (the definition projected; `V` stays folded). -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! What the body must leave in an input window's buffer: the block it found there (no input is ever idle). -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) :
    (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]
theorem leaves0_7 (c : Dev nD) (t : Fin cfg0.N) :
    (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after0_7]
theorem leaves0_8 (c : Dev nD) (t : Fin cfg0.N) :
    (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by
    unfold Dat.leavesExact; rw [liveAt0_8 t], after0_8]
theorem leaves0_9 (c : Dev nD) (t : Fin cfg0.N) :
    (dats m 0 c).leavesExact 9 t = owns (c : Thread nD τ) (ms0_9 t) fullShare (iblk m c 9 t) := by
  rw [show (dats m 0 c).leavesExact 9 t = owns (c : Thread nD τ) (ms0_9 t) fullShare ((dats m 0 c).after 9 t) from by
    unfold Dat.leavesExact; rw [liveAt0_9 t], after0_9]
theorem leaves0_10 (c : Dev nD) (t : Fin cfg0.N) :
    (dats m 0 c).leavesExact 10 t = owns (c : Thread nD τ) (ms0_10 t) fullShare (iblk m c 10 t) := by
  rw [show (dats m 0 c).leavesExact 10 t = owns (c : Thread nD τ) (ms0_10 t) fullShare ((dats m 0 c).after 10 t) from by
    unfold Dat.leavesExact; rw [liveAt0_10 t], after0_10]
theorem leaves0_11 (c : Dev nD) (t : Fin cfg0.N) :
    (dats m 0 c).leavesExact 11 t = owns (c : Thread nD τ) (ms0_11 t) fullShare (iblk m c 11 t) := by
  rw [show (dats m 0 c).leavesExact 11 t = owns (c : Thread nD τ) (ms0_11 t) fullShare ((dats m 0 c).after 11 t) from by
    unfold Dat.leavesExact; rw [liveAt0_11 t], after0_11]
theorem leaves0_12 (c : Dev nD) (t : Fin cfg0.N) :
    (dats m 0 c).leavesExact 12 t = owns (c : Thread nD τ) (ms0_12 t) fullShare (iblk m c 12 t) := by
  rw [show (dats m 0 c).leavesExact 12 t = owns (c : Thread nD τ) (ms0_12 t) fullShare ((dats m 0 c).after 12 t) from by
    unfold Dat.leavesExact; rw [liveAt0_12 t], after0_12]
theorem leaves0_13 (c : Dev nD) (t : Fin cfg0.N) :
    (dats m 0 c).leavesExact 13 t = owns (c : Thread nD τ) (ms0_13 t) fullShare (iblk m c 13 t) := by
  rw [show (dats m 0 c).leavesExact 13 t = owns (c : Thread nD τ) (ms0_13 t) fullShare ((dats m 0 c).after 13 t) from by
    unfold Dat.leavesExact; rw [liveAt0_13 t], after0_13]
/-- And in the output window's at the last point, where it is live: `outsAt0`'s first component. -/
theorem leaves0_14_C (c : Dev nD) (t : Fin cfg0.N) (h0 : ¬cond0_0 (grid0.coords t)) (h1 : cond0_1 (grid0.coords t)) :
    (dats m 0 c).leavesExact 14 t = owns (c : Thread nD τ) (ms0_14 t) fullShare ((outsAt0 m c t.val t.isLt).1) := by
  rw [show (dats m 0 c).leavesExact 14 t = owns (c : Thread nD τ) (ms0_14 t) fullShare ((dats m 0 c).after 14 t) from by
    unfold Dat.leavesExact; rw [liveAt0_14_C t h0 h1], after0_14]

/-! ## The body obligation at a generic point -/

/-- What the body is called with at point `t`: the invariant, the (empty) debt, and each window's current staging
    buffer at what the pipeline put or left there. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it must return. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 8000000 in
/-- The body at any point.  Every input's memref holds its block; the point is the first, a middle one or the last,
    which decides both conditions, so that case's run applies.  The invariant lends the run the two accumulators — at
    anything at the first point, at what the point before left otherwise — and takes them back at this point's
    contents, the pieces written covering each.  The output window's buffer is handed back untouched where it is idle,
    and at the last point with the result stored over the whole of it.  Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t]
  have hN : t.val < 64 := lt_of_lt_of_eq t.isLt (show cfg0.N = 64 from N_0)
  by_cases h0 : t.val = 0
  · have h1 : ¬t.val = 63 := by omega
    rw [Dat.leavesExact_idle (dats m 0 c) 14 t (idleAt0_14_A t ((hcond0_0 t).mpr h0) (fun h => h1 ((hcond0_1 t).mp h))) (noFlush0_14_A t ((hcond0_0 t).mpr h0) (fun h => h1 ((hcond0_1 t).mp h)))]
    rw [outsAt0_A m c t h0 h1]
    unfold sout0_A_0 sout0_A_1; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, H10, H11, H12, H13, H14, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  · by_cases h1 : t.val = 63
    · rw [leaves0_14_C m c t (fun h => h0 ((hcond0_0 t).mp h)) ((hcond0_1 t).mpr h1)]
      rw [outsAt0_C m c t h0 h1]
      unfold out0_C_14 sout0_C_0 sout0_C_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      isplitl [HS1]; · iexact HS1
      iintro ⟨H0, H1, H2, H3, H4, H5, H6, H7, H8, H9, H10, H11, H12, H13, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _)
    · rw [Dat.leavesExact_idle (dats m 0 c) 14 t (idleAt0_14_B t (fun h => h0 ((hcond0_0 t).mp h)) (fun h => h1 ((hcond0_1 t).mp h))) (noFlush0_14_B t (fun h => h0 ((hcond0_0 t).mp h)) (fun h => h1 ((hcond0_1 t).mp h)))]
      rw [outsAt0_B m c t h0 h1]
      unfold sout0_B_0 sout0_B_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, H10, H11, H12, H13, H14, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexists _; iexact H14

/-- The body obligation, at every point: the windows conjoined one by one, then `sound_body`. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- In particular after the last. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the entry function on the TensorCores
    terminates, and every final state has each window's array at what the proof data compute and every other unscoped
    buffer as the later stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any `F`: the entry function terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KI.Runs.lean ====
import proofs.«431275_j61529701482572_2_alg».proof.Proof.Gen.KernelIdeal.Launch
import proofs.«431275_j61529701482572_2_alg».proof.Proof.Gen.KernelIdeal.Skeleton
import proofs.«431275_j61529701482572_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the one region

Five stretches of host operations come before the region and one after it.  None of them allocates, each touches
TensorCore references only, and none writes an argument array: every one writes its own result buffer. -/

/-- The stretches of host operations that precede the region, in program order. -/
abbrev hostPre : List (List (HloOp τ sig (Elt F))) := [hostOps0, hostOps0_1, hostOps0_2, hostOps0_3, hostOps0_4]

/-- What core `c`'s buffers hold when the region is entered: the launch contents pushed through the host
    operations that precede it. -/
abbrev V0 (c : Dev nD) : Valuation τ sig (Elt F) := StableHlo.after (List.flatten hostPre) (fun b => m (c, b))
/-- The same contents read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the earlier stretches, the region, the later stretch: started from the launch contents it
    reduces to the region, entered at `V`, continued by the later stretch. -/
theorem hmain (𝒱₀ : Variants) : Pipeline.HMainK (Ix := Unit) (Name := ℕ) (U := UR sig nD τ) (Lvl := ℕ) cfgs 0 defs₀ 𝒱₀ m (main (F := F))
      (fun c b => V0 m c (Proc.devRef .tc b)) (fun _ => Pipeline.chain ([hostOps1].map StableHlo.seq)) :=
  Pipeline.hmain_around cfgs 0 defs₀ 𝒱₀ m main hostPre [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-! ## No stretch writes an argument array -/

/-- Every reference the earlier stretches write, in program order (each operation writes its own result). -/
def preW : List (Ref sig .tc) :=
  [main_v0, main_c, main_v1, main_v2,
   main_call0_v0, main_call0_c, main_call0_c_0, main_call0_v1_0, main_v3,
   main_c_0, main_v4, main_v5,
   main_call1_v0, main_call1_c, main_call1_c_0, main_call1_v1_0, main_v6,
   main_cst, main_v7, main_c_1, main_v8, main_v9, main_v10, main_c_2, main_v11, main_v12, main_v13,
   main_c_3, main_v14, main_v15, main_v16, main_c_4, main_v17, main_v18, main_v19,
   main_c_5, main_v20, main_v21, main_v22, main_v23,
   main_c_6, main_v24, main_v25, main_v26, main_c_7, main_v27, main_v28, main_v29,
   main_c_8, main_v30, main_v31, main_v32, main_c_9, main_v33, main_v34, main_v35,
   main_c_10, main_v36, main_v37, main_v38, main_v39,
   main_v40, main_v41, main_v42, main_v43, main_v44, main_v45]

/-- Each operation of the earlier stretches writes a reference of that list. -/
theorem hostPre_writes : (List.flatten (hostPre (F := F))).Forall fun op =>
    op.writes ⊆ (preW.map (Proc.devRef (τ := τ) .tc)).toFinset := by
  simp only [hostPre, hostOps0, hostOps0_1, hostOps0_2, hostOps0_3, hostOps0_4, List.flatten_cons, List.flatten_nil,
    List.append_nil, List.cons_append, List.nil_append, List.Forall, StableHlo.nullary_writes, StableHlo.unary_writes,
    StableHlo.binary_writes, StableHlo.quaternary_writes, StableHlo.reshape_writes, StableHlo.nary_writes,
    Finset.singleton_subset_iff, List.mem_toFinset]
  repeat' apply And.intro
  all_goals exact List.mem_map_of_mem (by decide)

/-- Argument 0 is not in the list: the region finds it as launched. -/
theorem V_main_arg0 (c : Dev nD) : V m c main_arg0 = m ((c : Thread nD τ).loc main_arg0) :=
  StableHlo.after_of_writes_sub (W := preW) _ _ hostPre_writes (by decide)
/-- Argument 1 is not in the list: the region finds it as launched. -/
theorem V_main_arg1 (c : Dev nD) : V m c main_arg1 = m ((c : Thread nD τ).loc main_arg1) :=
  StableHlo.after_of_writes_sub (W := preW) _ _ hostPre_writes (by decide)
/-- Argument 2 is not in the list: the region finds it as launched. -/
theorem V_main_arg2 (c : Dev nD) : V m c main_arg2 = m ((c : Thread nD τ).loc main_arg2) :=
  StableHlo.after_of_writes_sub (W := preW) _ _ hostPre_writes (by decide)
/-- Argument 3 is not in the list: the region finds it as launched. -/
theorem V_main_arg3 (c : Dev nD) : V m c main_arg3 = m ((c : Thread nD τ).loc main_arg3) :=
  StableHlo.after_of_writes_sub (W := preW) _ _ hostPre_writes (by decide)
/-- Argument 4 is not in the list: the region finds it as launched. -/
theorem V_main_arg4 (c : Dev nD) : V m c main_arg4 = m ((c : Thread nD τ).loc main_arg4) :=
  StableHlo.after_of_writes_sub (W := preW) _ _ hostPre_writes (by decide)
/-- Argument 5 is not in the list: the region finds it as launched. -/
theorem V_main_arg5 (c : Dev nD) : V m c main_arg5 = m ((c : Thread nD τ).loc main_arg5) :=
  StableHlo.after_of_writes_sub (W := preW) _ _ hostPre_writes (by decide)
/-- Argument 6 is not in the list: the region finds it as launched. -/
theorem V_main_arg6 (c : Dev nD) : V m c main_arg6 = m ((c : Thread nD τ).loc main_arg6) :=
  StableHlo.after_of_writes_sub (W := preW) _ _ hostPre_writes (by decide)
/-- Argument 7 is not in the list: the region finds it as launched. -/
theorem V_main_arg7 (c : Dev nD) : V m c main_arg7 = m ((c : Thread nD τ).loc main_arg7) :=
  StableHlo.after_of_writes_sub (W := preW) _ _ hostPre_writes (by decide)
/-- Argument 8 is not in the list: the region finds it as launched. -/
theorem V_main_arg8 (c : Dev nD) : V m c main_arg8 = m ((c : Thread nD τ).loc main_arg8) :=
  StableHlo.after_of_writes_sub (W := preW) _ _ hostPre_writes (by decide)
/-- Argument 9 is not in the list: the region finds it as launched. -/
theorem V_main_arg9 (c : Dev nD) : V m c main_arg9 = m ((c : Thread nD τ).loc main_arg9) :=
  StableHlo.after_of_writes_sub (W := preW) _ _ hostPre_writes (by decide)
/-- Argument 10 is not in the list: the region finds it as launched. -/
theorem V_main_arg10 (c : Dev nD) : V m c main_arg10 = m ((c : Thread nD τ).loc main_arg10) :=
  StableHlo.after_of_writes_sub (W := preW) _ _ hostPre_writes (by decide)

/-! ## The stretch after the region -/

/-- It touches the pipeline's arrays and the buffers that bypass the region only: with nothing prefetched every
    unscoped TensorCore reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- Its one operation writes the reshaped result, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  obtain rfl := List.mem_singleton.mp hop
  rw [StableHlo.reshape_writes, Finset.mem_singleton]
  exact StableHlo.devRef_ne_of_ne ((by decide : ∀ w, Pipeline.arrRef spec0 w ≠ main_v47) w)

/-- A reference that is neither the reshaped result nor a window's array holds after the later stretch what the
    region found in it. -/
theorem tail_keeps (dats : (p : Fin 1) → (c : Dev nD) → Dat τ (Elt F) Unit ℕ (UR sig nD τ) ℕ (cfgs p) c) (c : Dev nD)
    (b : Ref sig .tc) (hb : b ≠ main_v47) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (fun op hop => by
      simp only [hostOps1, List.flatten_cons, List.flatten_nil, List.append_nil, List.mem_singleton] at hop
      subst hop
      rw [StableHlo.reshape_writes, Finset.mem_singleton]
      exact StableHlo.devRef_ne_of_ne hb),
    Pipeline.withArrays_of_ne _ c (V0 m c) _ b harr]

/-- Argument 0 is no window's array and the later stretch does not write it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_keeps m dats c main_arg0 (by decide) (by decide)).trans (V_main_arg0 m c)
/-- Argument 1 is no window's array and the later stretch does not write it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (by decide) (by decide)).trans (V_main_arg1 m c)
/-- Argument 3 is no window's array and the later stretch does not write it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_keeps m dats c main_arg3 (by decide) (by decide)).trans (V_main_arg3 m c)

/-! ## The windows' blocks -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds the window's block at every point, whether the pipeline fetched it
there or not (where it did not, the block index has not moved since the last fetch) — for any proof data whose array
is the region-entry contents and whose body leaves the block in place.  One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## From the frame run's post to the frame claim's -/

/-- For any proof data whose arrays are the region-entry contents: a run ending with every window's array at what
    the library computes from the data, and every bypassing buffer at what the later stretch leaves, ends with every
    argument array as launched.  A staged argument (windows 6 to 13) is an input, whose array the pipeline never
    writes; arguments 0, 1 and 3 bypass the region and the later stretch does not write them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 6).trans (((dats 0 c).arrAt_in 6 rfl _).trans ((hA c 6).trans (V_main_arg2 m c))),
      ((h c).2 main_arg3 (Pipeline.mem_restRefs_of main_arg3 (by decide) (by decide))).trans (W_main_arg3 m dats c),
      ((h c).1 7).trans (((dats 0 c).arrAt_in 7 rfl _).trans ((hA c 7).trans (V_main_arg4 m c))),
      ((h c).1 8).trans (((dats 0 c).arrAt_in 8 rfl _).trans ((hA c 8).trans (V_main_arg5 m c))),
      ((h c).1 9).trans (((dats 0 c).arrAt_in 9 rfl _).trans ((hA c 9).trans (V_main_arg6 m c))),
      ((h c).1 10).trans (((dats 0 c).arrAt_in 10 rfl _).trans ((hA c 10).trans (V_main_arg7 m c))),
      ((h c).1 11).trans (((dats 0 c).arrAt_in 11 rfl _).trans ((hA c 11).trans (V_main_arg8 m c))),
      ((h c).1 12).trans (((dats 0 c).arrAt_in 12 rfl _).trans ((hA c 12).trans (V_main_arg9 m c))),
      ((h c).1 13).trans (((dats 0 c).arrAt_in 13 rfl _).trans ((hA c 13).trans (V_main_arg10 m c)))⟩) h

/-! ## The two conditions of the body -/

/-- The first `scf.if`: the grid coordinate is 0 (the scratch accumulators are reset). -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second `scf.if`: the grid coordinate is 63 (the result is computed from the accumulators and stored). -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
/-- At the first point the body stores nothing into the output window, and the pipeline does not write it back. -/
theorem idleAt0_14_A : ∀ t : Fin cfg0.N, cond0_0 (grid0.coords t) → ¬cond0_1 (grid0.coords t) → cfg0.idle 14 (grid0.coords t) = true := by decide +kernel
theorem noFlush0_14_A : ∀ t : Fin cfg0.N, cond0_0 (grid0.coords t) → ¬cond0_1 (grid0.coords t) → (cfg0.win 14).flush t = false := by decide +kernel
/-- Likewise at the points strictly between the first and the last. -/
theorem idleAt0_14_B : ∀ t : Fin cfg0.N, ¬cond0_0 (grid0.coords t) → ¬cond0_1 (grid0.coords t) → cfg0.idle 14 (grid0.coords t) = true := by decide +kernel
theorem noFlush0_14_B : ∀ t : Fin cfg0.N, ¬cond0_0 (grid0.coords t) → ¬cond0_1 (grid0.coords t) → (cfg0.win 14).flush t = false := by decide +kernel
/-- At the last point the output window is live: the body stores the result into it. -/
theorem liveAt0_14_C : ∀ t : Fin cfg0.N, ¬cond0_0 (grid0.coords t) → cond0_1 (grid0.coords t) → cfg0.idle 14 (grid0.coords t) = false := by decide +kernel

/-! ## The memrefs the body is called with -/

/-- One staging buffer of the output window, through which its contents are stated. -/
abbrev VO0_14 : View sig .tc .vmem S1024x1 .f32 := (Memref.whole cc0_stg14_0 : Memref sig .tc .vmem S1024x1 .f32).view
abbrev ms0_0 (t : Fin cfg0.N) : Memref sig .tc .vmem S1024x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x32 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x32 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1 .f32 := win0_14.stage (cfg0.slots t 14)
abbrev hs0_14 (t : Fin cfg0.N) : (ms0_14 t).IsWhole := hstage0_14 ((cfg0.slots t 14).cast nbuf0_14)
/-- The two scratch accumulators: whole scoped buffers of the kernel's own, passed beside the windows. -/
abbrev scM0_0 : Memref sig .tc .vmem S1024x256 .f32 := Memref.whole cc0_scratch0
abbrev scM0_1 : Memref sig .tc .vmem S1024x256 .f32 := Memref.whole cc0_scratch1
/-- The same as views: what they hold is stated through these. -/
abbrev VS0_0 : View sig .tc .vmem S1024x256 .f32 := scM0_0.view
abbrev VS0_1 : View sig .tc .vmem S1024x256 .f32 := scM0_1.view

/-- The class invariant of the region, with the two scratch accumulators as memrefs owned at some contents: what the
    body obligation hands the run at the first point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunA.lean ====
import proofs.«431275_j61529701482572_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE FIRST POINT (the coordinate is 0 and is not 63).  On whole memrefs — the fourteen inputs' at
    their contents `x·`, the output window's at contents `xi14` it does not touch, the two scratch accumulators at
    anything — the body runs to a continuation holding the inputs and the output window as they were and each
    accumulator with a list of pieces written into it.  The accumulators are first reset (a zero fill each), then the
    point's contribution is added: the pieces, last store first, are the witness the symbolic run finds; the output
    window gets none. -/
noncomputable def kernelRun0_A (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) :
    Σ' (L14 : List (View.Piece (Elt F) S1024x1 .f32)) (LS0 : List (View.Piece (Elt F) S1024x256 .f32)), { LS1 : List (View.Piece (Elt F) S1024x256 .f32) //
      ∀ (xi14 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, fun xi14 E K => ?run⟩
  case run =>
    simp only [cc0__ffn_kernel_eq_skeleton]; unfold cc0__ffn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    iexists _; iexact HS1

end Cert.KernelIdeal.Hand

end
-- ==== Proof.KI.RunB.lean ====
import proofs.«431275_j61529701482572_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY STRICTLY BETWEEN THE FIRST AND THE LAST POINT (the coordinate is neither 0 nor 63).  As at the first
    point, but nothing is reset: the accumulators are taken at the contents `xs0`, `xs1` the point before left, and
    each gets the point's contribution added to what it held — one piece each, over what was read. -/
noncomputable def kernelRun0_B (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) :
    Σ' (L14 : List (View.Piece (Elt F) S1024x1 .f32)) (LS0 : List (View.Piece (Elt F) S1024x256 .f32)), { LS1 : List (View.Piece (Elt F) S1024x256 .f32) //
      ∀ (xi14 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, fun xi14 E K => ?run⟩
  case run =>
    simp only [cc0__ffn_kernel_eq_skeleton]; unfold cc0__ffn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hfs0; obtain rfl := harg17.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    iexists _; iexact HS1

end Cert.KernelIdeal.Hand

end
-- ==== Proof.KI.RunC.lean ====
import proofs.«431275_j61529701482572_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE LAST POINT (the coordinate is 63 and is not 0).  The accumulators are taken at the contents
    `xs0`, `xs1` the point before left and get the point's contribution as in the middle case; then the result is
    computed from the two accumulators as they now stand and the small weight inputs, and stored over the whole output
    window, which is taken at anything and returned with that one piece written. -/
noncomputable def kernelRun0_C (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) :
    Σ' (L14 : List (View.Piece (Elt F) S1024x1 .f32)) (LS0 : List (View.Piece (Elt F) S1024x256 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__ffn_kernel_eq_skeleton]; unfold cc0__ffn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hfs0; obtain rfl := harg17.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [HS0]; · iexists _; iexact HS0
    iexists _; iexact HS1

end Cert.KernelIdeal.Hand

end
-- ==== Proof.KI.Frame.lean ====
import proofs.«431275_j61529701482572_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the body stores nothing into the output window: no pieces.  The value below (junk read back) is a
    placeholder nothing consults, the window being neither written back there nor read at the next point. -/
def out0_A_14 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) : Vec F S1024x1 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).1)

/-- The pieces the body writes into scratch accumulator 0 at the first point cover it (each is a store of the whole accumulator). -/
theorem scover0_A_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (y : S1024x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1 S1024x256.size (by sl_kernel_rfl) y

/-- What the body leaves in scratch accumulator 0 at the first point: its pieces read back. -/
def sout0_A_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) : Vec F S1024x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1)

/-- The pieces the body writes into scratch accumulator 1 at the first point cover it (each is a store of the whole accumulator). -/
theorem scover0_A_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (y : S1024x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.2.1 S1024x256.size (by sl_kernel_rfl) y

/-- What the body leaves in scratch accumulator 1 at the first point: its pieces read back. -/
def sout0_A_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) : Vec F S1024x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.2.1)

/-- Strictly between the first and the last point the body stores nothing into the output window: no pieces.  The value below (junk read back) is a
    placeholder nothing consults, the window being neither written back there nor read at the next point. -/
def out0_B_14 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x1 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1)

/-- The pieces the body writes into scratch accumulator 0 strictly between the first and the last point cover it (each is a store of the whole accumulator). -/
theorem scover0_B_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1 S1024x256.size (by sl_kernel_rfl) y

/-- What the body leaves in scratch accumulator 0 strictly between the first and the last point: its pieces read back. -/
def sout0_B_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1)

/-- The pieces the body writes into scratch accumulator 1 strictly between the first and the last point cover it (each is a store of the whole accumulator). -/
theorem scover0_B_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1 S1024x256.size (by sl_kernel_rfl) y

/-- What the body leaves in scratch accumulator 1 strictly between the first and the last point: its pieces read back. -/
def sout0_B_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1)

/-- At the last point the one piece stored into the output window is the whole window: the pieces cover it. -/
theorem cover0_C_14 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1 S1024x1.size (by sl_kernel_rfl) y

/-- What the body leaves in the output window's staging buffer at the last point: its piece read back. -/
def out0_C_14 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x1 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1)

/-- The pieces the body writes into scratch accumulator 0 at the last point cover it (each is a store of the whole accumulator). -/
theorem scover0_C_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1 S1024x256.size (by sl_kernel_rfl) y

/-- What the body leaves in scratch accumulator 0 at the last point: its pieces read back. -/
def sout0_C_0 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1)

/-- The pieces the body writes into scratch accumulator 1 at the last point cover it (each is a store of the whole accumulator). -/
theorem scover0_C_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) (y : S1024x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1 S1024x256.size (by sl_kernel_rfl) y

/-- What the body leaves in scratch accumulator 1 at the last point: its pieces read back. -/
def sout0_C_1 (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) : Vec F S1024x256 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.2.1)

/-! ## What the output window and the accumulators hold after each point -/

/-- THE ACCUMULATION.  After the body at position `n`: (the output window's staging buffer, accumulator 0,
    accumulator 1).  Position 0 is the first case, run at that point's memrefs and input blocks, the accumulators
    taken at anything; a later position is the last case when it is 63 and the middle case otherwise, run over what
    position `n - 1` left in the two accumulators. -/
def outsAt0 (c : Dev nD) : (n : ℕ) → n < cfg0.N → Vec F S1024x1 .f32 × Vec F S1024x256 .f32 × Vec F S1024x256 .f32
  | 0, hn =>
      (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr rfl) (fun h => (by decide : ¬(0 : ℕ) = 63) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr rfl) (fun h => (by decide : ¬(0 : ℕ) = 63) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr rfl) (fun h => (by decide : ¬(0 : ℕ) = 63) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩))
  | n + 1, hn =>
    if h1 : n + 1 = 63 then
      (out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2)
    else
      (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.1 (outsAt0 c n (Nat.lt_of_succ_lt hn)).2.2)

/-- `outsAt0` at the first point: the first case's contents. -/
theorem outsAt0_A (c : Dev nD) (t : Fin cfg0.N) (h0 : t.val = 0) (h1 : ¬t.val = 63) :
    outsAt0 m c t.val t.isLt =
      (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact absurd h0 (Nat.succ_ne_zero n)

/-- `outsAt0` strictly between the first and the last point: the middle case's contents over what the point before left. -/
theorem outsAt0_B (c : Dev nD) (t : Fin cfg0.N) (h0 : ¬t.val = 0) (h1 : ¬t.val = 63) :
    outsAt0 m c t.val t.isLt =
      (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd rfl h0
  | succ n => exact (dif_neg h1).trans rfl

/-- `outsAt0` at the last point: the last case's contents over what the point before left. -/
theorem outsAt0_C (c : Dev nD) (t : Fin cfg0.N) (h0 : ¬t.val = 0) (h1 : t.val = 63) :
    outsAt0 m c t.val t.isLt =
      (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant, point by point -/

/-- Before position 0 the class invariant (both accumulators at anything); before position `n + 1` both accumulators
    owned at what position `n` left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- On core `c`: the arrays as the region finds them; after the body at point `t` each input's buffer at its block and
    the output window's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨_ + 15, h⟩ => absurd h (Nat.not_lt.2 (Nat.le_add_left _ _))
  Φ t := PhiS m c t.val (Nat.le_of_lt_succ t.isLt)
  q _ := fullShare
  owed _ := 0

/-- The data's arrays are the region-entry contents (the definition projected; `V` stays folded). -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! What the body must leave in an input window's buffer: the block it found there (no input is ever idle). -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) :
    (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]
theorem leaves0_7 (c : Dev nD) (t : Fin cfg0.N) :
    (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after0_7]
theorem leaves0_8 (c : Dev nD) (t : Fin cfg0.N) :
    (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by
    unfold Dat.leavesExact; rw [liveAt0_8 t], after0_8]
theorem leaves0_9 (c : Dev nD) (t : Fin cfg0.N) :
    (dats m 0 c).leavesExact 9 t = owns (c : Thread nD τ) (ms0_9 t) fullShare (iblk m c 9 t) := by
  rw [show (dats m 0 c).leavesExact 9 t = owns (c : Thread nD τ) (ms0_9 t) fullShare ((dats m 0 c).after 9 t) from by
    unfold Dat.leavesExact; rw [liveAt0_9 t], after0_9]
theorem leaves0_10 (c : Dev nD) (t : Fin cfg0.N) :
    (dats m 0 c).leavesExact 10 t = owns (c : Thread nD τ) (ms0_10 t) fullShare (iblk m c 10 t) := by
  rw [show (dats m 0 c).leavesExact 10 t = owns (c : Thread nD τ) (ms0_10 t) fullShare ((dats m 0 c).after 10 t) from by
    unfold Dat.leavesExact; rw [liveAt0_10 t], after0_10]
theorem leaves0_11 (c : Dev nD) (t : Fin cfg0.N) :
    (dats m 0 c).leavesExact 11 t = owns (c : Thread nD τ) (ms0_11 t) fullShare (iblk m c 11 t) := by
  rw [show (dats m 0 c).leavesExact 11 t = owns (c : Thread nD τ) (ms0_11 t) fullShare ((dats m 0 c).after 11 t) from by
    unfold Dat.leavesExact; rw [liveAt0_11 t], after0_11]
theorem leaves0_12 (c : Dev nD) (t : Fin cfg0.N) :
    (dats m 0 c).leavesExact 12 t = owns (c : Thread nD τ) (ms0_12 t) fullShare (iblk m c 12 t) := by
  rw [show (dats m 0 c).leavesExact 12 t = owns (c : Thread nD τ) (ms0_12 t) fullShare ((dats m 0 c).after 12 t) from by
    unfold Dat.leavesExact; rw [liveAt0_12 t], after0_12]
theorem leaves0_13 (c : Dev nD) (t : Fin cfg0.N) :
    (dats m 0 c).leavesExact 13 t = owns (c : Thread nD τ) (ms0_13 t) fullShare (iblk m c 13 t) := by
  rw [show (dats m 0 c).leavesExact 13 t = owns (c : Thread nD τ) (ms0_13 t) fullShare ((dats m 0 c).after 13 t) from by
    unfold Dat.leavesExact; rw [liveAt0_13 t], after0_13]
/-- And in the output window's at the last point, where it is live: `outsAt0`'s first component. -/
theorem leaves0_14_C (c : Dev nD) (t : Fin cfg0.N) (h0 : ¬cond0_0 (grid0.coords t)) (h1 : cond0_1 (grid0.coords t)) :
    (dats m 0 c).leavesExact 14 t = owns (c : Thread nD τ) (ms0_14 t) fullShare ((outsAt0 m c t.val t.isLt).1) := by
  rw [show (dats m 0 c).leavesExact 14 t = owns (c : Thread nD τ) (ms0_14 t) fullShare ((dats m 0 c).after 14 t) from by
    unfold Dat.leavesExact; rw [liveAt0_14_C t h0 h1], after0_14]

/-! ## The body obligation at a generic point -/

/-- What the body is called with at point `t`: the invariant, the (empty) debt, and each window's current staging
    buffer at what the pipeline put or left there. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it must return. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 8000000 in
/-- The body at any point.  Every input's memref holds its block; the point is the first, a middle one or the last,
    which decides both conditions, so that case's run applies.  The invariant lends the run the two accumulators — at
    anything at the first point, at what the point before left otherwise — and takes them back at this point's
    contents, the pieces written covering each.  The output window's buffer is handed back untouched where it is idle,
    and at the last point with the result stored over the whole of it.  Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t]
  have hN : t.val < 64 := lt_of_lt_of_eq t.isLt (show cfg0.N = 64 from N_0)
  by_cases h0 : t.val = 0
  · have h1 : ¬t.val = 63 := by omega
    rw [Dat.leavesExact_idle (dats m 0 c) 14 t (idleAt0_14_A t ((hcond0_0 t).mpr h0) (fun h => h1 ((hcond0_1 t).mp h))) (noFlush0_14_A t ((hcond0_0 t).mpr h0) (fun h => h1 ((hcond0_1 t).mp h)))]
    rw [outsAt0_A m c t h0 h1]
    unfold sout0_A_0 sout0_A_1; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, H10, H11, H12, H13, H14, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  · by_cases h1 : t.val = 63
    · rw [leaves0_14_C m c t (fun h => h0 ((hcond0_0 t).mp h)) ((hcond0_1 t).mpr h1)]
      rw [outsAt0_C m c t h0 h1]
      unfold out0_C_14 sout0_C_0 sout0_C_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      isplitl [HS1]; · iexact HS1
      iintro ⟨H0, H1, H2, H3, H4, H5, H6, H7, H8, H9, H10, H11, H12, H13, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _)
    · rw [Dat.leavesExact_idle (dats m 0 c) 14 t (idleAt0_14_B t (fun h => h0 ((hcond0_0 t).mp h)) (fun h => h1 ((hcond0_1 t).mp h))) (noFlush0_14_B t (fun h => h0 ((hcond0_0 t).mp h)) (fun h => h1 ((hcond0_1 t).mp h)))]
      rw [outsAt0_B m c t h0 h1]
      unfold sout0_B_0 sout0_B_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, H10, H11, H12, H13, H14, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexists _; iexact H14

/-- The body obligation, at every point: the windows conjoined one by one, then `sound_body`. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- In particular after the last. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the entry function on the TensorCores
    terminates, and every final state has each window's array at what the proof data compute and every other unscoped
    buffer as the later stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any `F`: the entry function terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.KI.ValuePieces.lean ====
/-
  What the body leaves in the two accumulators and in the output window, case by case, as the body's arithmetic
  applied to the point's input blocks and to what the point before left in the accumulators: every store of the
  body covers its whole buffer, and every load reads a whole buffer.
-/
import proofs.«431275_j61529701482572_2_alg».proof.Proof.KI.Frame
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

/-- The zero offsets of a whole-buffer access, rank by rank. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At the first point accumulator 0 is reset and then updated: the update of the reset value. -/
theorem soutA0_eq (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 = k0_pay1 (k0_pay9 i x4 x0 x3 k0_pay5) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13)]
  unfold kernelRun0_A
  dsimp only
  sl_unfold_words
  rw [View.canon_cons_unit_zero (S := S1024x256) hz2, View.readCov_unit_zero (S := S1024x256) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1024x384) hz2, View.ld_unit_zero (S := S1024) hz1, View.ld_unit_zero (S := S1x256x384) hz3, View.ld_unit_zero (S := S1024x256) hz2,
    View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1, View.ld_unit_zero (S := S1024x1) hz2,
    View.readCov_unit_zero (S := S1024x256) _ hz2]

/-- At the first point accumulator 1 is reset and then updated: the update of the reset value. -/
theorem soutA1_eq (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 = k0_pay2 (k0_pay7 x5 x1) (k0_pay8 i x2) k0_pay6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13)]
  unfold kernelRun0_A
  dsimp only
  sl_unfold_words
  rw [View.canon_cons_unit_zero (S := S1024x256) hz2, View.readCov_unit_zero (S := S1024x256) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1024x384) hz2, View.ld_unit_zero (S := S1024) hz1, View.ld_unit_zero (S := S1x256x384) hz3, View.ld_unit_zero (S := S1024x256) hz2,
    View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1, View.ld_unit_zero (S := S1024x1) hz2,
    View.readCov_unit_zero (S := S1024x256) _ hz2]

/-- At a middle point accumulator 0 is updated from what the point before left. -/
theorem soutB0_eq (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1 = k0_pay1 (k0_pay9 i x4 x0 x3 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1024x384) hz2, View.ld_unit_zero (S := S1024) hz1, View.ld_unit_zero (S := S1x256x384) hz3, View.ld_unit_zero (S := S1024x256) hz2,
    View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1, View.ld_unit_zero (S := S1024x1) hz2,
    View.readCov_unit_zero (S := S1024x256) _ hz2]

/-- At a middle point accumulator 1 is updated from what the point before left. -/
theorem soutB1_eq (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : ¬cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1 = k0_pay2 (k0_pay7 x5 x1) (k0_pay8 i x2) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1024x384) hz2, View.ld_unit_zero (S := S1024) hz1, View.ld_unit_zero (S := S1x256x384) hz3, View.ld_unit_zero (S := S1024x256) hz2,
    View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1, View.ld_unit_zero (S := S1024x1) hz2,
    View.readCov_unit_zero (S := S1024x256) _ hz2]

/-- At the last point accumulator 0 is updated from what the point before left. -/
theorem soutC0_eq (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1 = k0_pay1 (k0_pay9 i x4 x0 x3 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1024x384) hz2, View.ld_unit_zero (S := S1024) hz1, View.ld_unit_zero (S := S1x256x384) hz3, View.ld_unit_zero (S := S1024x256) hz2,
    View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1, View.ld_unit_zero (S := S1024x1) hz2,
    View.readCov_unit_zero (S := S1024x256) _ hz2]

/-- At the last point accumulator 1 is updated from what the point before left. -/
theorem soutC1_eq (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1 = k0_pay2 (k0_pay7 x5 x1) (k0_pay8 i x2) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1024x384) hz2, View.ld_unit_zero (S := S1024) hz1, View.ld_unit_zero (S := S1x256x384) hz3, View.ld_unit_zero (S := S1024x256) hz2,
    View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1, View.ld_unit_zero (S := S1024x1) hz2,
    View.readCov_unit_zero (S := S1024x256) _ hz2]

/-- At the last point the output window receives the small layers applied to the two updated accumulators. -/
theorem outC14_eq (c : Dev nD) (i : grid0.Coords) (arg1 : Memref sig .tc .vmem S1024x384 .f32) (harg1 : arg1.IsWhole) (arg2 : Memref sig .tc .vmem S1024x384 .f32) (harg2 : arg2.IsWhole) (arg3 : Memref sig .tc .vmem S1024 .i32) (harg3 : arg3.IsWhole) (arg4 : Memref sig .tc .vmem S1024 .i32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S256 .f32) (harg7 : arg7.IsWhole) (arg8 : Memref sig .tc .vmem S256 .f32) (harg8 : arg8.IsWhole) (arg9 : Memref sig .tc .vmem S32x512 .f32) (harg9 : arg9.IsWhole) (arg10 : Memref sig .tc .vmem S32 .f32) (harg10 : arg10.IsWhole) (arg11 : Memref sig .tc .vmem S32x32 .f32) (harg11 : arg11.IsWhole) (arg12 : Memref sig .tc .vmem S32 .f32) (harg12 : arg12.IsWhole) (arg13 : Memref sig .tc .vmem S1x32 .f32) (harg13 : arg13.IsWhole) (arg14 : Memref sig .tc .vmem S1 .f32) (harg14 : arg14.IsWhole) (arg15 : Memref sig .tc .vmem S1024x1 .f32) (harg15 : arg15.IsWhole) (arg16 : Memref sig .tc .vmem S1024x256 .f32) (harg16 : arg16.IsWhole) (arg17 : Memref sig .tc .vmem S1024x256 .f32) (harg17 : arg17.IsWhole) (hc0 : ¬cond0_0 i) (hc1 : cond0_1 i)
    (x0 : Vec F S1024x384 .f32) (x1 : Vec F S1024x384 .f32) (x2 : Vec F S1024 .i32) (x3 : Vec F S1024 .i32) (x4 : Vec F S1x256x384 .f32) (x5 : Vec F S1x256x384 .f32) (x6 : Vec F S256 .f32) (x7 : Vec F S256 .f32) (x8 : Vec F S32x512 .f32) (x9 : Vec F S32 .f32) (x10 : Vec F S32x32 .f32) (x11 : Vec F S32 .f32) (x12 : Vec F S1x32 .f32) (x13 : Vec F S1 .f32) (xs0 : Vec F S1024x256 .f32) (xs1 : Vec F S1024x256 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1 = k0_pay3 (k0_pay4 (k0_pay1 (k0_pay9 i x4 x0 x3 xs0)) x6 (k0_pay2 (k0_pay7 x5 x1) (k0_pay8 i x2) xs1) x7 x8 x9 x10 x11 x12) x13 := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1024x384) hz2, View.ld_unit_zero (S := S1024) hz1, View.ld_unit_zero (S := S1x256x384) hz3, View.ld_unit_zero (S := S1024x256) hz2,
    View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1, View.ld_unit_zero (S := S1024x1) hz2,
    View.readCov_unit_zero (S := S1024x256) _ hz2]

end Cert.KernelIdeal.HandValue

end
-- ==== Proof.KI.Stages.lean ====
/-
  The host operations of the kernel's program before its region, composed as functions of the argument
  arrays: the flattened boards, the two kings (first square holding 0, first holding 12), the two local
  one-hot rows of width 384 (five bands of 64 squares and 64 zero columns), and the two weight tables
  cut to the 384 columns of each king's block that a local row can reach, one block per grid point.
-/
import proofs.«431275_j61529701482572_2_alg».proof.KernelIdeal
import Idealize.ShloMosaic.PureOps.Ideal

noncomputable section

namespace Cert.KernelIdeal.St

open Cert.KernelIdeal Idealize.ShloMosaic Idealize.SL.Sem
open Cert.KernelIdeal.Facts₀

variable {F : FTy → Type} [FloatOps F] [Cert.KernelIdeal.Facts]

/-- A constant word on every square. -/
def splat64 (v : BitVec 32) : IVec S1024x64 32 := broadcastInDim S1024x64 ![] bcast_S_S1024x64 (constantI S_ 32 v)

/-- The boards, 64 squares each. -/
def squares (a0 : IVec S1024x8x8 32) : IVec S1024x64 32 := shapeCast S1024x64 a0 shapeCasts_S1024x8x8_S1024x64

/-- The first square of each board that holds `v` (square 0 when none does). -/
def king (v : BitVec 32) (d : IVec S1024x64 32) : IVec S1024 32 := fun j =>
  (Host.reduce2 reducer_argmax_i1_i32 (cmpi .eq d (splat64 v)) (iotaInDim S1024x64 32 1) (constantI S_ 1 0#1) (constantI S_ 32 0#32)
    reducesTo_S1024x64_S1024_d1 h_S_ j).2

/-- One band: 1.0 where the square holds piece `v`. -/
def bandOf (v : BitVec 32) (d : IVec S1024x64 32) : FVec F S1024x64 .f32 := uitofp .f32 (cmpi .eq d (splat64 v))

/-- 64 zero columns. -/
def zeros64 : FVec F S1024x64 .f32 := broadcastInDim S1024x64 ![] bcast_S_S1024x64 (constant S_ .f32 0x00000000#32)

/-- Five bands and the zero columns side by side. -/
def sixBands (p0 p1 p2 p3 p4 : BitVec 32) (d : IVec S1024x64 32) : FVec F S1024x384 .f32 :=
  concatenate S1024x384 1 [⟨S1024x64, bandOf p0 d⟩, ⟨S1024x64, bandOf p1 d⟩, ⟨S1024x64, bandOf p2 d⟩, ⟨S1024x64, bandOf p3 d⟩, ⟨S1024x64, bandOf p4 d⟩, ⟨S1024x64, zeros64⟩]
    concatenates_S1024x64_S1024x64_S1024x64_S1024x64_S1024x64_S1024x64_S1024x384_d1

/-- My pieces 1..5 (window 1 of the region). -/
def localMy (d : IVec S1024x64 32) : FVec F S1024x384 .f32 := sixBands 1#32 2#32 3#32 4#32 5#32 d
/-- Their pieces 11..7 (window 0 of the region). -/
def localOpp (d : IVec S1024x64 32) : FVec F S1024x384 .f32 := sixBands 11#32 10#32 9#32 8#32 7#32 d

/-- A weight table as 64 king blocks of 256 rows and the first 384 columns of each block. -/
def blocks (W : FVec F S256x41024 .f32) : FVec F S64x256x384 .f32 :=
  transpose S64x256x384 [1, 0, 2]
    (extractStridedSlice S256x64x384 ![0, 0, 0] (shapeCast S256x64x641 W shapeCasts_S256x41024_S256x64x641) slices_S256x64x641_S256x64x384_0_0_0)
    transposes_S256x64x384_S64x256x384_1_0_2

end Cert.KernelIdeal.St

end
-- ==== Proof.LibNary6.lean ====
/-
  A StableHLO operation over a literal family of six operand references (a concatenate of six operands):
  what its result buffer holds, with each operand's contents read at its own reference, so that the
  contents of the operands can be rewritten further by the result lemmas of the operations that wrote them.
-/
import Idealize.ShloMosaic.Lib.StableHlo.Run

noncomputable section

namespace Idealize.ShloMosaic.StableHlo

variable {nD : Nat} {τ : Topo} {sig : RefSig} {Val : EltTy → Type}
variable {x a b c e g y : Ref sig .tc}

/-- The result of an operation over the six literal references `![x, a, b, c, e, g]`: its function applied to the
    six operands' contents, each at its own reference (a `Fin.cons` chain instead of a function of the position). -/
theorem nary6_result
    (f : ((k : Fin 6) → ((![x, a, b, c, e, g] : Fin 6 → Ref sig .tc) k).ty.Contents Val) → y.ty.Contents Val) (hxs hy)
    (F : Valuation τ sig Val) :
    (nary (τ := τ) ![x, a, b, c, e, g] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (Fin.cons (F (Proc.devRef .tc g)) (fun i => i.elim0))))))) := by
  rw [nary_result]; congr 1; funext k; fin_cases k <;> rfl

/-- The same result, in the form used as a rewriting rule whatever the spelling of the result reference. -/
theorem nary6_result'
    (f : ((k : Fin 6) → ((![x, a, b, c, e, g] : Fin 6 → Ref sig .tc) k).ty.Contents Val) → y.ty.Contents Val) (hxs hy)
    (F : Valuation τ sig Val) :
    (nary (τ := τ) ![x, a, b, c, e, g] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (Fin.cons (F (Proc.devRef .tc g)) (fun i => i.elim0))))))) :=
  nary6_result f hxs hy F

end Idealize.ShloMosaic.StableHlo

end
-- ==== Proof.KI.ValueHost.lean ====
/-
  The arrays the kernel's region finds, as functions of the argument arrays: the host operations that run before
  the region compose to the flattened boards, the two kings, the two local one-hot rows and the two weight tables
  cut into one block per king square.
-/
import proofs.«431275_j61529701482572_2_alg».proof.Proof.KI.Runs
import proofs.«431275_j61529701482572_2_alg».proof.Proof.KI.Stages
import proofs.«431275_j61529701482572_2_alg».proof.Proof.LibNary6

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]
variable (m : (ℓ : Loc nD τ sig) → Buf (Elt F) ℓ)

/-- Each operation's result buffer at its function's value, every other buffer as it was: one pass over the
    whole line of operations, the six-operand concatenates read operand by operand. -/
local macro "host_results" : tactic =>
  `(tactic| (simp (disch := decide) only [StableHlo.after_cons, StableHlo.after_nil,
      StableHlo.nullary_result', StableHlo.unary_result', StableHlo.binary_result', StableHlo.quaternary_result',
      StableHlo.reshape_result', StableHlo.nary6_result',
      StableHlo.nullary_result_ne', StableHlo.unary_result_ne', StableHlo.binary_result_ne', StableHlo.quaternary_result_ne',
      StableHlo.reshape_result_ne', StableHlo.nary_result_ne']))

/-- The line of host operations before the region, written out. -/
local macro "open_host" : tactic =>
  `(tactic| (dsimp only [V, V0]
             simp only [hostPre, hostOps0, hostOps0_1, hostOps0_2, hostOps0_3, hostOps0_4, List.flatten_cons, List.flatten_nil,
               List.append_nil, List.cons_append, List.nil_append]))

/-- My king: the first square of each board holding 0. -/
theorem V_main_v3 (c : Dev nD) :
    (V m c main_v3 : IVec S1024 32) = St.king 0#32 (St.squares (m ((c : Thread nD τ).loc main_arg0))) := by
  open_host; host_results; rfl

/-- Their king: the first square of each board holding 12. -/
theorem V_main_v6 (c : Dev nD) :
    (V m c main_v6 : IVec S1024 32) = St.king 12#32 (St.squares (m ((c : Thread nD τ).loc main_arg0))) := by
  open_host; host_results; rfl

/-- My pieces' local rows. -/
theorem V_main_v23 (c : Dev nD) :
    (V m c main_v23 : FVec F S1024x384 .f32) = St.localMy (St.squares (m ((c : Thread nD τ).loc main_arg0))) := by
  open_host; host_results; rfl

/-- Their pieces' local rows. -/
theorem V_main_v39 (c : Dev nD) :
    (V m c main_v39 : FVec F S1024x384 .f32) = St.localOpp (St.squares (m ((c : Thread nD τ).loc main_arg0))) := by
  open_host; host_results; rfl

/-- The first weight table cut into king blocks. -/
theorem V_main_v42 (c : Dev nD) :
    (V m c main_v42 : FVec F S64x256x384 .f32) = St.blocks (m ((c : Thread nD τ).loc main_arg1)) := by
  open_host; host_results; rfl

/-- The second weight table cut into king blocks. -/
theorem V_main_v45 (c : Dev nD) :
    (V m c main_v45 : FVec F S64x256x384 .f32) = St.blocks (m ((c : Thread nD τ).loc main_arg3)) := by
  open_host; host_results; rfl

end Cert.KernelIdeal.HandValue

end
-- ==== Proof.KI.ValueBlocks.lean ====
/-
  What each input window of the region holds at a grid point, read off the arrays the region finds: every window but
  the two weight tables has one block, the whole array, at every point; a weight table's block at point t is king
  block t of the table.
-/
import proofs.«431275_j61529701482572_2_alg».proof.Proof.KI.Runs

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]
variable (m : (ℓ : Loc nD τ sig) → Buf (Elt F) ℓ)

/-- Window 0's block index is zero on every axis at every point. -/
theorem idx0_0 : ∀ t : Fin cfg0.N, win0_0.index t 0 = 0 ∧ win0_0.index t 1 = 0 :=
  (by decide +kernel : ∀ t : Fin grid0.N, win0_0.index t 0 = 0 ∧ win0_0.index t 1 = 0)

/-- Window 0 holds its whole array at every point. -/
theorem iblk0_0 (c : Dev nD) (t : Fin cfg0.N) : (iblk m c 0 t : Vec F S1024x384 .f32) = V m c main_v39 := by
  funext x
  unfold iblk
  rw [View.read_apply]
  show V m c main_v39 _ = V m c main_v39 x
  congr 1
  funext a
  apply Fin.ext
  match a with
  | ⟨0, _⟩ => show win0_0.index t 0 * 1024 + 1 * (x 0).val = (x 0).val; rw [(idx0_0 t).1]; omega
  | ⟨1, _⟩ => show win0_0.index t 1 * 384 + 1 * (x 1).val = (x 1).val; rw [(idx0_0 t).2]; omega

/-- Window 1's block index is zero on every axis at every point. -/
theorem idx0_1 : ∀ t : Fin cfg0.N, win0_1.index t 0 = 0 ∧ win0_1.index t 1 = 0 :=
  (by decide +kernel : ∀ t : Fin grid0.N, win0_1.index t 0 = 0 ∧ win0_1.index t 1 = 0)

/-- Window 1 holds its whole array at every point. -/
theorem iblk0_1 (c : Dev nD) (t : Fin cfg0.N) : (iblk m c 1 t : Vec F S1024x384 .f32) = V m c main_v23 := by
  funext x
  unfold iblk
  rw [View.read_apply]
  show V m c main_v23 _ = V m c main_v23 x
  congr 1
  funext a
  apply Fin.ext
  match a with
  | ⟨0, _⟩ => show win0_1.index t 0 * 1024 + 1 * (x 0).val = (x 0).val; rw [(idx0_1 t).1]; omega
  | ⟨1, _⟩ => show win0_1.index t 1 * 384 + 1 * (x 1).val = (x 1).val; rw [(idx0_1 t).2]; omega

/-- Window 2's block index is zero on every axis at every point. -/
theorem idx0_2 : ∀ t : Fin cfg0.N, win0_2.index t 0 = 0 :=
  (by decide +kernel : ∀ t : Fin grid0.N, win0_2.index t 0 = 0)

/-- Window 2 holds its whole array at every point. -/
theorem iblk0_2 (c : Dev nD) (t : Fin cfg0.N) : (iblk m c 2 t : Vec F S1024 .i32) = V m c main_v3 := by
  funext x
  unfold iblk
  rw [View.read_apply]
  show V m c main_v3 _ = V m c main_v3 x
  congr 1
  funext a
  apply Fin.ext
  match a with
  | ⟨0, _⟩ => show win0_2.index t 0 * 1024 + 1 * (x 0).val = (x 0).val; rw [(idx0_2 t)]; omega

/-- Window 3's block index is zero on every axis at every point. -/
theorem idx0_3 : ∀ t : Fin cfg0.N, win0_3.index t 0 = 0 :=
  (by decide +kernel : ∀ t : Fin grid0.N, win0_3.index t 0 = 0)

/-- Window 3 holds its whole array at every point. -/
theorem iblk0_3 (c : Dev nD) (t : Fin cfg0.N) : (iblk m c 3 t : Vec F S1024 .i32) = V m c main_v6 := by
  funext x
  unfold iblk
  rw [View.read_apply]
  show V m c main_v6 _ = V m c main_v6 x
  congr 1
  funext a
  apply Fin.ext
  match a with
  | ⟨0, _⟩ => show win0_3.index t 0 * 1024 + 1 * (x 0).val = (x 0).val; rw [(idx0_3 t)]; omega

/-- Window 6's block index is zero on every axis at every point. -/
theorem idx0_6 : ∀ t : Fin cfg0.N, win0_6.index t 0 = 0 :=
  (by decide +kernel : ∀ t : Fin grid0.N, win0_6.index t 0 = 0)

/-- Window 6 holds its whole array at every point. -/
theorem iblk0_6 (c : Dev nD) (t : Fin cfg0.N) : (iblk m c 6 t : Vec F S256 .f32) = V m c main_arg2 := by
  funext x
  unfold iblk
  rw [View.read_apply]
  show V m c main_arg2 _ = V m c main_arg2 x
  congr 1
  funext a
  apply Fin.ext
  match a with
  | ⟨0, _⟩ => show win0_6.index t 0 * 256 + 1 * (x 0).val = (x 0).val; rw [(idx0_6 t)]; omega

/-- Window 7's block index is zero on every axis at every point. -/
theorem idx0_7 : ∀ t : Fin cfg0.N, win0_7.index t 0 = 0 :=
  (by decide +kernel : ∀ t : Fin grid0.N, win0_7.index t 0 = 0)

/-- Window 7 holds its whole array at every point. -/
theorem iblk0_7 (c : Dev nD) (t : Fin cfg0.N) : (iblk m c 7 t : Vec F S256 .f32) = V m c main_arg4 := by
  funext x
  unfold iblk
  rw [View.read_apply]
  show V m c main_arg4 _ = V m c main_arg4 x
  congr 1
  funext a
  apply Fin.ext
  match a with
  | ⟨0, _⟩ => show win0_7.index t 0 * 256 + 1 * (x 0).val = (x 0).val; rw [(idx0_7 t)]; omega

/-- Window 8's block index is zero on every axis at every point. -/
theorem idx0_8 : ∀ t : Fin cfg0.N, win0_8.index t 0 = 0 ∧ win0_8.index t 1 = 0 :=
  (by decide +kernel : ∀ t : Fin grid0.N, win0_8.index t 0 = 0 ∧ win0_8.index t 1 = 0)

/-- Window 8 holds its whole array at every point. -/
theorem iblk0_8 (c : Dev nD) (t : Fin cfg0.N) : (iblk m c 8 t : Vec F S32x512 .f32) = V m c main_arg5 := by
  funext x
  unfold iblk
  rw [View.read_apply]
  show V m c main_arg5 _ = V m c main_arg5 x
  congr 1
  funext a
  apply Fin.ext
  match a with
  | ⟨0, _⟩ => show win0_8.index t 0 * 32 + 1 * (x 0).val = (x 0).val; rw [(idx0_8 t).1]; omega
  | ⟨1, _⟩ => show win0_8.index t 1 * 512 + 1 * (x 1).val = (x 1).val; rw [(idx0_8 t).2]; omega

/-- Window 9's block index is zero on every axis at every point. -/
theorem idx0_9 : ∀ t : Fin cfg0.N, win0_9.index t 0 = 0 :=
  (by decide +kernel : ∀ t : Fin grid0.N, win0_9.index t 0 = 0)

/-- Window 9 holds its whole array at every point. -/
theorem iblk0_9 (c : Dev nD) (t : Fin cfg0.N) : (iblk m c 9 t : Vec F S32 .f32) = V m c main_arg6 := by
  funext x
  unfold iblk
  rw [View.read_apply]
  show V m c main_arg6 _ = V m c main_arg6 x
  congr 1
  funext a
  apply Fin.ext
  match a with
  | ⟨0, _⟩ => show win0_9.index t 0 * 32 + 1 * (x 0).val = (x 0).val; rw [(idx0_9 t)]; omega

/-- Window 10's block index is zero on every axis at every point. -/
theorem idx0_10 : ∀ t : Fin cfg0.N, win0_10.index t 0 = 0 ∧ win0_10.index t 1 = 0 :=
  (by decide +kernel : ∀ t : Fin grid0.N, win0_10.index t 0 = 0 ∧ win0_10.index t 1 = 0)

/-- Window 10 holds its whole array at every point. -/
theorem iblk0_10 (c : Dev nD) (t : Fin cfg0.N) : (iblk m c 10 t : Vec F S32x32 .f32) = V m c main_arg7 := by
  funext x
  unfold iblk
  rw [View.read_apply]
  show V m c main_arg7 _ = V m c main_arg7 x
  congr 1
  funext a
  apply Fin.ext
  match a with
  | ⟨0, _⟩ => show win0_10.index t 0 * 32 + 1 * (x 0).val = (x 0).val; rw [(idx0_10 t).1]; omega
  | ⟨1, _⟩ => show win0_10.index t 1 * 32 + 1 * (x 1).val = (x 1).val; rw [(idx0_10 t).2]; omega

/-- Window 11's block index is zero on every axis at every point. -/
theorem idx0_11 : ∀ t : Fin cfg0.N, win0_11.index t 0 = 0 :=
  (by decide +kernel : ∀ t : Fin grid0.N, win0_11.index t 0 = 0)

/-- Window 11 holds its whole array at every point. -/
theorem iblk0_11 (c : Dev nD) (t : Fin cfg0.N) : (iblk m c 11 t : Vec F S32 .f32) = V m c main_arg8 := by
  funext x
  unfold iblk
  rw [View.read_apply]
  show V m c main_arg8 _ = V m c main_arg8 x
  congr 1
  funext a
  apply Fin.ext
  match a with
  | ⟨0, _⟩ => show win0_11.index t 0 * 32 + 1 * (x 0).val = (x 0).val; rw [(idx0_11 t)]; omega

/-- Window 12's block index is zero on every axis at every point. -/
theorem idx0_12 : ∀ t : Fin cfg0.N, win0_12.index t 0 = 0 ∧ win0_12.index t 1 = 0 :=
  (by decide +kernel : ∀ t : Fin grid0.N, win0_12.index t 0 = 0 ∧ win0_12.index t 1 = 0)

/-- Window 12 holds its whole array at every point. -/
theorem iblk0_12 (c : Dev nD) (t : Fin cfg0.N) : (iblk m c 12 t : Vec F S1x32 .f32) = V m c main_arg9 := by
  funext x
  unfold iblk
  rw [View.read_apply]
  show V m c main_arg9 _ = V m c main_arg9 x
  congr 1
  funext a
  apply Fin.ext
  match a with
  | ⟨0, _⟩ => show win0_12.index t 0 * 1 + 1 * (x 0).val = (x 0).val; rw [(idx0_12 t).1]; omega
  | ⟨1, _⟩ => show win0_12.index t 1 * 32 + 1 * (x 1).val = (x 1).val; rw [(idx0_12 t).2]; omega

/-- Window 13's block index is zero on every axis at every point. -/
theorem idx0_13 : ∀ t : Fin cfg0.N, win0_13.index t 0 = 0 :=
  (by decide +kernel : ∀ t : Fin grid0.N, win0_13.index t 0 = 0)

/-- Window 13 holds its whole array at every point. -/
theorem iblk0_13 (c : Dev nD) (t : Fin cfg0.N) : (iblk m c 13 t : Vec F S1 .f32) = V m c main_arg10 := by
  funext x
  unfold iblk
  rw [View.read_apply]
  show V m c main_arg10 _ = V m c main_arg10 x
  congr 1
  funext a
  apply Fin.ext
  match a with
  | ⟨0, _⟩ => show win0_13.index t 0 * 1 + 1 * (x 0).val = (x 0).val; rw [(idx0_13 t)]; omega

/-- Window 4's block index: the point's number on the first axis, zero on the others. -/
theorem idx0_4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- Window 4 at point t holds block t of its array. -/
theorem iblk0_4 (c : Dev nD) (t : Fin cfg0.N) (x : S1x256x384.Idx) (k : S64x256x384.Idx)
    (h0 : (k 0).val = t.val) (h1 : (k 1).val = (x 1).val) (h2 : (k 2).val = (x 2).val) :
    (iblk m c 4 t : Vec F S1x256x384 .f32) x = (V m c main_v42 : Vec F S64x256x384 .f32) k := by
  unfold iblk
  rw [View.read_apply]
  show V m c main_v42 _ = V m c main_v42 k
  congr 1
  funext a
  apply Fin.ext
  have hx0 : (x 0).val = 0 := by have : (x 0).val < 1 := (x 0).isLt; omega
  match a with
  | ⟨0, _⟩ => show win0_4.index t 0 * 1 + 1 * (x 0).val = (k 0).val; rw [(idx0_4 t).1, h0, hx0]; omega
  | ⟨1, _⟩ => show win0_4.index t 1 * 256 + 1 * (x 1).val = (k 1).val; rw [(idx0_4 t).2.1, h1]; omega
  | ⟨2, _⟩ => show win0_4.index t 2 * 384 + 1 * (x 2).val = (k 2).val; rw [(idx0_4 t).2.2, h2]; omega

/-- Window 5's block index: the point's number on the first axis, zero on the others. -/
theorem idx0_5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- Window 5 at point t holds block t of its array. -/
theorem iblk0_5 (c : Dev nD) (t : Fin cfg0.N) (x : S1x256x384.Idx) (k : S64x256x384.Idx)
    (h0 : (k 0).val = t.val) (h1 : (k 1).val = (x 1).val) (h2 : (k 2).val = (x 2).val) :
    (iblk m c 5 t : Vec F S1x256x384 .f32) x = (V m c main_v45 : Vec F S64x256x384 .f32) k := by
  unfold iblk
  rw [View.read_apply]
  show V m c main_v45 _ = V m c main_v45 k
  congr 1
  funext a
  apply Fin.ext
  have hx0 : (x 0).val = 0 := by have : (x 0).val < 1 := (x 0).isLt; omega
  match a with
  | ⟨0, _⟩ => show win0_5.index t 0 * 1 + 1 * (x 0).val = (k 0).val; rw [(idx0_5 t).1, h0, hx0]; omega
  | ⟨1, _⟩ => show win0_5.index t 1 * 256 + 1 * (x 1).val = (k 1).val; rw [(idx0_5 t).2.1, h1]; omega
  | ⟨2, _⟩ => show win0_5.index t 2 * 384 + 1 * (x 2).val = (k 2).val; rw [(idx0_5 t).2.2, h2]; omega

end Cert.KernelIdeal.HandValue

end
-- ==== Proof.Spec.lean ====
/-
  The network both programs compute, written once over the extended reals, entry by entry.
  A board has 64 squares holding piece codes; a "local" one-hot row of width 384 marks, for band v < 5 and
  square s, whether square s holds the band's piece (columns 320..383 are zero). With the king on square k,
  local column c stands for feature k * 641 + c of the wide weight table, so a wide layer's entry is
  max (∑ c, local b c * W j (k b * 641 + c) + bias j) 0. The two wide layers' 256 + 256 entries feed three
  small dense layers (512 → 32 → 32 → 1), the first two rectified.
-/
import Idealize.ShloMosaic.PureOps.Ideal

noncomputable section

namespace Cert.Spec

open Idealize.ShloMosaic

/-- The weight table's row `j` at feature `n`; features beyond the table count as zero (none is reached). -/
def colAt (W : Fin 256 → Fin 41024 → EReal) (j : Fin 256) (n : ℕ) : EReal := if h : n < 41024 then W j ⟨n, h⟩ else 0

/-- The local one-hot row: column `c < 320` is one when square `c % 64` of board `b` holds the piece of band `c / 64`. -/
def localRow (d : Fin 1024 → Fin 64 → BitVec 32) (piece : ℕ → ℕ) (b : Fin 1024) (c : Fin 384) : EReal :=
  if c.val < 320 ∧ d b ⟨c.val % 64, Nat.mod_lt _ (by decide)⟩ = BitVec.ofNat 32 (piece (c.val / 64)) then 1 else 0

/-- My pieces: band v is piece v + 1. -/
def localMy (d : Fin 1024 → Fin 64 → BitVec 32) : Fin 1024 → Fin 384 → EReal := localRow d (fun v => v + 1)
/-- Their pieces: band v is piece 11 − v. -/
def localOpp (d : Fin 1024 → Fin 64 → BitVec 32) : Fin 1024 → Fin 384 → EReal := localRow d (fun v => 11 - v)

/-- A wide layer's entry: the local row against the king's block of the table, plus the bias, rectified. -/
def wide (W : Fin 256 → Fin 41024 → EReal) (lo : Fin 1024 → Fin 384 → EReal) (kg : Fin 1024 → ℕ) (bias : Fin 256 → EReal)
    (b : Fin 1024) (j : Fin 256) : EReal :=
  max ((∑ c : Fin 384, lo b c * colAt W j (kg b * 641 + c.val)) + bias j) 0

/-- The 512 entries entering the small layers: the "my" layer (fed by THEIR pieces around THEIR king) then the "opp" layer. -/
def hidden0 (d : Fin 1024 → Fin 64 → BitVec 32) (myk oppk : Fin 1024 → ℕ)
    (Wm : Fin 256 → Fin 41024 → EReal) (bm : Fin 256 → EReal) (Wo : Fin 256 → Fin 41024 → EReal) (bo : Fin 256 → EReal)
    (b : Fin 1024) (n : Fin 512) : EReal :=
  if h : n.val < 256 then wide Wm (localOpp d) oppk bm b ⟨n.val, h⟩
  else wide Wo (localMy d) myk bo b ⟨n.val - 256, by have := n.isLt; omega⟩

/-- A rectified dense layer's entry. -/
def dense {K N : ℕ} (x : Fin 1024 → Fin K → EReal) (W : Fin N → Fin K → EReal) (bias : Fin N → EReal) (b : Fin 1024) (k : Fin N) : EReal :=
  max ((∑ n : Fin K, x b n * W k n) + bias k) 0

/-- The score of board `b`. -/
def out (d : Fin 1024 → Fin 64 → BitVec 32) (myk oppk : Fin 1024 → ℕ)
    (Wm : Fin 256 → Fin 41024 → EReal) (bm : Fin 256 → EReal) (Wo : Fin 256 → Fin 41024 → EReal) (bo : Fin 256 → EReal)
    (W1 : Fin 32 → Fin 512 → EReal) (b1 : Fin 32 → EReal) (W2 : Fin 32 → Fin 32 → EReal) (b2 : Fin 32 → EReal)
    (W3 : Fin 1 → Fin 32 → EReal) (b3 : Fin 1 → EReal) (b : Fin 1024) : EReal :=
  (∑ n : Fin 32, dense (dense (hidden0 d myk oppk Wm bm Wo bo) W1 b1) W2 b2 b n * W3 0 n) + b3 0

end Cert.Spec

end
-- ==== Proof.KI.PayLayout.lean ====
/-
  Layout and mask facts used by the body's arithmetic, stated over indices built from coordinates:
  a vector turned into a one-column matrix, a one-column matrix spread over the columns, a one-row
  matrix spread over the rows, and the 0/1 value of an equality test carried to the extended reals.
-/
import Idealize.ShloMosaic.Lib.ValueIdx
import Idealize.ShloMosaic.Lib.ValueLayout
import Idealize.ShloMosaic.PureOps.Ideal.Laws

noncomputable section

namespace Cert.KernelIdeal.HandValue

open Idealize.ShloMosaic Idealize.ShloMosaic.ValueIdx

variable {α : Type}

/-- A vector of length `a` seen as an `a × 1` matrix reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` matrix spread over `b` columns reads, at `(p, c)`, the one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero word is the extended real zero. -/
theorem scalar_zero : (Scalar.ofBits (F := Ideal) .f32 0x00000000#32 : EReal) = 0 := Ideal.ofBits_zero_f32

/-- An equality test of 32-bit words, widened and read as a signed integer, is 1 where the words agree and 0 elsewhere. -/
theorem eqMask_apply {s : Shape} (kidx : IVec s 32) (p : BitVec 32) (h : 1 < 32) (i : s.Idx) :
    (sitofp (F := Ideal) .f32 (extui 32 (cmpi .eq kidx (broadcast s p)) h) : FVec Ideal s .f32) i
      = if kidx i = p then (1 : EReal) else 0 := by
  show (((((IntOp.cmpi .eq (kidx i) p).setWidth 32).toInt : ℝ)) : EReal) = _
  by_cases hk : kidx i = p
  · rw [if_pos hk, hk]
    have : (IntOp.cmpi .eq p p) = 1#1 := by simp [IntOp.cmpi]
    rw [this]
    simp
  · rw [if_neg hk]
    have hb : (kidx i == p) = false := by simpa using hk
    have : (IntOp.cmpi .eq (kidx i) p) = 0#1 := by simp [IntOp.cmpi, hb]
    rw [this]
    simp

/-- A vector seen as one row and spread down `a` rows reads, at `(p, c)`, the vector at `c`. -/
theorem rowBias_apply {a n : ℕ} (bias : (⟨1, ![n]⟩ : Shape).Idx → α) (h1 : (⟨1, ![n]⟩ : Shape).ShapeCasts ⟨2, ![1, n]⟩)
    (h2 : (⟨2, ![1, n]⟩ : Shape).Broadcasts ⟨2, ![a, n]⟩) (p : Fin a) (c : Fin n) :
    broadcastTo ⟨2, ![a, n]⟩ (shapeCast ⟨2, ![1, n]⟩ bias h1) h2 (ix2 p c) = bias (ix1 c) :=
  (broadcastTo_1b_ab_apply _ h2 p c).trans (shapeCast_a_1a_apply bias h1 0 c)

/-- Adding a row of biases and cutting below at zero, read at one entry. -/
theorem reluBias_apply {a n : ℕ} (x : FVec Ideal ⟨2, ![a, n]⟩ .f32) (bias : FVec Ideal ⟨1, ![n]⟩ .f32)
    (h1 : (⟨1, ![n]⟩ : Shape).ShapeCasts ⟨2, ![1, n]⟩) (h2 : (⟨2, ![1, n]⟩ : Shape).Broadcasts ⟨2, ![a, n]⟩) (p : Fin a) (c : Fin n) :
    maximumf (addf x (broadcastTo ⟨2, ![a, n]⟩ (shapeCast ⟨2, ![1, n]⟩ bias h1) h2))
        (broadcast ⟨2, ![a, n]⟩ (Scalar.ofBits (F := Ideal) .f32 0x00000000#32)) (ix2 p c)
      = max (x (ix2 p c) + bias (ix1 c)) 0 := by
  show max (x (ix2 p c) + broadcastTo ⟨2, ![a, n]⟩ (shapeCast ⟨2, ![1, n]⟩ bias h1) h2 (ix2 p c))
      (Scalar.ofBits (F := Ideal) .f32 0x00000000#32) = _
  rw [rowBias_apply, scalar_zero]

/-- Two blocks of columns side by side: a column of the first block. -/
theorem concat_cols_left {a n₁ n₂ n : ℕ} (x₁ : (⟨2, ![a, n₁]⟩ : Shape).Idx → α) (x₂ : (⟨2, ![a, n₂]⟩ : Shape).Idx → α)
    (h : Shape.Concatenates [(⟨2, ![a, n₁]⟩ : Shape), ⟨2, ![a, n₂]⟩] ⟨2, ![a, n]⟩ 1) (p : Fin a) (c : Fin n) (hc : c.val < n₁) :
    concatenate ⟨2, ![a, n]⟩ 1 [⟨⟨2, ![a, n₁]⟩, x₁⟩, ⟨⟨2, ![a, n₂]⟩, x₂⟩] h (ix2 p c) = x₁ (ix2 p ⟨c.val, hc⟩) :=
  concatenate_pair_apply_left 1 x₁ x₂ h (ix2 p c) rfl (ix2 p ⟨c.val, hc⟩) (fun b => by
    match b with
    | ⟨0, _⟩ => rfl
    | ⟨1, _⟩ => rfl)

/-- Two blocks of columns side by side: a column of the second block. -/
theorem concat_cols_right {a n₁ n₂ n : ℕ} (x₁ : (⟨2, ![a, n₁]⟩ : Shape).Idx → α) (x₂ : (⟨2, ![a, n₂]⟩ : Shape).Idx → α)
    (h : Shape.Concatenates [(⟨2, ![a, n₁]⟩ : Shape), ⟨2, ![a, n₂]⟩] ⟨2, ![a, n]⟩ 1) (p : Fin a) (c : Fin n) (hc : n₁ ≤ c.val)
    (hlt : c.val - n₁ < n₂) :
    concatenate ⟨2, ![a, n]⟩ 1 [⟨⟨2, ![a, n₁]⟩, x₁⟩, ⟨⟨2, ![a, n₂]⟩, x₂⟩] h (ix2 p c) = x₂ (ix2 p ⟨c.val - n₁, hlt⟩) :=
  concatenate_pair_apply_right 1 x₁ x₂ h (ix2 p c) rfl rfl (ix2 p ⟨c.val - n₁, hlt⟩)
    (fun b hb => by
      match b, hb with
      | ⟨0, _⟩, _ => rfl
      | ⟨1, _⟩, hb => exact absurd rfl hb)
    (by show (c.val - n₁) + n₁ = c.val; omega)

end Cert.KernelIdeal.HandValue

end
-- ==== Proof.KI.PayDot.lean ====
/-
  A product of an `M × K` matrix with the transpose of an `N × K` matrix (both contracted on their
  last axis), accumulated into zero, read at one entry: the plain sum over the shared axis.
-/
import proofs.«431275_j61529701482572_2_alg».proof.Proof.KI.PayLayout
import proofs.«431275_j61529701482572_2_alg».proof.Proof.Spec

noncomputable section

namespace Cert.KernelIdeal.HandValue

open Idealize.ShloMosaic Idealize.ShloMosaic.ValueIdx

variable {M K N : ℕ}

/-- The left operand's row is the output's row. -/
theorem lhs_nt_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhs_nt_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem rhs_nt_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhs_nt_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The product into a zero accumulator at entry `(b, k)` is `∑ n, x (b, n) * W (k, n)`. -/
theorem matmul_nt_zero_apply {φ₁ φ₂ : FTy} (prec : Option ContractPrecision)
    (x : FVec Ideal ⟨2, ![M, K]⟩ φ₁) (W : FVec Ideal ⟨2, ![N, K]⟩ φ₂) (b : Fin M) (k : Fin N) :
    FloatOps.matmul (DotDims.transposedRhs M K N) prec x W (constant (F := Ideal) ⟨2, ![M, N]⟩ .f32 0x00000000#32) (ix2 b k)
      = ∑ n : Fin K, x (ix2 b n) * W (ix2 k n) := by
  rw [Ideal.matmul_constant_zero_apply, ← Equiv.sum_comp (contrEquiv1 (DotDims.transposedRhs M K N) K rfl rfl).symm]
  refine Finset.sum_congr rfl fun n _ => ?_
  have hk := contrEquiv1_symm_val (DotDims.transposedRhs M K N) K rfl rfl n
  have el : (DotDims.transposedRhs M K N).lhsIdx (ix2 b k) ((contrEquiv1 (DotDims.transposedRhs M K N) K rfl rfl).symm n) = ix2 b n :=
    funext fun a => Fin.ext (by
      match a with
      | ⟨0, _⟩ => exact lhs_nt_0 _ _
      | ⟨1, _⟩ => exact (lhs_nt_1 _ _).trans hk)
  have er : (DotDims.transposedRhs M K N).rhsIdx (ix2 b k) ((contrEquiv1 (DotDims.transposedRhs M K N) K rfl rfl).symm n) = ix2 k n :=
    funext fun a => Fin.ext (by
      match a with
      | ⟨0, _⟩ => exact rhs_nt_0 _ _
      | ⟨1, _⟩ => exact (rhs_nt_1 _ _).trans hk)
  rw [el, er]

/-- A rectified dense layer read at one entry: the row of inputs against the row of weights, plus the bias, cut below at zero. -/
theorem denseLayer_apply {K N : ℕ} (x : FVec Ideal ⟨2, ![1024, K]⟩ .f32) (W : FVec Ideal ⟨2, ![N, K]⟩ .f32)
    (bias : FVec Ideal ⟨1, ![N]⟩ .f32) (hlt : FTy.bits .bf16 < FTy.bits .f32)
    (h1 : (⟨1, ![N]⟩ : Shape).ShapeCasts ⟨2, ![1, N]⟩) (h2 : (⟨2, ![1, N]⟩ : Shape).Broadcasts ⟨2, ![1024, N]⟩)
    (b : Fin 1024) (k : Fin N) :
    maximumf (addf (FloatOps.matmul (DotDims.transposedRhs 1024 K N) none (truncf .bf16 x hlt) (truncf .bf16 W hlt)
            (constant (F := Ideal) ⟨2, ![1024, N]⟩ .f32 0x00000000#32))
          (broadcastTo ⟨2, ![1024, N]⟩ (shapeCast ⟨2, ![1, N]⟩ bias h1) h2))
        (broadcast ⟨2, ![1024, N]⟩ (Scalar.ofBits (F := Ideal) .f32 0x00000000#32)) (ix2 b k)
      = Cert.Spec.dense (fun b n => x (ix2 b n)) (fun k n => W (ix2 k n)) (fun k => bias (ix1 k)) b k := by
  refine (reluBias_apply _ bias h1 h2 b k).trans ?_
  unfold Cert.Spec.dense
  rw [matmul_nt_zero_apply]
  rfl

end Cert.KernelIdeal.HandValue

end
-- ==== Proof.KI.Pay.lean ====
import proofs.«431275_j61529701482572_2_alg».proof.Proof.Gen.KernelIdeal.Skeleton
import proofs.«431275_j61529701482572_2_alg».proof.Proof.Spec
import proofs.«431275_j61529701482572_2_alg».proof.Proof.KI.PayDot
import Idealize.ShloMosaic.Lib.ValueIdx

noncomputable section

namespace Cert.KernelIdeal.HandValue

open Cert.KernelIdeal Cert.KernelIdeal.Gen Idealize.ShloMosaic Idealize.ShloMosaic.ValueIdx
variable [Cert.KernelIdeal.Facts]

/-- The reset value of the first accumulator is zero. -/
theorem pay5_apply (b : Fin 1024) (j : Fin 256) : (k0_pay5 (F := Ideal)) (ix2 b j) = 0 := by
  unfold k0_pay5
  refine (congrFun (shapeCast_self _ _) (ix2 b j)).trans ?_
  exact scalar_zero

/-- The reset value of the second accumulator is zero. -/
theorem pay6_apply (b : Fin 1024) (j : Fin 256) : (k0_pay6 (F := Ideal)) (ix2 b j) = 0 := by
  unfold k0_pay6
  refine (congrFun (shapeCast_self _ _) (ix2 b j)).trans ?_
  exact scalar_zero

/-- The local rows against the table block: entry `(b, j)` is `∑ c, lo (b, c) * w (0, j, c)`. -/
theorem pay7_apply (w : FVec Ideal S1x256x384 .f32) (lo : FVec Ideal S1024x384 .f32) (b : Fin 1024) (j : Fin 256) :
    k0_pay7 w lo (ix2 b j) = ∑ c : Fin 384, lo (ix2 b c) * w (ix3 0 j c) := by
  unfold k0_pay7
  refine (matmul_nt_zero_apply (M := 1024) (K := 384) (N := 256) none _ _ b j).trans ?_
  refine Finset.sum_congr rfl fun c _ => ?_
  refine congrArg₂ (· * ·) ?_ ?_
  · show shapeCast S1024x384 lo shapeCasts_S1024x384_S1024x384 (ix2 b c) = _
    exact congrFun (shapeCast_self lo _) (ix2 b c)
  · show shapeCast S256x384 (shapeCast S1x256x384 w shapeCasts_S1x256x384_S1x256x384) shapeCasts_S1x256x384_S256x384 (ix2 j c) = _
    refine (shapeCast_1ab_ab_apply _ _ j c).trans ?_
    exact congrFun (shapeCast_self w _) (ix3 0 j c)

/-- The mask column: one on the boards whose king is the point, zero on the others. -/
theorem pay8_apply (i : grid0.Coords) (kidx : IVec S1024 32) (b : Fin 1024) (u : Fin 1) :
    k0_pay8 (F := Ideal) i kidx (ix2 b u) = if kidx (ix1 b) = BitVec.ofNat 32 (i 0).val then 1 else 0 := by
  unfold k0_pay8
  refine (shapeCast_a_a1_apply _ _ b u).trans ?_
  refine (eqMask_apply _ _ _ (ix1 b)).trans ?_
  have e : shapeCast S1024 kidx shapeCasts_S1024_S1024 = kidx := shapeCast_self _ _
  rw [e]

/-- One accumulation step at an entry. -/
theorem step_apply (i : grid0.Coords) (w : FVec Ideal S1x256x384 .f32) (lo : FVec Ideal S1024x384 .f32) (kidx : IVec S1024 32)
    (acc : FVec Ideal S1024x256 .f32) (b : Fin 1024) (j : Fin 256) :
    addf acc (mulf (k0_pay7 w lo) (broadcastTo S1024x256 (k0_pay8 (F := Ideal) i kidx) broadcasts_S1024x1_S1024x256)) (ix2 b j)
      = acc (ix2 b j) + (∑ c : Fin 384, lo (ix2 b c) * w (ix3 0 j c)) * (if kidx (ix1 b) = BitVec.ofNat 32 (i 0).val then 1 else 0) := by
  show acc (ix2 b j) + k0_pay7 w lo (ix2 b j)
      * broadcastTo S1024x256 (k0_pay8 (F := Ideal) i kidx) broadcasts_S1024x1_S1024x256 (ix2 b j) = _
  rw [pay7_apply, broadcastTo_a1_ab_apply, pay8_apply]

/-- One step of the first accumulator: the local row against the point's block of the table, kept only on the
    boards whose king is the point. -/
theorem pay_my (i : grid0.Coords) (w : FVec Ideal S1x256x384 .f32) (lo : FVec Ideal S1024x384 .f32) (kidx : IVec S1024 32)
    (acc : FVec Ideal S1024x256 .f32) (b : Fin 1024) (j : Fin 256) :
    k0_pay1 (k0_pay9 i w lo kidx acc) (ix2 b j)
      = acc (ix2 b j) + (∑ c : Fin 384, lo (ix2 b c) * w (ix3 0 j c)) * (if kidx (ix1 b) = BitVec.ofNat 32 (i 0).val then 1 else 0) := by
  unfold k0_pay1
  refine (congrFun (shapeCast_self _ _) (ix2 b j)).trans ?_
  exact step_apply i w lo kidx acc b j

/-- One step of the second accumulator. -/
theorem pay_opp (i : grid0.Coords) (w : FVec Ideal S1x256x384 .f32) (lo : FVec Ideal S1024x384 .f32) (kidx : IVec S1024 32)
    (acc : FVec Ideal S1024x256 .f32) (b : Fin 1024) (j : Fin 256) :
    k0_pay2 (k0_pay7 w lo) (k0_pay8 i kidx) acc (ix2 b j)
      = acc (ix2 b j) + (∑ c : Fin 384, lo (ix2 b c) * w (ix3 0 j c)) * (if kidx (ix1 b) = BitVec.ofNat 32 (i 0).val then 1 else 0) := by
  unfold k0_pay2
  refine (congrFun (shapeCast_self _ _) (ix2 b j)).trans ?_
  exact step_apply i w lo kidx acc b j

/-- The 512 rectified entries the small layers start from, out of the two accumulators and biases. -/
def hid0 (accm acco : FVec Ideal S1024x256 .f32) (bm bo : FVec Ideal S256 .f32) (b : Fin 1024) (n : Fin 512) : EReal :=
  if h : n.val < 256 then max (accm (ix2 b ⟨n.val, h⟩) + bm (ix1 ⟨n.val, h⟩)) 0
  else max (acco (ix2 b ⟨n.val - 256, by have := n.isLt; omega⟩) + bo (ix1 ⟨n.val - 256, by have := n.isLt; omega⟩)) 0

/-- The two rectified accumulators side by side, read at one entry. -/
theorem hid0_apply (accm acco : FVec Ideal S1024x256 .f32) (bm bo : FVec Ideal S256 .f32) (b : Fin 1024) (n : Fin 512) :
    concatenate S1024x512 1
        [⟨S1024x256, maximumf (addf accm (broadcastTo S1024x256 (shapeCast S1x256 bm shapeCasts_S256_S1x256) broadcasts_S1x256_S1024x256))
            (broadcast S1024x256 (Scalar.ofBits (F := Ideal) .f32 0x00000000#32))⟩,
         ⟨S1024x256, maximumf (addf acco (broadcastTo S1024x256 (shapeCast S1x256 bo shapeCasts_S256_S1x256) broadcasts_S1x256_S1024x256))
            (broadcast S1024x256 (Scalar.ofBits (F := Ideal) .f32 0x00000000#32))⟩]
        concatenates_S1024x256_S1024x256_S1024x512_d1 (ix2 b n)
      = hid0 accm acco bm bo b n := by
  unfold hid0
  by_cases h : n.val < 256
  · rw [dif_pos h]
    refine (concat_cols_left _ _ _ b n h).trans ?_
    exact reluBias_apply accm bm _ _ b ⟨n.val, h⟩
  · rw [dif_neg h]
    refine (concat_cols_right _ _ _ b n (Nat.le_of_not_lt h) (by have := n.isLt; omega)).trans ?_
    exact reluBias_apply acco bo _ _ b ⟨n.val - 256, _⟩

/-- The last grid point's output: the three small dense layers on the rectified accumulators. -/
theorem pay_out (accm acco : FVec Ideal S1024x256 .f32) (bm bo : FVec Ideal S256 .f32) (W1 : FVec Ideal S32x512 .f32) (b1 : FVec Ideal S32 .f32)
    (W2 : FVec Ideal S32x32 .f32) (b2 : FVec Ideal S32 .f32) (W3 : FVec Ideal S1x32 .f32) (b3 : FVec Ideal S1 .f32) (b : Fin 1024) :
    k0_pay3 (F := Ideal) (k0_pay4 (F := Ideal) accm bm acco bo W1 b1 W2 b2 W3) b3 (ix2 b 0)
      = (∑ n : Fin 32, Cert.Spec.dense (Cert.Spec.dense (hid0 accm acco bm bo) (fun k n => W1 (ix2 k n)) (fun k => b1 (ix1 k)))
            (fun k n => W2 (ix2 k n)) (fun k => b2 (ix1 k)) b n * W3 (ix2 0 n)) + b3 (ix1 0) := by
  unfold k0_pay3
  show k0_pay4 (F := Ideal) accm bm acco bo W1 b1 W2 b2 W3 (ix2 b 0)
      + broadcastTo S1024x1 (shapeCast S1x1 b3 shapeCasts_S1_S1x1) broadcasts_S1x1_S1024x1 (ix2 b 0) = _
  refine congrArg₂ (· + ·) ?_ (rowBias_apply b3 _ _ b 0)
  unfold k0_pay4
  refine (matmul_nt_zero_apply (M := 1024) (K := 32) (N := 1) none _ _ b 0).trans ?_
  refine Finset.sum_congr rfl fun n _ => congrArg (· * W3 (ix2 0 n)) ?_
  refine (denseLayer_apply (K := 32) (N := 32) _ W2 b2 _ _ _ b n).trans ?_
  refine congrFun (congrFun (congrArg (fun x => Cert.Spec.dense x (fun k n => W2 (ix2 k n)) (fun k => b2 (ix1 k))) ?_) b) n
  funext b' m
  refine (denseLayer_apply (K := 512) (N := 32) _ W1 b1 _ _ _ b' m).trans ?_
  refine congrFun (congrFun (congrArg (fun x => Cert.Spec.dense x (fun k n => W1 (ix2 k n)) (fun k => b1 (ix1 k))) ?_) b') m
  funext b'' l
  exact hid0_apply accm acco bm bo b'' l

end Cert.KernelIdeal.HandValue

end
-- ==== Proof.KI.ValueStep.lean ====
/-
  One grid point's contribution to the two accumulators, in closed form: at point t the body adds, on the boards
  whose king stands on square t, the board's local row contracted against king block t of the weight table.
  Summed over the points up to n this is the accumulator after point n; over all 64 points it is the sum over
  the king blocks that the closed form of the result starts from.
-/
import proofs.«431275_j61529701482572_2_alg».proof.Proof.KI.ValueHost
import proofs.«431275_j61529701482572_2_alg».proof.Proof.KI.ValueBlocks
import proofs.«431275_j61529701482572_2_alg».proof.Proof.KI.Pay

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-- The boards of core c, 64 squares each. -/
abbrev brd (c : Dev nD) : IVec S1024x64 32 := St.squares (m ((c : Thread nD τ).loc main_arg0))

/-- The grid has 64 points. -/
theorem N64 : cfg0.N = 64 := N_0

/-- The one grid coordinate of point t is t. -/
theorem coord0 : ∀ t : Fin cfg0.N, (grid0.coords t 0).val = t.val :=
  (by decide +kernel : ∀ t : Fin grid0.N, (grid0.coords t 0).val = t.val)

/-- Point k's contribution to the first accumulator at (b, j): their pieces' local row of board b against row j
    of king block k of the first table, kept when their king stands on square k. -/
def termM (c : Dev nD) (k : Fin 64) (b : Fin 1024) (j : Fin 256) : EReal :=
  (∑ cc : Fin 384, St.localOpp (F := Ideal) (brd m c) (ix2 b cc) * St.blocks (F := Ideal) (m ((c : Thread nD τ).loc main_arg1)) (ix3 k j cc))
    * (if St.king 12#32 (brd m c) (ix1 b) = BitVec.ofNat 32 k.val then (1 : EReal) else 0)

/-- Point k's contribution to the second accumulator at (b, j): my pieces' local row against king block k of the
    second table, kept when my king stands on square k. -/
def termO (c : Dev nD) (k : Fin 64) (b : Fin 1024) (j : Fin 256) : EReal :=
  (∑ cc : Fin 384, St.localMy (F := Ideal) (brd m c) (ix2 b cc) * St.blocks (F := Ideal) (m ((c : Thread nD τ).loc main_arg3)) (ix3 k j cc))
    * (if St.king 0#32 (brd m c) (ix1 b) = BitVec.ofNat 32 k.val then (1 : EReal) else 0)

/-- The first accumulator's update at point t adds point t's contribution. -/
theorem stepM (c : Dev nD) (t : Fin cfg0.N) (acc : FVec Ideal S1024x256 .f32) (b : Fin 1024) (j : Fin 256) :
    k0_pay1 (F := Ideal) (k0_pay9 (F := Ideal) (grid0.coords t) (iblk m c 4 t) (iblk m c 0 t) (iblk m c 3 t) acc) (ix2 b j)
      = acc (ix2 b j) + termM m c ⟨t.val, N64 ▸ t.isLt⟩ b j := by
  refine (pay_my (grid0.coords t) (iblk m c 4 t) (iblk m c 0 t) (iblk m c 3 t) acc b j).trans ?_
  have e0 : @Eq (FVec Ideal S1024x384 .f32) (iblk m c 0 t) (St.localOpp (F := Ideal) (brd m c)) := by
    rw [iblk0_0 m c t]; exact V_main_v39 m c
  have e3 : @Eq (IVec S1024 32) (iblk m c 3 t) (St.king 12#32 (brd m c)) := by
    rw [iblk0_3 m c t]; exact V_main_v6 m c
  have e4 : ∀ cc : Fin 384, @Eq EReal ((iblk m c 4 t : Vec Ideal S1x256x384 .f32) (ix3 0 j cc))
      (St.blocks (F := Ideal) (m ((c : Thread nD τ).loc main_arg1)) (ix3 (⟨t.val, N64 ▸ t.isLt⟩ : Fin 64) j cc)) := fun cc =>
    by
    rw [iblk0_4 m c t (ix3 0 j cc) (ix3 (⟨t.val, N64 ▸ t.isLt⟩ : Fin 64) j cc) rfl rfl rfl]; exact congrFun (V_main_v42 m c) _
  unfold termM
  rw [coord0 t, e0, e3]
  simp only [e4]

/-- The second accumulator's update at point t adds point t's contribution. -/
theorem stepO (c : Dev nD) (t : Fin cfg0.N) (acc : FVec Ideal S1024x256 .f32) (b : Fin 1024) (j : Fin 256) :
    k0_pay2 (F := Ideal) (k0_pay7 (F := Ideal) (iblk m c 5 t) (iblk m c 1 t)) (k0_pay8 (F := Ideal) (grid0.coords t) (iblk m c 2 t)) acc (ix2 b j)
      = acc (ix2 b j) + termO m c ⟨t.val, N64 ▸ t.isLt⟩ b j := by
  refine (pay_opp (grid0.coords t) (iblk m c 5 t) (iblk m c 1 t) (iblk m c 2 t) acc b j).trans ?_
  have e1 : @Eq (FVec Ideal S1024x384 .f32) (iblk m c 1 t) (St.localMy (F := Ideal) (brd m c)) := by
    rw [iblk0_1 m c t]; exact V_main_v23 m c
  have e2 : @Eq (IVec S1024 32) (iblk m c 2 t) (St.king 0#32 (brd m c)) := by
    rw [iblk0_2 m c t]; exact V_main_v3 m c
  have e5 : ∀ cc : Fin 384, @Eq EReal ((iblk m c 5 t : Vec Ideal S1x256x384 .f32) (ix3 0 j cc))
      (St.blocks (F := Ideal) (m ((c : Thread nD τ).loc main_arg3)) (ix3 (⟨t.val, N64 ▸ t.isLt⟩ : Fin 64) j cc)) := fun cc =>
    by
    rw [iblk0_5 m c t (ix3 0 j cc) (ix3 (⟨t.val, N64 ▸ t.isLt⟩ : Fin 64) j cc) rfl rfl rfl]; exact congrFun (V_main_v45 m c) _
  unfold termO
  rw [coord0 t, e1, e2]
  simp only [e5]

/-- The contributions of the points 0 … n, summed (a point's number past the grid contributes nothing). -/
def sumTo (T : Fin 64 → EReal) (n : ℕ) : EReal := ∑ k ∈ Finset.range (n + 1), if h : k < 64 then T ⟨k, h⟩ else 0

theorem sumTo_zero (T : Fin 64 → EReal) : sumTo T 0 = T 0 := by
  unfold sumTo
  rw [Finset.sum_range_one, dif_pos (by decide)]
  rfl

theorem sumTo_succ (T : Fin 64 → EReal) (n : ℕ) (h : n + 1 < 64) : sumTo T (n + 1) = sumTo T n + T ⟨n + 1, h⟩ := by
  unfold sumTo
  rw [Finset.sum_range_succ _ (n + 1), dif_pos h]

/-- Over all 64 points it is the sum over the king blocks. -/
theorem sumTo_last (T : Fin 64 → EReal) : sumTo T 63 = ∑ k : Fin 64, T k := by
  unfold sumTo
  rw [← Fin.sum_univ_eq_sum_range (fun k => if h : k < 64 then T ⟨k, h⟩ else 0) 64]
  exact Finset.sum_congr rfl fun k _ => dif_pos k.isLt

end Cert.KernelIdeal.HandValue

end
-- ==== Proof.KI.StageVal.lean ====
import proofs.«431275_j61529701482572_2_alg».proof.Proof.KI.Stages
import proofs.«431275_j61529701482572_2_alg».proof.Proof.Spec
import Idealize.ShloMosaic.Lib.ValueIdx
import Idealize.ShloMosaic.Lib.Pipeline.Value
import Idealize.ShloMosaic.PureOps.Ideal.Laws

noncomputable section

namespace Cert.KernelIdeal.HandValue

open Cert.KernelIdeal Idealize.ShloMosaic Idealize.ShloMosaic.ValueIdx
variable [Cert.KernelIdeal.Facts]

/-- One band at a square: one when the square holds the band's piece, else zero. -/
theorem bandOf_apply (v : BitVec 32) (d : IVec S1024x64 32) (i : S1024x64.Idx) :
    St.bandOf (F := Ideal) v d i = if d i = v then (1 : EReal) else 0 := by
  show (((IntOp.cmpi .eq (d i) v).toNat : ℝ) : EReal) = _
  by_cases h : d i = v
  · rw [if_pos h, h]
    simp [IntOp.cmpi]
  · rw [if_neg h]
    simp [IntOp.cmpi, h]

/-- The zero columns read zero. -/
theorem zeros64_apply (i : S1024x64.Idx) : St.zeros64 (F := Ideal) i = 0 := by
  show Ideal.ofBits .f32 0x00000000#32 = 0
  exact Ideal.ofBits_zero_f32

/-- Six arrays of 64 columns side by side, read at column c: the array of c's band of 64, at column c mod 64. -/
theorem concat6_apply {α : Type} (x0 x1 x2 x3 x4 x5 : S1024x64.Idx → α)
    (h : Shape.Concatenates [S1024x64, S1024x64, S1024x64, S1024x64, S1024x64, S1024x64] S1024x384 1)
    (b : Fin 1024) (c : Fin 384) :
    concatenate S1024x384 1 [⟨S1024x64, x0⟩, ⟨S1024x64, x1⟩, ⟨S1024x64, x2⟩, ⟨S1024x64, x3⟩, ⟨S1024x64, x4⟩, ⟨S1024x64, x5⟩] h (ix2 b c)
      = (if c.val < 64 then x0 else if c.val < 128 then x1 else if c.val < 192 then x2 else if c.val < 256 then x3
          else if c.val < 320 then x4 else x5) (ix2 b ⟨c.val % 64, Nat.mod_lt _ (by decide)⟩) := by
  have hc := c.isLt
  have hi : ∀ b' : Fin S1024x64.rank, b'.cast (rfl : S1024x64.rank = S1024x384.rank) ≠ (1 : Fin S1024x384.rank) →
      ((ix2 b (⟨c.val % 64, Nat.mod_lt _ (by decide)⟩ : Fin 64) : S1024x64.Idx) b').val = ((ix2 b c : S1024x384.Idx) (b'.cast rfl)).val := by
    intro b' hb'
    match b' with
    | ⟨0, _⟩ => rfl
    | ⟨1, _⟩ => exact absurd rfl hb'
  by_cases h0 : c.val < 64
  · rw [if_pos h0]
    exact concatenate_apply_piece (t := S1024x384) 1 [⟨S1024x64, x0⟩, ⟨S1024x64, x1⟩, ⟨S1024x64, x2⟩, ⟨S1024x64, x3⟩, ⟨S1024x64, x4⟩, ⟨S1024x64, x5⟩] h (ix2 b c) 0 (by simp) S1024x64 x0 rfl rfl 0 rfl _ hi (by show 0 + c.val % 64 = c.val; omega)
  rw [if_neg h0]
  by_cases h1 : c.val < 128
  · rw [if_pos h1]
    exact concatenate_apply_piece (t := S1024x384) 1 [⟨S1024x64, x0⟩, ⟨S1024x64, x1⟩, ⟨S1024x64, x2⟩, ⟨S1024x64, x3⟩, ⟨S1024x64, x4⟩, ⟨S1024x64, x5⟩] h (ix2 b c) 1 (by simp) S1024x64 x1 rfl rfl 64 rfl _ hi (by show 64 + c.val % 64 = c.val; omega)
  rw [if_neg h1]
  by_cases h2 : c.val < 192
  · rw [if_pos h2]
    exact concatenate_apply_piece (t := S1024x384) 1 [⟨S1024x64, x0⟩, ⟨S1024x64, x1⟩, ⟨S1024x64, x2⟩, ⟨S1024x64, x3⟩, ⟨S1024x64, x4⟩, ⟨S1024x64, x5⟩] h (ix2 b c) 2 (by simp) S1024x64 x2 rfl rfl 128 rfl _ hi (by show 128 + c.val % 64 = c.val; omega)
  rw [if_neg h2]
  by_cases h3 : c.val < 256
  · rw [if_pos h3]
    exact concatenate_apply_piece (t := S1024x384) 1 [⟨S1024x64, x0⟩, ⟨S1024x64, x1⟩, ⟨S1024x64, x2⟩, ⟨S1024x64, x3⟩, ⟨S1024x64, x4⟩, ⟨S1024x64, x5⟩] h (ix2 b c) 3 (by simp) S1024x64 x3 rfl rfl 192 rfl _ hi (by show 192 + c.val % 64 = c.val; omega)
  rw [if_neg h3]
  by_cases h4 : c.val < 320
  · rw [if_pos h4]
    exact concatenate_apply_piece (t := S1024x384) 1 [⟨S1024x64, x0⟩, ⟨S1024x64, x1⟩, ⟨S1024x64, x2⟩, ⟨S1024x64, x3⟩, ⟨S1024x64, x4⟩, ⟨S1024x64, x5⟩] h (ix2 b c) 4 (by simp) S1024x64 x4 rfl rfl 256 rfl _ hi (by show 256 + c.val % 64 = c.val; omega)
  rw [if_neg h4]
  exact concatenate_apply_piece (t := S1024x384) 1 [⟨S1024x64, x0⟩, ⟨S1024x64, x1⟩, ⟨S1024x64, x2⟩, ⟨S1024x64, x3⟩, ⟨S1024x64, x4⟩, ⟨S1024x64, x5⟩] h (ix2 b c) 5 (by simp) S1024x64 x5 rfl rfl 320 rfl _ hi (by show 320 + c.val % 64 = c.val; omega)

/-- Five bands and the zero columns at column c are the local one-hot row of the bands' pieces. -/
theorem sixBands_localRow (p0 p1 p2 p3 p4 : BitVec 32) (piece : ℕ → ℕ)
    (e0 : BitVec.ofNat 32 (piece 0) = p0) (e1 : BitVec.ofNat 32 (piece 1) = p1) (e2 : BitVec.ofNat 32 (piece 2) = p2)
    (e3 : BitVec.ofNat 32 (piece 3) = p3) (e4 : BitVec.ofNat 32 (piece 4) = p4)
    (d : IVec S1024x64 32) (b : Fin 1024) (c : Fin 384) :
    St.sixBands (F := Ideal) p0 p1 p2 p3 p4 d (ix2 b c) = Cert.Spec.localRow (fun b s => d (ix2 b s)) piece b c := by
  unfold St.sixBands Cert.Spec.localRow
  rw [concat6_apply]
  have hc := c.isLt
  by_cases h0 : c.val < 64
  · have q : c.val / 64 = 0 := by omega
    have h320 : c.val < 320 := by omega
    rw [if_pos h0, bandOf_apply, q, e0]
    simp only [h320, true_and]
  rw [if_neg h0]
  by_cases h1 : c.val < 128
  · have q : c.val / 64 = 1 := by omega
    have h320 : c.val < 320 := by omega
    rw [if_pos h1, bandOf_apply, q, e1]
    simp only [h320, true_and]
  rw [if_neg h1]
  by_cases h2 : c.val < 192
  · have q : c.val / 64 = 2 := by omega
    have h320 : c.val < 320 := by omega
    rw [if_pos h2, bandOf_apply, q, e2]
    simp only [h320, true_and]
  rw [if_neg h2]
  by_cases h3 : c.val < 256
  · have q : c.val / 64 = 3 := by omega
    have h320 : c.val < 320 := by omega
    rw [if_pos h3, bandOf_apply, q, e3]
    simp only [h320, true_and]
  rw [if_neg h3]
  by_cases h4 : c.val < 320
  · have q : c.val / 64 = 4 := by omega
    rw [if_pos h4, bandOf_apply, q, e4]
    simp only [h4, true_and]
  rw [if_neg h4, zeros64_apply, if_neg (fun h => h4 h.1)]

/-- Their pieces' local row, entry by entry. -/
theorem localOpp_apply (d : IVec S1024x64 32) (b : Fin 1024) (c : Fin 384) :
    St.localOpp (F := Ideal) d (ix2 b c) = Cert.Spec.localOpp (fun b s => d (ix2 b s)) b c :=
  sixBands_localRow 11#32 10#32 9#32 8#32 7#32 (fun v => 11 - v) rfl rfl rfl rfl rfl d b c

/-- My pieces' local row, entry by entry. -/
theorem localMy_apply (d : IVec S1024x64 32) (b : Fin 1024) (c : Fin 384) :
    St.localMy (F := Ideal) d (ix2 b c) = Cert.Spec.localMy (fun b s => d (ix2 b s)) b c :=
  sixBands_localRow 1#32 2#32 3#32 4#32 5#32 (fun v => v + 1) rfl rfl rfl rfl rfl d b c

/-- King block k of a table: row j, local column c is feature k * 641 + c of row j. -/
theorem blocks_apply (W : FVec Ideal S256x41024 .f32) (k : Fin 64) (j : Fin 256) (c : Fin 384) :
    St.blocks (F := Ideal) W (ix3 k j c) = W (ix2 j ⟨k.val * 641 + c.val, by have := k.isLt; have := c.isLt; omega⟩) := by
  unfold St.blocks
  refine (transpose_apply _ _ _ (ix3 k j c) (ix3 j k c)
    (fun b => match b with | ⟨0, _⟩ => rfl | ⟨1, _⟩ => rfl | ⟨2, _⟩ => rfl)).trans ?_
  refine (extractStridedSlice_apply _ _ _ (ix3 j k c) (ix3 j k ⟨c.val, by have := c.isLt; omega⟩)
    (fun a => match a with
      | ⟨0, _⟩ => by show j.val = 0 + j.val; omega
      | ⟨1, _⟩ => by show k.val = 0 + k.val; omega
      | ⟨2, _⟩ => by show c.val = 0 + c.val; omega)).trans ?_
  refine shapeCast_apply _ _ _ _ ?_
  rw [Shape.rowMajor_val_two, Shape.rowMajor_val_three]
  show j.val * 41024 + (k.val * 641 + c.val) = (j.val * 64 + k.val) * 641 + c.val
  omega

/-- Keeping, over the 64 king blocks, only the block of the board's own king: the sum over the blocks of
    (block k's contraction) × [king = k] is the king's block's contraction. -/
theorem pick_king (W : Fin 256 → Fin 41024 → EReal) (lo : Fin 384 → EReal) (kg : BitVec 32) (hk : kg.toNat < 64) (j : Fin 256) :
    (∑ k : Fin 64, (∑ c : Fin 384, lo c * Cert.Spec.colAt W j (k.val * 641 + c.val)) * (if kg = BitVec.ofNat 32 k.val then (1 : EReal) else 0))
      = ∑ c : Fin 384, lo c * Cert.Spec.colAt W j (kg.toNat * 641 + c.val) := by
  rw [Finset.sum_eq_single (⟨kg.toNat, hk⟩ : Fin 64)]
  · rw [if_pos (by simp), mul_one]
  · intro k _ hne
    rw [if_neg, mul_zero]
    intro h
    apply hne
    apply Fin.ext
    have h2 := congrArg BitVec.toNat h
    rw [BitVec.toNat_ofNat, Nat.mod_eq_of_lt (by have := k.isLt; omega)] at h2
    exact h2.symm
  · intro h; exact absurd (Finset.mem_univ _) h

end Cert.KernelIdeal.HandValue

end
-- ==== Proof.Ref.Stages.lean ====
/-
  The reference program's host operations, composed as functions of the argument arrays: each definition
  below is one stretch of the operations of @main, read as a pure function of the values it consumes.
  The board is flattened to 64 squares; the two kings are the first squares holding 0 and 12 (an arg-max
  over a comparison, smaller index on a tie); a square holding a piece 1..5 (7..11) names the feature
  king * 641 + band * 64 + square, any other square the out-of-range feature 41024, which the scatter
  drops; the two feature rows are multiplied into the two wide layers, whose rectified results are
  concatenated and sent through three small dense layers.
-/
import proofs.«431275_j61529701482572_2_alg».proof.ReferenceIdeal
import Idealize.ShloMosaic.PureOps.Ideal

noncomputable section

namespace Cert.ReferenceIdeal.St

open Cert.ReferenceIdeal Idealize.ShloMosaic Idealize.SL.Sem
open Cert.ReferenceIdeal.Facts₀

variable {F : FTy → Type} [FloatOps F] [Cert.ReferenceIdeal.Facts]

/-- A constant word on every square. -/
def splat64 (v : BitVec 32) : IVec S1024x64 32 := broadcastInDim S1024x64 ![] bcast_S_S1024x64 (constantI S_ 32 v)
/-- A constant word on every board (one column). -/
def splatCol (v : BitVec 32) : IVec S1024x1 32 := broadcastInDim S1024x1 ![] bcast_S_S1024x1 (constantI S_ 32 v)

/-- The boards, 64 squares each. -/
def squares (a0 : IVec S1024x8x8 32) : IVec S1024x64 32 := shapeCast S1024x64 a0 shapeCasts_S1024x8x8_S1024x64

/-- The first square of each board that holds `v` (square 0 when none does). -/
def king (v : BitVec 32) (d : IVec S1024x64 32) : IVec S1024 32 := fun j =>
  (Host.reduce2 reducer_argmax_i1_i32 (cmpi .eq d (splat64 v)) (iotaInDim S1024x64 32 1) (constantI S_ 1 0#1) (constantI S_ 32 0#32)
    reducesTo_S1024x64_S1024_d1 h_S_ j).2

/-- The square's own number, on every board. -/
def sqNo : IVec S1024x64 32 :=
  broadcastInDim S1024x64 ![0, 1] bcast_S1x64_S1024x64_0_1 (broadcastInDim S1x64 ![1] bcast_S64_S1x64_1 (iotaInDim S64 32 0))

/-- A king's block offset, king * 641, on every square of its board. -/
def kingBase (k : IVec S1024 32) : IVec S1024x64 32 :=
  broadcastInDim S1024x64 ![0, 1] bcast_S1024x1_S1024x64_0_1 (muli (broadcastInDim S1024x1 ![0] bcast_S1024_S1024x1_0 k) (splatCol 641#32))

/-- "Mine": a piece 1..5. -/
def isMy (d : IVec S1024x64 32) : IVec S1024x64 1 := andi (cmpi .sge d (splat64 1#32)) (cmpi .sle d (splat64 5#32))
/-- "Theirs": a piece 7..11. -/
def isOpp (d : IVec S1024x64 32) : IVec S1024x64 1 := andi (cmpi .sge d (splat64 7#32)) (cmpi .sle d (splat64 11#32))

/-- The feature a square of mine names: my king's block, band piece − 1, the square. -/
def myFeat (d : IVec S1024x64 32) : IVec S1024x64 32 :=
  addi (addi (kingBase (king 0#32 d)) (muli (subi d (splat64 1#32)) (splat64 64#32))) sqNo
/-- The feature a square of theirs names: their king's block, band 11 − piece, the square. -/
def oppFeat (d : IVec S1024x64 32) : IVec S1024x64 32 :=
  addi (addi (kingBase (king 12#32 d)) (muli (subi (splat64 11#32) d) (splat64 64#32))) sqNo

/-- Keep `x` where `p` holds, else the out-of-range feature 41024. -/
def orDrop (p : IVec S1024x64 1) (x : IVec S1024x64 32) : IVec S1024x64 32 :=
  select p x (broadcastInDim S1024x64 ![] bcast_S_S1024x64 (id (constantI S_ 32 41024#32)))

/-- A negative feature counted from the end (never taken here, but the program says so). -/
def wrapFeat (x : IVec S1024x64 32) : IVec S1024x64 32 := select (cmpi .slt x (splat64 0#32)) (addi x (splat64 41024#32)) x

/-- The board's own number as a column, a negative one counted from the end. -/
def rowNo : IVec S1024x1 32 :=
  select (cmpi .slt (broadcastInDim S1024x1 ![0] bcast_S1024_S1024x1_0 (iotaInDim S1024 32 0)) (splatCol 0#32))
    (addi (broadcastInDim S1024x1 ![0] bcast_S1024_S1024x1_0 (iotaInDim S1024 32 0)) (splatCol 1024#32))
    (broadcastInDim S1024x1 ![0] bcast_S1024_S1024x1_0 (iotaInDim S1024 32 0))

/-- The scatter's index pairs (board, feature), one per square. -/
def pairs (x : IVec S1024x64 32) : IVec S1024x64x2 32 :=
  concatenate S1024x64x2 2
    [⟨S1024x64x1, broadcastInDim S1024x64x1 ![0, 1] bcast_S1024x64_S1024x64x1_0_1 (broadcastInDim S1024x64 ![0, 1] bcast_S1024x1_S1024x64_0_1 rowNo)⟩,
     ⟨S1024x64x1, broadcastInDim S1024x64x1 ![0, 1] bcast_S1024x64_S1024x64x1_0_1 (wrapFeat x)⟩]
    concatenates_S1024x64x1_S1024x64x1_S1024x64x2_d2

/-- The feature rows: zero everywhere, one at each in-range pair. -/
def feats (x : IVec S1024x64 32) : FVec F S1024x41024 .f32 :=
  Host.scatter scatter_S1024x41024_S1024x64x2_S1024x64_n_01_01_2 (fun _ b => b)
    (broadcastInDim S1024x41024 ![] bcast_S_S1024x41024 (constant S_ .f32 0x00000000#32))
    (pairs x)
    (broadcastInDim S1024x64 ![] bcast_S_S1024x64 (constant S_ .f32 0x3F800000#32))

/-- My features and theirs, per board. -/
def mys (d : IVec S1024x64 32) : FVec F S1024x41024 .f32 := feats (orDrop (isMy d) (myFeat d))
def opps (d : IVec S1024x64 32) : FVec F S1024x41024 .f32 := feats (orDrop (isOpp d) (oppFeat d))

/-- Theirs then mine, side by side; the first half feeds the "my" layer, the second the "opp" layer. -/
def both (d : IVec S1024x64 32) : FVec F S1024x82048 .f32 :=
  concatenate S1024x82048 1 [⟨S1024x41024, opps d⟩, ⟨S1024x41024, mys d⟩] concatenates_S1024x41024_S1024x41024_S1024x82048_d1
def firstHalf (d : IVec S1024x64 32) : FVec F S1024x41024 .f32 :=
  extractStridedSlice S1024x41024 ![0, 0] (both d) slices_S1024x82048_S1024x41024_0_0
def secondHalf (d : IVec S1024x64 32) : FVec F S1024x41024 .f32 :=
  extractStridedSlice S1024x41024 ![0, 41024] (both d) slices_S1024x82048_S1024x41024_0_41024

/-- max(x, 0) on 256 columns. -/
def relu256 (x : FVec F S1024x256 .f32) : FVec F S1024x256 .f32 :=
  maximumf x (broadcastInDim S1024x256 ![] bcast_S_S1024x256 (constant S_ .f32 0x00000000#32))
/-- max(x, 0) on 32 columns. -/
def relu32 (x : FVec F S1024x32 .f32) : FVec F S1024x32 .f32 :=
  maximumf x (broadcastInDim S1024x32 ![] bcast_S_S1024x32 (constant S_ .f32 0x00000000#32))

/-- A wide layer: rows of features times the transposed weights, plus the bias, rectified. -/
def wide (x : FVec F S1024x41024 .f32) (W : FVec F S256x41024 .f32) (b : FVec F S256 .f32) : FVec F S1024x256 .f32 :=
  relu256 (addf (Host.dotGeneral dot_S1024x41024_S41024x256_S1024x256_1_0_0_1_n_n none x (transpose S41024x256 [1, 0] W transposes_S256x41024_S41024x256_1_0))
    (broadcastInDim S1024x256 ![0, 1] bcast_S1x256_S1024x256_0_1 (broadcastInDim S1x256 ![1] bcast_S256_S1x256_1 b)))

/-- The two wide layers' results side by side. -/
def hidden0 (d : IVec S1024x64 32) (Wm : FVec F S256x41024 .f32) (bm : FVec F S256 .f32) (Wo : FVec F S256x41024 .f32) (bo : FVec F S256 .f32) :
    FVec F S1024x512 .f32 :=
  concatenate S1024x512 1 [⟨S1024x256, wide (firstHalf d) Wm bm⟩, ⟨S1024x256, wide (secondHalf d) Wo bo⟩] concatenates_S1024x256_S1024x256_S1024x512_d1

/-- The first small layer. -/
def hidden1 (h : FVec F S1024x512 .f32) (W1 : FVec F S32x512 .f32) (b1 : FVec F S32 .f32) : FVec F S1024x32 .f32 :=
  relu32 (addf (Host.dotGeneral dot_S1024x512_S512x32_S1024x32_1_0_0_1_n_n none h (transpose S512x32 [1, 0] W1 transposes_S32x512_S512x32_1_0))
    (broadcastInDim S1024x32 ![0, 1] bcast_S1x32_S1024x32_0_1 (broadcastInDim S1x32 ![1] bcast_S32_S1x32_1 b1)))
/-- The second small layer. -/
def hidden2 (h : FVec F S1024x32 .f32) (W2 : FVec F S32x32 .f32) (b2 : FVec F S32 .f32) : FVec F S1024x32 .f32 :=
  relu32 (addf (Host.dotGeneral dot_S1024x32_S32x32_S1024x32_1_0_0_1_n_n none h (transpose S32x32 [1, 0] W2 transposes_S32x32_S32x32_1_0))
    (broadcastInDim S1024x32 ![0, 1] bcast_S1x32_S1024x32_0_1 (broadcastInDim S1x32 ![1] bcast_S32_S1x32_1 b2)))
/-- The last layer, one column, flattened. -/
def score (h : FVec F S1024x32 .f32) (W3 : FVec F S1x32 .f32) (b3 : FVec F S1 .f32) : FVec F S1024 .f32 :=
  shapeCast S1024 (addf (Host.dotGeneral dot_S1024x32_S32x1_S1024x1_1_0_0_1_n_n none h (transpose S32x1 [1, 0] W3 transposes_S1x32_S32x1_1_0))
    (broadcastInDim S1024x1 ![0, 1] bcast_S1x1_S1024x1_0_1 (broadcastInDim S1x1 ![1] bcast_S1_S1x1_1 b3))) shapeCasts_S1024x1_S1024

/-- The whole reference as one function of its eleven arguments. -/
def result (a0 : IVec S1024x8x8 32) (Wm : FVec F S256x41024 .f32) (bm : FVec F S256 .f32) (Wo : FVec F S256x41024 .f32) (bo : FVec F S256 .f32)
    (W1 : FVec F S32x512 .f32) (b1 : FVec F S32 .f32) (W2 : FVec F S32x32 .f32) (b2 : FVec F S32 .f32) (W3 : FVec F S1x32 .f32) (b3 : FVec F S1 .f32) :
    FVec F S1024 .f32 :=
  score (hidden2 (hidden1 (hidden0 (squares a0) Wm bm Wo bo) W1 b1) W2 b2) W3 b3

end Cert.ReferenceIdeal.St

end
-- ==== Proof.Ref.King.lean ====
import proofs.«431275_j61529701482572_2_alg».proof.Proof.Ref.Stages
import Idealize.ShloMosaic.Lib.ValueIdx

noncomputable section

namespace Cert.ReferenceIdeal.RefValue

open Cert.ReferenceIdeal Idealize.ShloMosaic Idealize.ShloMosaic.ValueIdx
variable [Cert.ReferenceIdeal.Facts]

/-- One step of the arg-max reducer returns, as its index, one of the two indices it was given. -/
theorem reducer_snd (a b : BitVec 1 × BitVec 32) :
    (reducer_argmax_i1_i32 a b).2 = a.2 ∨ (reducer_argmax_i1_i32 a b).2 = b.2 := by
  unfold reducer_argmax_i1_i32
  simp only [Scalar.select]
  split
  · exact Or.inl rfl
  · exact Or.inr rfl

/-- A left fold of the arg-max reducer over operands whose indices are all below 64, started at an index
    below 64, ends at an index below 64. -/
theorem fold_snd_lt {ι : Type} (x : ι → BitVec 1) (y : ι → BitVec 32) (hy : ∀ n, (y n).toNat < 64)
    (l : List ι) (r : BitVec 1 × BitVec 32) (hr : r.2.toNat < 64) :
    ((l.foldl (fun r n => reducer_argmax_i1_i32 r (x n, y n)) r).2).toNat < 64 := by
  induction l generalizing r with
  | nil => exact hr
  | cons n l ih =>
    rw [List.foldl_cons]
    apply ih
    rcases reducer_snd r (x n, y n) with h | h
    · rw [h]; exact hr
    · rw [h]; exact hy n

/-- The iota along the squares is below 64 at every index. -/
theorem iota_sq_lt (i : S1024x64.Idx) : (iotaInDim S1024x64 32 1 i).toNat < 64 := by
  have h : (i 1).val < 64 := (i 1).isLt
  show (BitVec.ofNat 32 (i 1).val).toNat < 64
  rw [BitVec.toNat_ofNat]
  exact Nat.lt_of_le_of_lt (Nat.mod_le _ _) h

/-- The first square holding `v` is one of the 64 squares: the arg-max fold starts at index 0 and only ever
    takes an index of the iota along the squares. -/
theorem king_lt (v : BitVec 32) (d : IVec S1024x64 32) (b : Fin 1024) : (St.king v d (ix1 b)).toNat < 64 := by
  unfold St.king Host.reduce2
  exact fold_snd_lt (fun n => cmpi .eq d (St.splat64 v) (S1024x64.rowMajor.symm n))
    (fun n => iotaInDim S1024x64 32 1 (S1024x64.rowMajor.symm n)) (fun n => iota_sq_lt _) _ _ (by
      show (0#32).toNat < 64
      decide)

end Cert.ReferenceIdeal.RefValue

end
-- ==== Proof.KI.Out.lean ====
import proofs.«431275_j61529701482572_2_alg».proof.Proof.KI.Stages
import proofs.«431275_j61529701482572_2_alg».proof.Proof.Ref.King
import proofs.«431275_j61529701482572_2_alg».proof.Proof.Gen.ReferenceIdeal
import proofs.«431275_j61529701482572_2_alg».proof.Proof.Spec
import Idealize.ShloMosaic.Lib.ValueIdx

noncomputable section

namespace Cert.KernelIdeal.HandValue

open Cert.KernelIdeal Idealize.ShloMosaic Idealize.ShloMosaic.ValueIdx
variable [Cert.KernelIdeal.Facts]

/-- The kernel program's result as one function of its eleven arguments: the network's score of each board,
    the kings being the first squares holding 0 and 12. -/
def kernelOut (a0 : IVec S1024x8x8 32) (Wm : FVec Ideal S256x41024 .f32) (bm : FVec Ideal S256 .f32) (Wo : FVec Ideal S256x41024 .f32) (bo : FVec Ideal S256 .f32)
    (W1 : FVec Ideal S32x512 .f32) (b1 : FVec Ideal S32 .f32) (W2 : FVec Ideal S32x32 .f32) (b2 : FVec Ideal S32 .f32) (W3 : FVec Ideal S1x32 .f32) (b3 : FVec Ideal S1 .f32) :
    FVec Ideal S1024 .f32 := fun i =>
  Cert.Spec.out (fun b s => St.squares a0 (ix2 b s)) (fun b => (St.king 0#32 (St.squares a0) (ix1 b)).toNat) (fun b => (St.king 12#32 (St.squares a0) (ix1 b)).toNat)
    (fun j n => Wm (ix2 j n)) (fun j => bm (ix1 j)) (fun j n => Wo (ix2 j n)) (fun j => bo (ix1 j))
    (fun k n => W1 (ix2 k n)) (fun k => b1 (ix1 k)) (fun k n => W2 (ix2 k n)) (fun k => b2 (ix1 k)) (fun k n => W3 (ix2 k n)) (fun k => b3 (ix1 k)) (i 0)

/-- A king is one of the 64 squares (the two programs' arg-max terms are one term). -/
theorem king_lt (v : BitVec 32) (d : IVec S1024x64 32) (b : Fin 1024) : (St.king v d (ix1 b)).toNat < 64 :=
  haveI := Cert.ReferenceIdeal.Gen.facts
  Cert.ReferenceIdeal.RefValue.king_lt v d b

end Cert.KernelIdeal.HandValue

end
-- ==== Proof.KI.ValueFinal.lean ====
import proofs.«431275_j61529701482572_2_alg».proof.Proof.KI.Pay
import proofs.«431275_j61529701482572_2_alg».proof.Proof.KI.StageVal
import proofs.«431275_j61529701482572_2_alg».proof.Proof.KI.Out

noncomputable section

namespace Cert.KernelIdeal.HandValue

open Cert.KernelIdeal Cert.KernelIdeal.Gen Idealize.ShloMosaic Idealize.ShloMosaic.ValueIdx
variable [Cert.KernelIdeal.Facts]

/-- King block k's entry (j, c) is the table's row j at feature k * 641 + c, a feature inside the table. -/
theorem blocks_colAt (W : FVec Ideal S256x41024 .f32) (k : Fin 64) (j : Fin 256) (c : Fin 384) :
    St.blocks (F := Ideal) W (ix3 k j c) = Cert.Spec.colAt (fun j n => W (ix2 j n)) j (k.val * 641 + c.val) := by
  rw [blocks_apply]
  unfold Cert.Spec.colAt
  rw [dif_pos (by have := k.isLt; have := c.isLt; omega)]

/-- An accumulator that is the sum over the 64 king blocks of (the local row against the block) × [king = block]
    is the local row against the king's own block of the table. -/
theorem acc_closed (lo : FVec Ideal S1024x384 .f32) (lo' : Fin 1024 → Fin 384 → EReal) (hlo : ∀ b c, lo (ix2 b c) = lo' b c)
    (W : FVec Ideal S256x41024 .f32) (kg : IVec S1024 32) (hkg : ∀ b, (kg (ix1 b)).toNat < 64)
    (acc : FVec Ideal S1024x256 .f32)
    (h : ∀ (b : Fin 1024) (j : Fin 256), acc (ix2 b j) = ∑ k : Fin 64, (∑ c : Fin 384, lo (ix2 b c) * St.blocks (F := Ideal) W (ix3 k j c))
        * (if kg (ix1 b) = BitVec.ofNat 32 k.val then (1 : EReal) else 0))
    (b : Fin 1024) (j : Fin 256) :
    acc (ix2 b j) = ∑ c : Fin 384, lo' b c * Cert.Spec.colAt (fun j n => W (ix2 j n)) j ((kg (ix1 b)).toNat * 641 + c.val) := by
  rw [h, ← pick_king (fun j n => W (ix2 j n)) (lo' b) (kg (ix1 b)) (hkg b) j]
  refine Finset.sum_congr rfl fun k _ => ?_
  congr 1
  refine Finset.sum_congr rfl fun c _ => ?_
  rw [hlo, blocks_colAt]

/-- The kernel program's score of board b out of its accumulators is the network's score. -/
theorem out_closed (a0 : IVec S1024x8x8 32) (Wm Wo : FVec Ideal S256x41024 .f32) (bm bo : FVec Ideal S256 .f32) (W1 : FVec Ideal S32x512 .f32) (b1 : FVec Ideal S32 .f32) (W2 : FVec Ideal S32x32 .f32) (b2 : FVec Ideal S32 .f32) (W3 : FVec Ideal S1x32 .f32) (b3 : FVec Ideal S1 .f32) (accm acco : FVec Ideal S1024x256 .f32) (hm : ∀ (b : Fin 1024) (j : Fin 256), accm (ix2 b j) = ∑ k : Fin 64, (∑ c : Fin 384, St.localOpp (F := Ideal) (St.squares a0) (ix2 b c) * St.blocks (F := Ideal) Wm (ix3 k j c)) * (if St.king 12#32 (St.squares a0) (ix1 b) = BitVec.ofNat 32 k.val then (1 : EReal) else 0)) (ho : ∀ (b : Fin 1024) (j : Fin 256), acco (ix2 b j) = ∑ k : Fin 64, (∑ c : Fin 384, St.localMy (F := Ideal) (St.squares a0) (ix2 b c) * St.blocks (F := Ideal) Wo (ix3 k j c)) * (if St.king 0#32 (St.squares a0) (ix1 b) = BitVec.ofNat 32 k.val then (1 : EReal) else 0)) (b : Fin 1024) : k0_pay3 (F := Ideal) (k0_pay4 (F := Ideal) accm bm acco bo W1 b1 W2 b2 W3) b3 (ix2 b 0) = kernelOut a0 Wm bm Wo bo W1 b1 W2 b2 W3 b3 (ix1 b) := by
  have hhid : hid0 accm acco bm bo
      = Cert.Spec.hidden0 (fun b s => St.squares a0 (ix2 b s)) (fun b => (St.king 0#32 (St.squares a0) (ix1 b)).toNat)
          (fun b => (St.king 12#32 (St.squares a0) (ix1 b)).toNat)
          (fun j n => Wm (ix2 j n)) (fun j => bm (ix1 j)) (fun j n => Wo (ix2 j n)) (fun j => bo (ix1 j)) := by
    funext b n
    unfold hid0 Cert.Spec.hidden0 Cert.Spec.wide
    by_cases hn : n.val < 256
    · rw [dif_pos hn, dif_pos hn,
        acc_closed (St.localOpp (F := Ideal) (St.squares a0)) (Cert.Spec.localOpp fun b s => St.squares a0 (ix2 b s))
          (fun b c => localOpp_apply (St.squares a0) b c) Wm (St.king 12#32 (St.squares a0)) (fun b => king_lt 12#32 (St.squares a0) b) accm hm]
    · rw [dif_neg hn, dif_neg hn,
        acc_closed (St.localMy (F := Ideal) (St.squares a0)) (Cert.Spec.localMy fun b s => St.squares a0 (ix2 b s))
          (fun b c => localMy_apply (St.squares a0) b c) Wo (St.king 0#32 (St.squares a0)) (fun b => king_lt 0#32 (St.squares a0) b) acco ho]
  rw [pay_out, hhid]
  rfl

end Cert.KernelIdeal.HandValue

end
-- ==== Proof.KI.ValueAcc.lean ====
/-
  The two accumulators after each grid point, by induction on the point: after point n accumulator 0 holds, at
  (b, j), the sum over the points k ≤ n of board b's local row of their pieces against row j of king block k of the
  first table, kept where their king stands on square k; accumulator 1 likewise with my pieces, my king and the
  second table. After the last point the output window holds the network's score of every board.
-/
import proofs.«431275_j61529701482572_2_alg».proof.Proof.KI.ValuePieces
import proofs.«431275_j61529701482572_2_alg».proof.Proof.KI.ValueStep
import proofs.«431275_j61529701482572_2_alg».proof.Proof.KI.ValueFinal

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-- Both accumulators after point n are the contributions of the points 0 … n summed. -/
theorem acc_inv (c : Dev nD) : ∀ (n : ℕ) (hn : n < cfg0.N) (b : Fin 1024) (j : Fin 256),
    (outsAt0 m c n hn).2.1 (ix2 b j) = sumTo (fun k => termM m c k b j) n
      ∧ (outsAt0 m c n hn).2.2 (ix2 b j) = sumTo (fun k => termO m c k b j) n
  | 0, hn, b, j => by
    rw [outsAt0_A m c ⟨0, hn⟩ rfl (by decide : ¬(0 : ℕ) = 63)]
    dsimp only
    rw [soutA0_eq, soutA1_eq]
    constructor
    · refine (stepM m c ⟨0, hn⟩ k0_pay5 b j).trans ?_
      rw [pay5_apply, zero_add, sumTo_zero] <;> rfl
    · refine (stepO m c ⟨0, hn⟩ k0_pay6 b j).trans ?_
      rw [pay6_apply, zero_add, sumTo_zero] <;> rfl
  | n + 1, hn, b, j => by
    have hN : cfg0.N = 64 := N64
    have ih := acc_inv c n (Nat.lt_of_succ_lt hn) b j
    by_cases h63 : n + 1 = 63
    · rw [outsAt0_C m c ⟨n + 1, hn⟩ (Nat.succ_ne_zero n) h63]
      dsimp only
      rw [soutC0_eq, soutC1_eq]
      constructor
      · refine (stepM m c ⟨n + 1, hn⟩ _ b j).trans ?_
        show (outsAt0 m c n _).2.1 (ix2 b j) + _ = _
        rw [ih.1, sumTo_succ _ n (by omega)]
      · refine (stepO m c ⟨n + 1, hn⟩ _ b j).trans ?_
        show (outsAt0 m c n _).2.2 (ix2 b j) + _ = _
        rw [ih.2, sumTo_succ _ n (by omega)]
    · rw [outsAt0_B m c ⟨n + 1, hn⟩ (Nat.succ_ne_zero n) h63]
      dsimp only
      rw [soutB0_eq, soutB1_eq]
      constructor
      · refine (stepM m c ⟨n + 1, hn⟩ _ b j).trans ?_
        show (outsAt0 m c n _).2.1 (ix2 b j) + _ = _
        rw [ih.1, sumTo_succ _ n (by omega)]
      · refine (stepO m c ⟨n + 1, hn⟩ _ b j).trans ?_
        show (outsAt0 m c n _).2.2 (ix2 b j) + _ = _
        rw [ih.2, sumTo_succ _ n (by omega)]

/-- The last grid point. -/
abbrev tLast : Fin cfg0.N := ⟨63, by rw [N64]; decide⟩

/-- What the output window holds after the last point: the small layers over the two accumulators as the last
    point leaves them, with the staged biases and small tables. -/
theorem out_last (c : Dev nD) :
    (outsAt0 m c 63 tLast.isLt).1
      = k0_pay3 (F := Ideal) (k0_pay4 (F := Ideal) (outsAt0 m c 63 tLast.isLt).2.1 (iblk m c 6 tLast) (outsAt0 m c 63 tLast.isLt).2.2 (iblk m c 7 tLast)
          (iblk m c 8 tLast) (iblk m c 9 tLast) (iblk m c 10 tLast) (iblk m c 11 tLast) (iblk m c 12 tLast)) (iblk m c 13 tLast) := by
  rw [outsAt0_C m c tLast (by decide) rfl]
  dsimp only
  rw [outC14_eq, soutC0_eq, soutC1_eq]

/-- After the last point the output window holds the network's score of every board. -/
theorem result_apply (c : Dev nD) (b : Fin 1024) :
    (outsAt0 m c 63 tLast.isLt).1 (ix2 b 0)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (ix1 b) := by
  rw [out_last m c, iblk0_6 m c tLast, iblk0_7 m c tLast, iblk0_8 m c tLast, iblk0_9 m c tLast, iblk0_10 m c tLast,
    iblk0_11 m c tLast, iblk0_12 m c tLast, iblk0_13 m c tLast, V_main_arg2 m c, V_main_arg4 m c, V_main_arg5 m c,
    V_main_arg6 m c, V_main_arg7 m c, V_main_arg8 m c, V_main_arg9 m c, V_main_arg10 m c]
  exact out_closed (m ((c : Thread nD τ).loc main_arg0)) (m ((c : Thread nD τ).loc main_arg1)) (m ((c : Thread nD τ).loc main_arg3))
    (m ((c : Thread nD τ).loc main_arg2)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))
    (outsAt0 m c 63 tLast.isLt).2.1 (outsAt0 m c 63 tLast.isLt).2.2
    (fun b j => ((acc_inv m c 63 tLast.isLt b j).1).trans (sumTo_last _))
    (fun b j => ((acc_inv m c 63 tLast.isLt b j).2).trans (sumTo_last _)) b

end Cert.KernelIdeal.HandValue

end
-- ==== Proof.KI.ValueTail.lean ====
import proofs.«431275_j61529701482572_2_alg».proof.Proof.KI.Frame
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The output window's block starts at element 0 on both axes at every grid point. -/
theorem off14_zero : ∀ (t : Fin grid0.N) (a : Fin 2), win0_14.index t a * S1024x1.size a = 0 := by decide +kernel

/-- Some grid point writes the output window back. -/
theorem flushes14 : ∃ t : Fin grid0.N, win0_14.flush t = true := by decide +kernel

/-- What a position leaves does not depend on how the position is named. -/
theorem outs_congr (c : Dev nD) (n n' : ℕ) (h : n < cfg0.N) (h' : n' < cfg0.N) (e : n = n') :
    outsAt0 m c n h = outsAt0 m c n' h' := by
  subst e; rfl

/-- At any grid point the output window's block is the whole result array: a whole-array content read through the
    block is itself. -/
theorem blk14_read (t : Fin cfg0.N) (G : Vec F S1024x1 .f32) :
    (cfg0.win 14).cut (grid0.coords t) G = ((cfg0.win 14).blk t).view.read (Elt F) G := by
  have hoff : (fun a => win0_14.index t a * main_v46.ty.shape.size a) = fun _ => 0 := funext fun a => off14_zero t a
  exact (Memref.read_access_unit_zero (Elt F) main_v46 hoff (fun a => by rw [congrFun hoff a]; simp) G).symm

/-- and every index of the array is in it. -/
theorem blk14_mem (t : Fin cfg0.N) (i : S1024x1.Idx) : i ∈ ((cfg0.win 14).blk t).view.set := by
  have hoff : (fun a => win0_14.index t a * main_v46.ty.shape.size a) = fun _ => 0 := funext fun a => off14_zero t a
  show i ∈ ((View.whole main_v46).slice (win0_14.rect t)).set
  rw [View.set_slice_whole]
  exact View.mem_set_unit_zero hoff _ i

/-- The result array after the region, for any contents the last point is known to leave in the output window's
    buffer: only the last point writes the window back, and its block is the whole array. -/
theorem arr14_of (c : Dev nD) (G : Vec F S1024x1 .f32) (hG : ∀ t : Fin cfg0.N, t.val = 63 → (dats m 0 c).after 14 t = G) :
    (dats m 0 c).arrAt 14 cfg0.N = G := by
  have hN : cfg0.N = 64 := N_0
  refine (dats m 0 c).arrAt_eq_of_cover 14 G (fun t hf => ?_) (fun i => ?_)
  · have h63 : t.val = 63 := by have h1 := (flush0_14 t).mp hf; have h2 := t.isLt; omega
    show (cfg0.win 14).cut (grid0.coords t) ((dats m 0 c).after 14 t) = _
    rw [hG t h63]
    exact blk14_read t G
  · obtain ⟨t, hf⟩ := flushes14
    exact ⟨t, hf, blk14_mem t i⟩

/-- The result array after the region holds what the last point left in the output window's buffer. -/
theorem final14 (c : Dev nD) : (dats m 0 c).arrAt 14 cfg0.N = (outsAt0 m c 63 (by rw [show cfg0.N = 64 from N_0]; decide)).1 :=
  arr14_of m c _ fun t h63 => by
    rw [after0_14, outs_congr m c t.val 63 t.isLt (by rw [show cfg0.N = 64 from N_0]; decide) h63]

/-- The later stretch's one operation reshapes the result array: for any contents the array is known to end at, the
    reshaped result is those contents under the other shape. -/
theorem tail47_of (c : Dev nD) (G : Vec F S1024x1 .f32) (hG : (dats m 0 c).arrAt 14 cfg0.N = G) :
    Pipeline.afterTail₀ cfgs (dats m) 0 (V0 m) [hostOps1] c main_v47 = shapeCast S1024 G shapeCasts_S1024x1_S1024 := by
  unfold Pipeline.afterTail₀
  show StableHlo.after hostOps1 _ (Proc.devRef .tc main_v47) = _
  after_results
  rw [Pipeline.withArrays_arr spec0 launch0.win.arr_inj c _ _ 14, hG]
  rfl

/-- A [1024,1] array under the shape [1024]: entry b is entry (b, 0). -/
theorem reshape_read (G : Vec F S1024x1 .f32) (b : Fin 1024) :
    shapeCast S1024 G shapeCasts_S1024x1_S1024 (ix1 b) = G (ix2 b 0) := by
  refine shapeCast_apply _ _ (ix1 b) (ix2 b 0) ?_
  rw [Shape.rowMajor_val_two, Shape.rowMajor_val_one]
  show b.val * 1 + 0 = b.val
  omega

/-- The entry function's run, read: the reshaped result holds, board by board, what the last grid point left in
    the output window's buffer, and every argument array ends as launched. -/
theorem run_tail : θ_run defs (onTc (τ := τ) (main (F := F))) ⟨m, fun _ => 0, ρ⟩ fun r => ∀ c : Dev nD,
      (∀ b : Fin 1024, (r.2.mem ((c.tc : Thread nD τ).loc main_v47) : S1024.Idx → Elt F .f32) (ix1 b) = (outsAt0 m c 63 (by rw [show cfg0.N = 64 from N_0]; decide)).1 (ix2 b 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨fun b => ?_,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 6).trans (((dats m 0 c).arrAt_in 6 rfl _).trans ((A_eq m c 6).trans (V_main_arg2 m c))),
      ((h c).2 main_arg3 (Pipeline.mem_restRefs_of main_arg3 (by decide) (by decide))).trans (W_main_arg3 m (dats m) c),
      ((h c).1 7).trans (((dats m 0 c).arrAt_in 7 rfl _).trans ((A_eq m c 7).trans (V_main_arg4 m c))),
      ((h c).1 8).trans (((dats m 0 c).arrAt_in 8 rfl _).trans ((A_eq m c 8).trans (V_main_arg5 m c))),
      ((h c).1 9).trans (((dats m 0 c).arrAt_in 9 rfl _).trans ((A_eq m c 9).trans (V_main_arg6 m c))),
      ((h c).1 10).trans (((dats m 0 c).arrAt_in 10 rfl _).trans ((A_eq m c 10).trans (V_main_arg7 m c))),
      ((h c).1 11).trans (((dats m 0 c).arrAt_in 11 rfl _).trans ((A_eq m c 11).trans (V_main_arg8 m c))),
      ((h c).1 12).trans (((dats m 0 c).arrAt_in 12 rfl _).trans ((A_eq m c 12).trans (V_main_arg9 m c))),
      ((h c).1 13).trans (((dats m 0 c).arrAt_in 13 rfl _).trans ((A_eq m c 13).trans (V_main_arg10 m c)))⟩) (run_main m ρ)
  have h47 := (h c).2 main_v47 (Pipeline.mem_restRefs_of main_v47 (by decide) (by decide))
  exact (congrFun (h47.trans (tail47_of m c _ (final14 m c))) (ix1 b)).trans (reshape_read _ b)

end Cert.KernelIdeal.HandValue

end
-- ==== Proof.KI.Value.lean ====
/-
  The value of the kernel program at the extended reals: from any launch memory the entry function terminates, the
  result array holds the network's score of every board as one closed-form function of the eleven argument
  arrays (the kings being the first squares holding 0 and 12), and every argument array ends as launched.
  The reshaped result is, board by board, what the last grid point leaves in the output window; that is the small
  layers applied to the two accumulators, which after 64 points are the sums over the king blocks.
-/
import proofs.«431275_j61529701482572_2_alg».proof.Proof.KI.ValueAcc
import proofs.«431275_j61529701482572_2_alg».proof.Proof.KI.ValueTail

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem

/-- The closed form of core c's result out of the launch contents. -/
def outOf (m : (ℓ : Loc nD τ sig) → Buf (Elt Ideal) ℓ) (c : Dev nD) : FVec Ideal S1024 .f32 :=
  kernelOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10))

/-- After the last point the output window holds the closed form, board by board. -/
theorem outOf_apply (m : (ℓ : Loc nD τ sig) → Buf (Elt Ideal) ℓ) (c : Dev nD) (b : Fin 1024) :
    (outsAt0 m c 63 tLast.isLt).1 (ix2 b 0) = outOf m c (ix1 b) := by
  unfold outOf
  exact result_apply m c b

/-- Two contents of the result buffer that agree board by board are equal. -/
theorem ext47 (c : Dev nD) (G : Buf (Elt Ideal) ((c.tc : Thread nD τ).loc main_v47)) (K : FVec Ideal S1024 .f32)
    (h : ∀ b : Fin 1024, (G : S1024.Idx → Elt Ideal .f32) (ix1 b) = K (ix1 b)) : G = K := by
  funext i
  obtain ⟨b, rfl⟩ : ∃ b : Fin 1024, i = ix1 b := ⟨i 0, eq_ix1 i⟩
  exact h b

/-- Contents of the result buffer that are, board by board, what the last point leaves in the output window are the closed form. -/
theorem first47 (m : (ℓ : Loc nD τ sig) → Buf (Elt Ideal) ℓ) (c : Dev nD) (G : Buf (Elt Ideal) ((c.tc : Thread nD τ).loc main_v47))
    (p : 63 < cfg0.N) (h : ∀ b : Fin 1024, (G : S1024.Idx → Elt Ideal .f32) (ix1 b) = (outsAt0 m c 63 p).1 (ix2 b 0)) :
    G = kernelOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := by
  obtain rfl : p = tLast.isLt := rfl
  have e : G = outOf m c := ext47 c G (outOf m c) fun b => (h b).trans (outOf_apply m c b)
  unfold outOf at e
  exact e

/-- The kernel program's run at the extended reals: the result array is the closed form of the eleven argument
    arrays, and every argument array ends as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47)
        = kernelOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have key := run_tail (F := Ideal) m ρ
  refine (θ_run defs _ _).mono ?_ key
  intro r h c
  refine ⟨?_, (h c).2⟩
  have h1 := (h c).1
  exact first47 m c _ _ h1

end Cert.KernelIdeal.HandValue

end
-- ==== Proof.Ref.RunOps.lean ====
/-
  The reference program read as one straight line of host operations. Its 141 statements, with the eight
  calls of its four local functions (first-occurrence search, masked choice, two rectifiers) written out at
  the call sites over each call's own buffers, are 160 operations. They are listed here in nine consecutive
  stretches, a new stretch starting before every concatenation: the two kings (18 operations), the piece
  masks and my feature numbers (29), their feature numbers and the two masked choices (25), my index
  columns (19), my scatter and their index columns (23), their scatter (4), the two wide layers (16), the
  second rectifier (3), the three small layers (23). Each stretch comes with the list of buffers it writes,
  so that a buffer outside the list is known to keep its contents through it.
-/
import proofs.«431275_j61529701482572_2_alg».proof.ReferenceIdeal
import Idealize.ShloMosaic.Lib.StableHlo.Run
import Idealize.ShloMosaic.Lib.Pipeline.Frame

noncomputable section

namespace Cert.ReferenceIdeal.HandRun

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The board flattened, the square numbers, and the first square holding 0 and the first holding 12 on each board. -/
abbrev opsA1 : List (HloOp τ sig (Elt F)) :=
  [ StableHlo.reshape main_arg0 main_v0 rfl shapeCasts_S1024x8x8_S1024x64,
    StableHlo.nullary main_v1 (iotaInDim S64 32 0),
    StableHlo.nullary main_c (constantI S_ 32 0#32),
    StableHlo.unary main_c main_v2 (broadcastInDim S1024x64 ![] bcast_S_S1024x64 : (⟨S_, .i32⟩ : BufTy).Contents (Elt F) → (⟨S1024x64, .i32⟩ : BufTy).Contents (Elt F)),
    StableHlo.binary main_v0 main_v2 main_v3 (cmpi .eq : (⟨S1024x64, .i32⟩ : BufTy).Contents (Elt F) → (⟨S1024x64, .i32⟩ : BufTy).Contents (Elt F) → (⟨S1024x64, .i1⟩ : BufTy).Contents (Elt F)),
    StableHlo.TRef.nullary (.of main_call0_v0 : StableHlo.TRef sig ⟨S1024x64, .i32⟩) (iotaInDim S1024x64 32 1),
    StableHlo.TRef.nullary (.of main_call0_c : StableHlo.TRef sig ⟨S_, .i1⟩) (constantI S_ 1 0#1),
    StableHlo.TRef.nullary (.of main_call0_c_0 : StableHlo.TRef sig ⟨S_, .i32⟩) (constantI S_ 32 0#32),
    StableHlo.TRef.quaternary (.of main_v3 : StableHlo.TRef sig ⟨S1024x64, .i1⟩) (.of main_call0_v0 : StableHlo.TRef sig ⟨S1024x64, .i32⟩) (.of main_call0_c : StableHlo.TRef sig ⟨S_, .i1⟩) (.of main_call0_c_0 : StableHlo.TRef sig ⟨S_, .i32⟩) (.of main_call0_v1_0 : StableHlo.TRef sig ⟨S1024, .i1⟩) (fun x y u v j => (Host.reduce2 reducer_argmax_i1_i32 x y u v reducesTo_S1024x64_S1024_d1 h_S_ j).1),
    StableHlo.TRef.quaternary (.of main_v3 : StableHlo.TRef sig ⟨S1024x64, .i1⟩) (.of main_call0_v0 : StableHlo.TRef sig ⟨S1024x64, .i32⟩) (.of main_call0_c : StableHlo.TRef sig ⟨S_, .i1⟩) (.of main_call0_c_0 : StableHlo.TRef sig ⟨S_, .i32⟩) (.of main_v4 : StableHlo.TRef sig ⟨S1024, .i32⟩) (fun x y u v j => (Host.reduce2 reducer_argmax_i1_i32 x y u v reducesTo_S1024x64_S1024_d1 h_S_ j).2),
    StableHlo.nullary main_c_0 (constantI S_ 32 12#32),
    StableHlo.unary main_c_0 main_v5 (broadcastInDim S1024x64 ![] bcast_S_S1024x64 : (⟨S_, .i32⟩ : BufTy).Contents (Elt F) → (⟨S1024x64, .i32⟩ : BufTy).Contents (Elt F)),
    StableHlo.binary main_v0 main_v5 main_v6 (cmpi .eq : (⟨S1024x64, .i32⟩ : BufTy).Contents (Elt F) → (⟨S1024x64, .i32⟩ : BufTy).Contents (Elt F) → (⟨S1024x64, .i1⟩ : BufTy).Contents (Elt F)),
    StableHlo.TRef.nullary (.of main_call1_v0 : StableHlo.TRef sig ⟨S1024x64, .i32⟩) (iotaInDim S1024x64 32 1),
    StableHlo.TRef.nullary (.of main_call1_c : StableHlo.TRef sig ⟨S_, .i1⟩) (constantI S_ 1 0#1),
    StableHlo.TRef.nullary (.of main_call1_c_0 : StableHlo.TRef sig ⟨S_, .i32⟩) (constantI S_ 32 0#32),
    StableHlo.TRef.quaternary (.of main_v6 : StableHlo.TRef sig ⟨S1024x64, .i1⟩) (.of main_call1_v0 : StableHlo.TRef sig ⟨S1024x64, .i32⟩) (.of main_call1_c : StableHlo.TRef sig ⟨S_, .i1⟩) (.of main_call1_c_0 : StableHlo.TRef sig ⟨S_, .i32⟩) (.of main_call1_v1_0 : StableHlo.TRef sig ⟨S1024, .i1⟩) (fun x y u v j => (Host.reduce2 reducer_argmax_i1_i32 x y u v reducesTo_S1024x64_S1024_d1 h_S_ j).1),
    StableHlo.TRef.quaternary (.of main_v6 : StableHlo.TRef sig ⟨S1024x64, .i1⟩) (.of main_call1_v0 : StableHlo.TRef sig ⟨S1024x64, .i32⟩) (.of main_call1_c : StableHlo.TRef sig ⟨S_, .i1⟩) (.of main_call1_c_0 : StableHlo.TRef sig ⟨S_, .i32⟩) (.of main_v7 : StableHlo.TRef sig ⟨S1024, .i32⟩) (fun x y u v j => (Host.reduce2 reducer_argmax_i1_i32 x y u v reducesTo_S1024x64_S1024_d1 h_S_ j).2) ]

theorem opsA1_sub : (opsA1 : List (HloOp τ sig (Elt F))).Forall fun op => op.bufs ⊆ tcRefs τ sig :=
  ⟨reshape_bufs_sub .., nullary_bufs_sub .., nullary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., nullary_bufs_sub .., nullary_bufs_sub .., quaternary_bufs_sub .., quaternary_bufs_sub ..⟩

theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl⟩

/-- The buffers this stretch writes. -/
abbrev opsA1_W : List (Ref sig .tc) := [main_v0, main_v1, main_c, main_v2, main_v3, main_call0_v0, main_call0_c, main_call0_c_0, main_call0_v1_0, main_v4, main_c_0, main_v5, main_v6, main_call1_v0, main_call1_c, main_call1_c_0, main_call1_v1_0, main_v7]

theorem opsA1_writes : (opsA1 : List (HloOp τ sig (Elt F))).Forall fun op => op.writes ⊆ (opsA1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stretch does not write keeps its contents through it. -/
theorem opsA1_keep (V : Valuation τ sig (Elt F)) (r : Ref sig .tc) (h : r ∉ opsA1_W) :
    after opsA1 V (Proc.devRef .tc r) = V (Proc.devRef .tc r) :=
  after_of_writes_sub opsA1 V opsA1_writes h

/-- The two piece masks (1..5 and 7..11) and the feature number each square of mine names. -/
abbrev opsA2 : List (HloOp τ sig (Elt F)) :=
  [ StableHlo.nullary main_c_1 (constantI S_ 32 1#32),
    StableHlo.unary main_c_1 main_v8 (broadcastInDim S1024x64 ![] bcast_S_S1024x64 : (⟨S_, .i32⟩ : BufTy).Contents (Elt F) → (⟨S1024x64, .i32⟩ : BufTy).Contents (Elt F)),
    StableHlo.binary main_v0 main_v8 main_v9 (cmpi .sge : (⟨S1024x64, .i32⟩ : BufTy).Contents (Elt F) → (⟨S1024x64, .i32⟩ : BufTy).Contents (Elt F) → (⟨S1024x64, .i1⟩ : BufTy).Contents (Elt F)),
    StableHlo.nullary main_c_2 (constantI S_ 32 5#32),
    StableHlo.unary main_c_2 main_v10 (broadcastInDim S1024x64 ![] bcast_S_S1024x64 : (⟨S_, .i32⟩ : BufTy).Contents (Elt F) → (⟨S1024x64, .i32⟩ : BufTy).Contents (Elt F)),
    StableHlo.binary main_v0 main_v10 main_v11 (cmpi .sle : (⟨S1024x64, .i32⟩ : BufTy).Contents (Elt F) → (⟨S1024x64, .i32⟩ : BufTy).Contents (Elt F) → (⟨S1024x64, .i1⟩ : BufTy).Contents (Elt F)),
    StableHlo.binary main_v9 main_v11 main_v12 (andi : (⟨S1024x64, .i1⟩ : BufTy).Contents (Elt F) → (⟨S1024x64, .i1⟩ : BufTy).Contents (Elt F) → (⟨S1024x64, .i1⟩ : BufTy).Contents (Elt F)),
    StableHlo.nullary main_c_3 (constantI S_ 32 7#32),
    StableHlo.unary main_c_3 main_v13 (broadcastInDim S1024x64 ![] bcast_S_S1024x64 : (⟨S_, .i32⟩ : BufTy).Contents (Elt F) → (⟨S1024x64, .i32⟩ : BufTy).Contents (Elt F)),
    StableHlo.binary main_v0 main_v13 main_v14 (cmpi .sge : (⟨S1024x64, .i32⟩ : BufTy).Contents (Elt F) → (⟨S1024x64, .i32⟩ : BufTy).Contents (Elt F) → (⟨S1024x64, .i1⟩ : BufTy).Contents (Elt F)),
    StableHlo.nullary main_c_4 (constantI S_ 32 11#32),
    StableHlo.unary main_c_4 main_v15 (broadcastInDim S1024x64 ![] bcast_S_S1024x64 : (⟨S_, .i32⟩ : BufTy).Contents (Elt F) → (⟨S1024x64, .i32⟩ : BufTy).Contents (Elt F)),
    StableHlo.binary main_v0 main_v15 main_v16 (cmpi .sle : (⟨S1024x64, .i32⟩ : BufTy).Contents (Elt F) → (⟨S1024x64, .i32⟩ : BufTy).Contents (Elt F) → (⟨S1024x64, .i1⟩ : BufTy).Contents (Elt F)),
    StableHlo.binary main_v14 main_v16 main_v17 (andi : (⟨S1024x64, .i1⟩ : BufTy).Contents (Elt F) → (⟨S1024x64, .i1⟩ : BufTy).Contents (Elt F) → (⟨S1024x64, .i1⟩ : BufTy).Contents (Elt F)),
    StableHlo.unary main_v4 main_v18 (broadcastInDim S1024x1 ![0] bcast_S1024_S1024x1_0 : (⟨S1024, .i32⟩ : BufTy).Contents (Elt F) → (⟨S1024x1, .i32⟩ : BufTy).Contents (Elt F)),
    StableHlo.nullary main_c_5 (constantI S_ 32 641#32),
    StableHlo.unary main_c_5 main_v19 (broadcastInDim S1024x1 ![] bcast_S_S1024x1 : (⟨S_, .i32⟩ : BufTy).Contents (Elt F) → (⟨S1024x1, .i32⟩ : BufTy).Contents (Elt F)),
    StableHlo.binary main_v18 main_v19 main_v20 (muli : (⟨S1024x1, .i32⟩ : BufTy).Contents (Elt F) → (⟨S1024x1, .i32⟩ : BufTy).Contents (Elt F) → (⟨S1024x1, .i32⟩ : BufTy).Contents (Elt F)),
    StableHlo.nullary main_c_6 (constantI S_ 32 1#32),
    StableHlo.unary main_c_6 main_v21 (broadcastInDim S1024x64 ![] bcast_S_S1024x64 : (⟨S_, .i32⟩ : BufTy).Contents (Elt F) → (⟨S1024x64, .i32⟩ : BufTy).Contents (Elt F)),
    StableHlo.binary main_v0 main_v21 main_v22 (subi : (⟨S1024x64, .i32⟩ : BufTy).Contents (Elt F) → (⟨S1024x64, .i32⟩ : BufTy).Contents (Elt F) → (⟨S1024x64, .i32⟩ : BufTy).Contents (Elt F)),
    StableHlo.nullary main_c_7 (constantI S_ 32 64#32),
    StableHlo.unary main_c_7 main_v23 (broadcastInDim S1024x64 ![] bcast_S_S1024x64 : (⟨S_, .i32⟩ : BufTy).Contents (Elt F) → (⟨S1024x64, .i32⟩ : BufTy).Contents (Elt F)),
    StableHlo.binary main_v22 main_v23 main_v24 (muli : (⟨S1024x64, .i32⟩ : BufTy).Contents (Elt F) → (⟨S1024x64, .i32⟩ : BufTy).Contents (Elt F) → (⟨S1024x64, .i32⟩ : BufTy).Contents (Elt F)),
    StableHlo.unary main_v20 main_v25 (broadcastInDim S1024x64 ![0, 1] bcast_S1024x1_S1024x64_0_1 : (⟨S1024x1, .i32⟩ : BufTy).Contents (Elt F) → (⟨S1024x64, .i32⟩ : BufTy).Contents (Elt F)),
    StableHlo.binary main_v25 main_v24 main_v26 (addi : (⟨S1024x64, .i32⟩ : BufTy).Contents (Elt F) → (⟨S1024x64, .i32⟩ : BufTy).Contents (Elt F) → (⟨S1024x64, .i32⟩ : BufTy).Contents (Elt F)),
    StableHlo.unary main_v1 main_v27 (broadcastInDim S1x64 ![1] bcast_S64_S1x64_1 : (⟨S64, .i32⟩ : BufTy).Contents (Elt F) → (⟨S1x64, .i32⟩ : BufTy).Contents (Elt F)),
    StableHlo.unary main_v27 main_v28 (broadcastInDim S1024x64 ![0, 1] bcast_S1x64_S1024x64_0_1 : (⟨S1x64, .i32⟩ : BufTy).Contents (Elt F) → (⟨S1024x64, .i32⟩ : BufTy).Contents (Elt F)),
    StableHlo.binary main_v26 main_v28 main_v29 (addi : (⟨S1024x64, .i32⟩ : BufTy).Contents (Elt F) → (⟨S1024x64, .i32⟩ : BufTy).Contents (Elt F) → (⟨S1024x64, .i32⟩ : BufTy).Contents (Elt F)) ]

theorem opsA2_sub : (opsA2 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers this stretch writes. -/
abbrev opsA2_W : List (Ref sig .tc) := [main_c_1, main_v8, main_v9, main_c_2, main_v10, main_v11, main_v12, main_c_3, main_v13, main_v14, main_c_4, main_v15, main_v16, main_v17, main_v18, main_c_5, main_v19, main_v20, main_c_6, main_v21, main_v22, main_c_7, main_v23, main_v24, main_v25, main_v26, main_v27, main_v28, main_v29]

theorem opsA2_writes : (opsA2 : List (HloOp τ sig (Elt F))).Forall fun op => op.writes ⊆ (opsA2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stretch does not write keeps its contents through it. -/
theorem opsA2_keep (V : Valuation τ sig (Elt F)) (r : Ref sig .tc) (h : r ∉ opsA2_W) :
    after opsA2 V (Proc.devRef .tc r) = V (Proc.devRef .tc r) :=
  after_of_writes_sub opsA2 V opsA2_writes h

/-- The feature number each square of theirs names, both masked choices against 41024, and the board numbers as a column. -/
abbrev opsA3 : List (HloOp τ sig (Elt F)) :=
  [ StableHlo.unary main_v7 main_v30 (broadcastInDim S1024x1 ![0] bcast_S1024_S1024x1_0 : (⟨S1024, .i32⟩ : BufTy).Contents (Elt F) → (⟨S1024x1, .i32⟩ : BufTy).Contents (Elt F)),
    StableHlo.nullary main_c_8 (constantI S_ 32 641#32),
    StableHlo.unary main_c_8 main_v31 (broadcastInDim S1024x1 ![] bcast_S_S1024x1 : (⟨S_, .i32⟩ : BufTy).Contents (Elt F) → (⟨S1024x1, .i32⟩ : BufTy).Contents (Elt F)),
    StableHlo.binary main_v30 main_v31 main_v32 (muli : (⟨S1024x1, .i32⟩ : BufTy).Contents (Elt F) → (⟨S1024x1, .i32⟩ : BufTy).Contents (Elt F) → (⟨S1024x1, .i32⟩ : BufTy).Contents (Elt F)),
    StableHlo.nullary main_c_9 (constantI S_ 32 11#32),
    StableHlo.unary main_c_9 main_v33 (broadcastInDim S1024x64 ![] bcast_S_S1024x64 : (⟨S_, .i32⟩ : BufTy).Contents (Elt F) → (⟨S1024x64, .i32⟩ : BufTy).Contents (Elt F)),
    StableHlo.binary main_v33 main_v0 main_v34 (subi : (⟨S1024x64, .i32⟩ : BufTy).Contents (Elt F) → (⟨S1024x64, .i32⟩ : BufTy).Contents (Elt F) → (⟨S1024x64, .i32⟩ : BufTy).Contents (Elt F)),
    StableHlo.nullary main_c_10 (constantI S_ 32 64#32),
    StableHlo.unary main_c_10 main_v35 (broadcastInDim S1024x64 ![] bcast_S_S1024x64 : (⟨S_, .i32⟩ : BufTy).Contents (Elt F) → (⟨S1024x64, .i32⟩ : BufTy).Contents (Elt F)),
    StableHlo.binary main_v34 main_v35 main_v36 (muli : (⟨S1024x64, .i32⟩ : BufTy).Contents (Elt F) → (⟨S1024x64, .i32⟩ : BufTy).Contents (Elt F) → (⟨S1024x64, .i32⟩ : BufTy).Contents (Elt F)),
    StableHlo.unary main_v32 main_v37 (broadcastInDim S1024x64 ![0, 1] bcast_S1024x1_S1024x64_0_1 : (⟨S1024x1, .i32⟩ : BufTy).Contents (Elt F) → (⟨S1024x64, .i32⟩ : BufTy).Contents (Elt F)),
    StableHlo.binary main_v37 main_v36 main_v38 (addi : (⟨S1024x64, .i32⟩ : BufTy).Contents (Elt F) → (⟨S1024x64, .i32⟩ : BufTy).Contents (Elt F) → (⟨S1024x64, .i32⟩ : BufTy).Contents (Elt F)),
    StableHlo.unary main_v1 main_v39 (broadcastInDim S1x64 ![1] bcast_S64_S1x64_1 : (⟨S64, .i32⟩ : BufTy).Contents (Elt F) → (⟨S1x64, .i32⟩ : BufTy).Contents (Elt F)),
    StableHlo.unary main_v39 main_v40 (broadcastInDim S1024x64 ![0, 1] bcast_S1x64_S1024x64_0_1 : (⟨S1x64, .i32⟩ : BufTy).Contents (Elt F) → (⟨S1024x64, .i32⟩ : BufTy).Contents (Elt F)),
    StableHlo.binary main_v38 main_v40 main_v41 (addi : (⟨S1024x64, .i32⟩ : BufTy).Contents (Elt F) → (⟨S1024x64, .i32⟩ : BufTy).Contents (Elt F) → (⟨S1024x64, .i32⟩ : BufTy).Contents (Elt F)),
    StableHlo.nullary main_c_11 (constantI S_ 32 41024#32),
    StableHlo.TRef.unary (.of main_c_11 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S1024x64, .i32⟩) (broadcastInDim S1024x64 ![] bcast_S_S1024x64),
    StableHlo.TRef.ternary (.of main_v12 : StableHlo.TRef sig ⟨S1024x64, .i1⟩) (.of main_v29 : StableHlo.TRef sig ⟨S1024x64, .i32⟩) (.of main_call2_v1 : StableHlo.TRef sig ⟨S1024x64, .i32⟩) (.of main_v42 : StableHlo.TRef sig ⟨S1024x64, .i32⟩) select,
    StableHlo.nullary main_c_12 (constantI S_ 32 41024#32),
    StableHlo.TRef.unary (.of main_c_12 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S1024x64, .i32⟩) (broadcastInDim S1024x64 ![] bcast_S_S1024x64),
    StableHlo.TRef.ternary (.of main_v17 : StableHlo.TRef sig ⟨S1024x64, .i1⟩) (.of main_v41 : StableHlo.TRef sig ⟨S1024x64, .i32⟩) (.of main_call3_v1 : StableHlo.TRef sig ⟨S1024x64, .i32⟩) (.of main_v43 : StableHlo.TRef sig ⟨S1024x64, .i32⟩) select,
    StableHlo.nullary main_v44 (iotaInDim S1024 32 0),
    StableHlo.unary main_v44 main_v45 (broadcastInDim S1024x1 ![0] bcast_S1024_S1024x1_0 : (⟨S1024, .i32⟩ : BufTy).Contents (Elt F) → (⟨S1024x1, .i32⟩ : BufTy).Contents (Elt F)) ]

theorem opsA3_sub : (opsA3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub ..⟩

theorem opsA3_fresh : (opsA3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The buffers this stretch writes. -/
abbrev opsA3_W : List (Ref sig .tc) := [main_v30, main_c_8, main_v31, main_v32, main_c_9, main_v33, main_v34, main_c_10, main_v35, main_v36, main_v37, main_v38, main_v39, main_v40, main_v41, main_c_11, main_call2_v0, main_call2_v1, main_v42, main_c_12, main_call3_v0, main_call3_v1, main_v43, main_v44, main_v45]

theorem opsA3_writes : (opsA3 : List (HloOp τ sig (Elt F))).Forall fun op => op.writes ⊆ (opsA3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stretch does not write keeps its contents through it. -/
theorem opsA3_keep (V : Valuation τ sig (Elt F)) (r : Ref sig .tc) (h : r ∉ opsA3_W) :
    after opsA3 V (Proc.devRef .tc r) = V (Proc.devRef .tc r) :=
  after_of_writes_sub opsA3 V opsA3_writes h

/-- The zero rows, the board-number column made non-negative, my feature numbers made non-negative, both as index columns. -/
abbrev opsB1 : List (HloOp τ sig (Elt F)) :=
  [ StableHlo.nullary main_cst (constant S_ .f32 0x00000000#32),
    StableHlo.unary main_cst main_v46 (broadcastInDim S1024x41024 ![] bcast_S_S1024x41024 : (⟨S_, .f32⟩ : BufTy).Contents (Elt F) → (⟨S1024x41024, .f32⟩ : BufTy).Contents (Elt F)),
    StableHlo.nullary main_c_13 (constantI S_ 32 0#32),
    StableHlo.unary main_c_13 main_v47 (broadcastInDim S1024x1 ![] bcast_S_S1024x1 : (⟨S_, .i32⟩ : BufTy).Contents (Elt F) → (⟨S1024x1, .i32⟩ : BufTy).Contents (Elt F)),
    StableHlo.binary main_v45 main_v47 main_v48 (cmpi .slt : (⟨S1024x1, .i32⟩ : BufTy).Contents (Elt F) → (⟨S1024x1, .i32⟩ : BufTy).Contents (Elt F) → (⟨S1024x1, .i1⟩ : BufTy).Contents (Elt F)),
    StableHlo.nullary main_c_14 (constantI S_ 32 1024#32),
    StableHlo.unary main_c_14 main_v49 (broadcastInDim S1024x1 ![] bcast_S_S1024x1 : (⟨S_, .i32⟩ : BufTy).Contents (Elt F) → (⟨S1024x1, .i32⟩ : BufTy).Contents (Elt F)),
    StableHlo.binary main_v45 main_v49 main_v50 (addi : (⟨S1024x1, .i32⟩ : BufTy).Contents (Elt F) → (⟨S1024x1, .i32⟩ : BufTy).Contents (Elt F) → (⟨S1024x1, .i32⟩ : BufTy).Contents (Elt F)),
    StableHlo.ternary main_v48 main_v50 main_v45 main_v51 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    StableHlo.nullary main_c_15 (constantI S_ 32 0#32),
    StableHlo.unary main_c_15 main_v52 (broadcastInDim S1024x64 ![] bcast_S_S1024x64 : (⟨S_, .i32⟩ : BufTy).Contents (Elt F) → (⟨S1024x64, .i32⟩ : BufTy).Contents (Elt F)),
    StableHlo.binary main_v42 main_v52 main_v53 (cmpi .slt : (⟨S1024x64, .i32⟩ : BufTy).Contents (Elt F) → (⟨S1024x64, .i32⟩ : BufTy).Contents (Elt F) → (⟨S1024x64, .i1⟩ : BufTy).Contents (Elt F)),
    StableHlo.nullary main_c_16 (constantI S_ 32 41024#32),
    StableHlo.unary main_c_16 main_v54 (broadcastInDim S1024x64 ![] bcast_S_S1024x64 : (⟨S_, .i32⟩ : BufTy).Contents (Elt F) → (⟨S1024x64, .i32⟩ : BufTy).Contents (Elt F)),
    StableHlo.binary main_v42 main_v54 main_v55 (addi : (⟨S1024x64, .i32⟩ : BufTy).Contents (Elt F) → (⟨S1024x64, .i32⟩ : BufTy).Contents (Elt F) → (⟨S1024x64, .i32⟩ : BufTy).Contents (Elt F)),
    StableHlo.ternary main_v53 main_v55 main_v42 main_v56 (select : (⟨S1024x64, .i1⟩ : BufTy).Contents (Elt F) → (⟨S1024x64, .i32⟩ : BufTy).Contents (Elt F) → (⟨S1024x64, .i32⟩ : BufTy).Contents (Elt F) → (⟨S1024x64, .i32⟩ : BufTy).Contents (Elt F)),
    StableHlo.unary main_v51 main_v57 (broadcastInDim S1024x64 ![0, 1] bcast_S1024x1_S1024x64_0_1 : (⟨S1024x1, .i32⟩ : BufTy).Contents (Elt F) → (⟨S1024x64, .i32⟩ : BufTy).Contents (Elt F)),
    StableHlo.unary main_v57 main_v58 (broadcastInDim S1024x64x1 ![0, 1] bcast_S1024x64_S1024x64x1_0_1 : (⟨S1024x64, .i32⟩ : BufTy).Contents (Elt F) → (⟨S1024x64x1, .i32⟩ : BufTy).Contents (Elt F)),
    StableHlo.unary main_v56 main_v59 (broadcastInDim S1024x64x1 ![0, 1] bcast_S1024x64_S1024x64x1_0_1 : (⟨S1024x64, .i32⟩ : BufTy).Contents (Elt F) → (⟨S1024x64x1, .i32⟩ : BufTy).Contents (Elt F)) ]

theorem opsB1_sub : (opsB1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers this stretch writes. -/
abbrev opsB1_W : List (Ref sig .tc) := [main_cst, main_v46, main_c_13, main_v47, main_v48, main_c_14, main_v49, main_v50, main_v51, main_c_15, main_v52, main_v53, main_c_16, main_v54, main_v55, main_v56, main_v57, main_v58, main_v59]

theorem opsB1_writes : (opsB1 : List (HloOp τ sig (Elt F))).Forall fun op => op.writes ⊆ (opsB1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stretch does not write keeps its contents through it. -/
theorem opsB1_keep (V : Valuation τ sig (Elt F)) (r : Ref sig .tc) (h : r ∉ opsB1_W) :
    after opsB1 V (Proc.devRef .tc r) = V (Proc.devRef .tc r) :=
  after_of_writes_sub opsB1 V opsB1_writes h

/-- My index pairs and my scatter of ones; the same preparation for their side up to its two index columns. -/
abbrev opsB2 : List (HloOp τ sig (Elt F)) :=
  [ StableHlo.binary main_v58 main_v59 main_v60 ((fun a b => concatenate S1024x64x2 2 [⟨S1024x64x1, a⟩, ⟨S1024x64x1, b⟩] concatenates_S1024x64x1_S1024x64x1_S1024x64x2_d2) : (⟨S1024x64x1, .i32⟩ : BufTy).Contents (Elt F) → (⟨S1024x64x1, .i32⟩ : BufTy).Contents (Elt F) → (⟨S1024x64x2, .i32⟩ : BufTy).Contents (Elt F)),
    StableHlo.nullary main_cst_17 (constant S_ .f32 0x3F800000#32),
    StableHlo.unary main_cst_17 main_v61 (broadcastInDim S1024x64 ![] bcast_S_S1024x64 : (⟨S_, .f32⟩ : BufTy).Contents (Elt F) → (⟨S1024x64, .f32⟩ : BufTy).Contents (Elt F)),
    StableHlo.ternary main_v46 main_v60 main_v61 main_v62 ((fun x i u => Host.scatter scatter_S1024x41024_S1024x64x2_S1024x64_n_01_01_2 (fun _ b => b) x i u) : (⟨S1024x41024, .f32⟩ : BufTy).Contents (Elt F) → (⟨S1024x64x2, .i32⟩ : BufTy).Contents (Elt F) → (⟨S1024x64, .f32⟩ : BufTy).Contents (Elt F) → (⟨S1024x41024, .f32⟩ : BufTy).Contents (Elt F)),
    StableHlo.nullary main_cst_18 (constant S_ .f32 0x00000000#32),
    StableHlo.unary main_cst_18 main_v63 (broadcastInDim S1024x41024 ![] bcast_S_S1024x41024 : (⟨S_, .f32⟩ : BufTy).Contents (Elt F) → (⟨S1024x41024, .f32⟩ : BufTy).Contents (Elt F)),
    StableHlo.nullary main_c_19 (constantI S_ 32 0#32),
    StableHlo.unary main_c_19 main_v64 (broadcastInDim S1024x1 ![] bcast_S_S1024x1 : (⟨S_, .i32⟩ : BufTy).Contents (Elt F) → (⟨S1024x1, .i32⟩ : BufTy).Contents (Elt F)),
    StableHlo.binary main_v45 main_v64 main_v65 (cmpi .slt : (⟨S1024x1, .i32⟩ : BufTy).Contents (Elt F) → (⟨S1024x1, .i32⟩ : BufTy).Contents (Elt F) → (⟨S1024x1, .i1⟩ : BufTy).Contents (Elt F)),
    StableHlo.nullary main_c_20 (constantI S_ 32 1024#32),
    StableHlo.unary main_c_20 main_v66 (broadcastInDim S1024x1 ![] bcast_S_S1024x1 : (⟨S_, .i32⟩ : BufTy).Contents (Elt F) → (⟨S1024x1, .i32⟩ : BufTy).Contents (Elt F)),
    StableHlo.binary main_v45 main_v66 main_v67 (addi : (⟨S1024x1, .i32⟩ : BufTy).Contents (Elt F) → (⟨S1024x1, .i32⟩ : BufTy).Contents (Elt F) → (⟨S1024x1, .i32⟩ : BufTy).Contents (Elt F)),
    StableHlo.ternary main_v65 main_v67 main_v45 main_v68 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    StableHlo.nullary main_c_21 (constantI S_ 32 0#32),
    StableHlo.unary main_c_21 main_v69 (broadcastInDim S1024x64 ![] bcast_S_S1024x64 : (⟨S_, .i32⟩ : BufTy).Contents (Elt F) → (⟨S1024x64, .i32⟩ : BufTy).Contents (Elt F)),
    StableHlo.binary main_v43 main_v69 main_v70 (cmpi .slt : (⟨S1024x64, .i32⟩ : BufTy).Contents (Elt F) → (⟨S1024x64, .i32⟩ : BufTy).Contents (Elt F) → (⟨S1024x64, .i1⟩ : BufTy).Contents (Elt F)),
    StableHlo.nullary main_c_22 (constantI S_ 32 41024#32),
    StableHlo.unary main_c_22 main_v71 (broadcastInDim S1024x64 ![] bcast_S_S1024x64 : (⟨S_, .i32⟩ : BufTy).Contents (Elt F) → (⟨S1024x64, .i32⟩ : BufTy).Contents (Elt F)),
    StableHlo.binary main_v43 main_v71 main_v72 (addi : (⟨S1024x64, .i32⟩ : BufTy).Contents (Elt F) → (⟨S1024x64, .i32⟩ : BufTy).Contents (Elt F) → (⟨S1024x64, .i32⟩ : BufTy).Contents (Elt F)),
    StableHlo.ternary main_v70 main_v72 main_v43 main_v73 (select : (⟨S1024x64, .i1⟩ : BufTy).Contents (Elt F) → (⟨S1024x64, .i32⟩ : BufTy).Contents (Elt F) → (⟨S1024x64, .i32⟩ : BufTy).Contents (Elt F) → (⟨S1024x64, .i32⟩ : BufTy).Contents (Elt F)),
    StableHlo.unary main_v68 main_v74 (broadcastInDim S1024x64 ![0, 1] bcast_S1024x1_S1024x64_0_1 : (⟨S1024x1, .i32⟩ : BufTy).Contents (Elt F) → (⟨S1024x64, .i32⟩ : BufTy).Contents (Elt F)),
    StableHlo.unary main_v74 main_v75 (broadcastInDim S1024x64x1 ![0, 1] bcast_S1024x64_S1024x64x1_0_1 : (⟨S1024x64, .i32⟩ : BufTy).Contents (Elt F) → (⟨S1024x64x1, .i32⟩ : BufTy).Contents (Elt F)),
    StableHlo.unary main_v73 main_v76 (broadcastInDim S1024x64x1 ![0, 1] bcast_S1024x64_S1024x64x1_0_1 : (⟨S1024x64, .i32⟩ : BufTy).Contents (Elt F) → (⟨S1024x64x1, .i32⟩ : BufTy).Contents (Elt F)) ]

theorem opsB2_sub : (opsB2 : List (HloOp τ sig (Elt F))).Forall fun op => op.bufs ⊆ tcRefs τ sig :=
  ⟨binary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

theorem opsB2_fresh : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers this stretch writes. -/
abbrev opsB2_W : List (Ref sig .tc) := [main_v60, main_cst_17, main_v61, main_v62, main_cst_18, main_v63, main_c_19, main_v64, main_v65, main_c_20, main_v66, main_v67, main_v68, main_c_21, main_v69, main_v70, main_c_22, main_v71, main_v72, main_v73, main_v74, main_v75, main_v76]

theorem opsB2_writes : (opsB2 : List (HloOp τ sig (Elt F))).Forall fun op => op.writes ⊆ (opsB2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stretch does not write keeps its contents through it. -/
theorem opsB2_keep (V : Valuation τ sig (Elt F)) (r : Ref sig .tc) (h : r ∉ opsB2_W) :
    after opsB2 V (Proc.devRef .tc r) = V (Proc.devRef .tc r) :=
  after_of_writes_sub opsB2 V opsB2_writes h

/-- Their index pairs and their scatter of ones. -/
abbrev opsB3 : List (HloOp τ sig (Elt F)) :=
  [ StableHlo.binary main_v75 main_v76 main_v77 ((fun a b => concatenate S1024x64x2 2 [⟨S1024x64x1, a⟩, ⟨S1024x64x1, b⟩] concatenates_S1024x64x1_S1024x64x1_S1024x64x2_d2) : (⟨S1024x64x1, .i32⟩ : BufTy).Contents (Elt F) → (⟨S1024x64x1, .i32⟩ : BufTy).Contents (Elt F) → (⟨S1024x64x2, .i32⟩ : BufTy).Contents (Elt F)),
    StableHlo.nullary main_cst_23 (constant S_ .f32 0x3F800000#32),
    StableHlo.unary main_cst_23 main_v78 (broadcastInDim S1024x64 ![] bcast_S_S1024x64 : (⟨S_, .f32⟩ : BufTy).Contents (Elt F) → (⟨S1024x64, .f32⟩ : BufTy).Contents (Elt F)),
    StableHlo.ternary main_v63 main_v77 main_v78 main_v79 ((fun x i u => Host.scatter scatter_S1024x41024_S1024x64x2_S1024x64_n_01_01_2 (fun _ b => b) x i u) : (⟨S1024x41024, .f32⟩ : BufTy).Contents (Elt F) → (⟨S1024x64x2, .i32⟩ : BufTy).Contents (Elt F) → (⟨S1024x64, .f32⟩ : BufTy).Contents (Elt F) → (⟨S1024x41024, .f32⟩ : BufTy).Contents (Elt F)) ]

theorem opsB3_sub : (opsB3 : List (HloOp τ sig (Elt F))).Forall fun op => op.bufs ⊆ tcRefs τ sig :=
  ⟨binary_bufs_sub .., nullary_bufs_sub .., unary_bufs_sub .., ternary_bufs_sub ..⟩

theorem opsB3_fresh : (opsB3 : List (HloOp τ sig (Elt F))).Forall fun op => op.fresh = ∅ :=
  ⟨rfl, rfl, rfl, rfl⟩

/-- The buffers this stretch writes. -/
abbrev opsB3_W : List (Ref sig .tc) := [main_v77, main_cst_23, main_v78, main_v79]

theorem opsB3_writes : (opsB3 : List (HloOp τ sig (Elt F))).Forall fun op => op.writes ⊆ (opsB3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stretch does not write keeps its contents through it. -/
theorem opsB3_keep (V : Valuation τ sig (Elt F)) (r : Ref sig .tc) (h : r ∉ opsB3_W) :
    after opsB3 V (Proc.devRef .tc r) = V (Proc.devRef .tc r) :=
  after_of_writes_sub opsB3 V opsB3_writes h

/-- Both feature rows side by side, the two halves, and the two wide layers up to the first rectifier. -/
abbrev opsB4 : List (HloOp τ sig (Elt F)) :=
  [ StableHlo.binary main_v79 main_v62 main_v80 ((fun a b => concatenate S1024x82048 1 [⟨S1024x41024, a⟩, ⟨S1024x41024, b⟩] concatenates_S1024x41024_S1024x41024_S1024x82048_d1) : (⟨S1024x41024, .f32⟩ : BufTy).Contents (Elt F) → (⟨S1024x41024, .f32⟩ : BufTy).Contents (Elt F) → (⟨S1024x82048, .f32⟩ : BufTy).Contents (Elt F)),
    StableHlo.unary main_v80 main_v81 ((extractStridedSlice S1024x41024 ![0, 0] · slices_S1024x82048_S1024x41024_0_0) : (⟨S1024x82048, .f32⟩ : BufTy).Contents (Elt F) → (⟨S1024x41024, .f32⟩ : BufTy).Contents (Elt F)),
    StableHlo.unary main_v80 main_v82 ((extractStridedSlice S1024x41024 ![0, 41024] · slices_S1024x82048_S1024x41024_0_41024) : (⟨S1024x82048, .f32⟩ : BufTy).Contents (Elt F) → (⟨S1024x41024, .f32⟩ : BufTy).Contents (Elt F)),
    StableHlo.unary main_arg1 main_v83 ((transpose S41024x256 [1, 0] · transposes_S256x41024_S41024x256_1_0) : (⟨S256x41024, .f32⟩ : BufTy).Contents (Elt F) → (⟨S41024x256, .f32⟩ : BufTy).Contents (Elt F)),
    StableHlo.binary main_v81 main_v83 main_v84 ((fun l r => Host.dotGeneral dot_S1024x41024_S41024x256_S1024x256_1_0_0_1_n_n none l r) : (⟨S1024x41024, .f32⟩ : BufTy).Contents (Elt F) → (⟨S41024x256, .f32⟩ : BufTy).Contents (Elt F) → (⟨S1024x256, .f32⟩ : BufTy).Contents (Elt F)),
    StableHlo.unary main_arg2 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S1024x256 ![0, 1] bcast_S1x256_S1024x256_0_1 : (⟨S1x256, .f32⟩ : BufTy).Contents (Elt F) → (⟨S1024x256, .f32⟩ : BufTy).Contents (Elt F)),
    StableHlo.binary main_v84 main_v86 main_v87 (addf : (⟨S1024x256, .f32⟩ : BufTy).Contents (Elt F) → (⟨S1024x256, .f32⟩ : BufTy).Contents (Elt F) → (⟨S1024x256, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S1024x256, .f32⟩) (broadcastInDim S1024x256 ![] bcast_S_S1024x256),
    StableHlo.TRef.binary (.of main_v87 : StableHlo.TRef sig ⟨S1024x256, .f32⟩) (.of main_call4_v0 : StableHlo.TRef sig ⟨S1024x256, .f32⟩) (.of main_v88 : StableHlo.TRef sig ⟨S1024x256, .f32⟩) maximumf,
    StableHlo.unary main_arg3 main_v89 ((transpose S41024x256 [1, 0] · transposes_S256x41024_S41024x256_1_0) : (⟨S256x41024, .f32⟩ : BufTy).Contents (Elt F) → (⟨S41024x256, .f32⟩ : BufTy).Contents (Elt F)),
    StableHlo.binary main_v82 main_v89 main_v90 ((fun l r => Host.dotGeneral dot_S1024x41024_S41024x256_S1024x256_1_0_0_1_n_n none l r) : (⟨S1024x41024, .f32⟩ : BufTy).Contents (Elt F) → (⟨S41024x256, .f32⟩ : BufTy).Contents (Elt F) → (⟨S1024x256, .f32⟩ : BufTy).Contents (Elt F)),
    StableHlo.unary main_arg4 main_v91 (broadcastInDim S1x256 ![1] bcast_S256_S1x256_1 : (⟨S256, .f32⟩ : BufTy).Contents (Elt F) → (⟨S1x256, .f32⟩ : BufTy).Contents (Elt F)),
    StableHlo.unary main_v91 main_v92 (broadcastInDim S1024x256 ![0, 1] bcast_S1x256_S1024x256_0_1 : (⟨S1x256, .f32⟩ : BufTy).Contents (Elt F) → (⟨S1024x256, .f32⟩ : BufTy).Contents (Elt F)),
    StableHlo.binary main_v90 main_v92 main_v93 (addf : (⟨S1024x256, .f32⟩ : BufTy).Contents (Elt F) → (⟨S1024x256, .f32⟩ : BufTy).Contents (Elt F) → (⟨S1024x256, .f32⟩ : BufTy).Contents (Elt F)) ]

theorem opsB4_sub : (opsB4 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem opsB4_fresh : (opsB4 : List (HloOp τ sig (Elt F))).Forall fun op => op.fresh = ∅ :=
  ⟨rfl, rfl, rfl, rfl, rfl, rfl, rfl, rfl, rfl, rfl, rfl, rfl, rfl, rfl, rfl, rfl⟩

/-- The buffers this stretch writes. -/
abbrev opsB4_W : List (Ref sig .tc) := [main_v80, main_v81, main_v82, main_v83, main_v84, main_v85, main_v86, main_v87, main_call4_cst, main_call4_v0, main_v88, main_v89, main_v90, main_v91, main_v92, main_v93]

theorem opsB4_writes : (opsB4 : List (HloOp τ sig (Elt F))).Forall fun op => op.writes ⊆ (opsB4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stretch does not write keeps its contents through it. -/
theorem opsB4_keep (V : Valuation τ sig (Elt F)) (r : Ref sig .tc) (h : r ∉ opsB4_W) :
    after opsB4 V (Proc.devRef .tc r) = V (Proc.devRef .tc r) :=
  after_of_writes_sub opsB4 V opsB4_writes h

/-- The second wide layer's rectifier. -/
abbrev opsC1 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S1024x256, .f32⟩) (broadcastInDim S1024x256 ![] bcast_S_S1024x256),
    StableHlo.TRef.binary (.of main_v93 : StableHlo.TRef sig ⟨S1024x256, .f32⟩) (.of main_call5_v0 : StableHlo.TRef sig ⟨S1024x256, .f32⟩) (.of main_v94 : StableHlo.TRef sig ⟨S1024x256, .f32⟩) maximumf ]

theorem opsC1_sub : (opsC1 : List (HloOp τ sig (Elt F))).Forall fun op => op.bufs ⊆ tcRefs τ sig :=
  ⟨nullary_bufs_sub .., unary_bufs_sub .., binary_bufs_sub ..⟩

theorem opsC1_fresh : (opsC1 : List (HloOp τ sig (Elt F))).Forall fun op => op.fresh = ∅ :=
  ⟨rfl, rfl, rfl⟩

/-- The buffers this stretch writes. -/
abbrev opsC1_W : List (Ref sig .tc) := [main_call5_cst, main_call5_v0, main_v94]

theorem opsC1_writes : (opsC1 : List (HloOp τ sig (Elt F))).Forall fun op => op.writes ⊆ (opsC1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stretch does not write keeps its contents through it. -/
theorem opsC1_keep (V : Valuation τ sig (Elt F)) (r : Ref sig .tc) (h : r ∉ opsC1_W) :
    after opsC1 V (Proc.devRef .tc r) = V (Proc.devRef .tc r) :=
  after_of_writes_sub opsC1 V opsC1_writes h

/-- The two wide results side by side and the three small dense layers, the last flattened. -/
abbrev opsC2 : List (HloOp τ sig (Elt F)) :=
  [ StableHlo.binary main_v88 main_v94 main_v95 ((fun a b => concatenate S1024x512 1 [⟨S1024x256, a⟩, ⟨S1024x256, b⟩] concatenates_S1024x256_S1024x256_S1024x512_d1) : (⟨S1024x256, .f32⟩ : BufTy).Contents (Elt F) → (⟨S1024x256, .f32⟩ : BufTy).Contents (Elt F) → (⟨S1024x512, .f32⟩ : BufTy).Contents (Elt F)),
    StableHlo.unary main_arg5 main_v96 ((transpose S512x32 [1, 0] · transposes_S32x512_S512x32_1_0) : (⟨S32x512, .f32⟩ : BufTy).Contents (Elt F) → (⟨S512x32, .f32⟩ : BufTy).Contents (Elt F)),
    StableHlo.binary main_v95 main_v96 main_v97 ((fun l r => Host.dotGeneral dot_S1024x512_S512x32_S1024x32_1_0_0_1_n_n none l r) : (⟨S1024x512, .f32⟩ : BufTy).Contents (Elt F) → (⟨S512x32, .f32⟩ : BufTy).Contents (Elt F) → (⟨S1024x32, .f32⟩ : BufTy).Contents (Elt F)),
    StableHlo.unary main_arg6 main_v98 (broadcastInDim S1x32 ![1] bcast_S32_S1x32_1 : (⟨S32, .f32⟩ : BufTy).Contents (Elt F) → (⟨S1x32, .f32⟩ : BufTy).Contents (Elt F)),
    StableHlo.unary main_v98 main_v99 (broadcastInDim S1024x32 ![0, 1] bcast_S1x32_S1024x32_0_1 : (⟨S1x32, .f32⟩ : BufTy).Contents (Elt F) → (⟨S1024x32, .f32⟩ : BufTy).Contents (Elt F)),
    StableHlo.binary main_v97 main_v99 main_v100 (addf : (⟨S1024x32, .f32⟩ : BufTy).Contents (Elt F) → (⟨S1024x32, .f32⟩ : BufTy).Contents (Elt F) → (⟨S1024x32, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S1024x32, .f32⟩) (broadcastInDim S1024x32 ![] bcast_S_S1024x32),
    StableHlo.TRef.binary (.of main_v100 : StableHlo.TRef sig ⟨S1024x32, .f32⟩) (.of main_call6_v0 : StableHlo.TRef sig ⟨S1024x32, .f32⟩) (.of main_v101 : StableHlo.TRef sig ⟨S1024x32, .f32⟩) maximumf,
    StableHlo.unary main_arg7 main_v102 ((transpose S32x32 [1, 0] · transposes_S32x32_S32x32_1_0) : (⟨S32x32, .f32⟩ : BufTy).Contents (Elt F) → (⟨S32x32, .f32⟩ : BufTy).Contents (Elt F)),
    StableHlo.binary main_v101 main_v102 main_v103 ((fun l r => Host.dotGeneral dot_S1024x32_S32x32_S1024x32_1_0_0_1_n_n none l r) : (⟨S1024x32, .f32⟩ : BufTy).Contents (Elt F) → (⟨S32x32, .f32⟩ : BufTy).Contents (Elt F) → (⟨S1024x32, .f32⟩ : BufTy).Contents (Elt F)),
    StableHlo.unary main_arg8 main_v104 (broadcastInDim S1x32 ![1] bcast_S32_S1x32_1 : (⟨S32, .f32⟩ : BufTy).Contents (Elt F) → (⟨S1x32, .f32⟩ : BufTy).Contents (Elt F)),
    StableHlo.unary main_v104 main_v105 (broadcastInDim S1024x32 ![0, 1] bcast_S1x32_S1024x32_0_1 : (⟨S1x32, .f32⟩ : BufTy).Contents (Elt F) → (⟨S1024x32, .f32⟩ : BufTy).Contents (Elt F)),
    StableHlo.binary main_v103 main_v105 main_v106 (addf : (⟨S1024x32, .f32⟩ : BufTy).Contents (Elt F) → (⟨S1024x32, .f32⟩ : BufTy).Contents (Elt F) → (⟨S1024x32, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S1024x32, .f32⟩) (broadcastInDim S1024x32 ![] bcast_S_S1024x32),
    StableHlo.TRef.binary (.of main_v106 : StableHlo.TRef sig ⟨S1024x32, .f32⟩) (.of main_call7_v0 : StableHlo.TRef sig ⟨S1024x32, .f32⟩) (.of main_v107 : StableHlo.TRef sig ⟨S1024x32, .f32⟩) maximumf,
    StableHlo.unary main_arg9 main_v108 ((transpose S32x1 [1, 0] · transposes_S1x32_S32x1_1_0) : (⟨S1x32, .f32⟩ : BufTy).Contents (Elt F) → (⟨S32x1, .f32⟩ : BufTy).Contents (Elt F)),
    StableHlo.binary main_v107 main_v108 main_v109 ((fun l r => Host.dotGeneral dot_S1024x32_S32x1_S1024x1_1_0_0_1_n_n none l r) : (⟨S1024x32, .f32⟩ : BufTy).Contents (Elt F) → (⟨S32x1, .f32⟩ : BufTy).Contents (Elt F) → (⟨S1024x1, .f32⟩ : BufTy).Contents (Elt F)),
    StableHlo.unary main_arg10 main_v110 (broadcastInDim S1x1 ![1] bcast_S1_S1x1_1 : (⟨S1, .f32⟩ : BufTy).Contents (Elt F) → (⟨S1x1, .f32⟩ : BufTy).Contents (Elt F)),
    StableHlo.unary main_v110 main_v111 (broadcastInDim S1024x1 ![0, 1] bcast_S1x1_S1024x1_0_1 : (⟨S1x1, .f32⟩ : BufTy).Contents (Elt F) → (⟨S1024x1, .f32⟩ : BufTy).Contents (Elt F)),
    StableHlo.binary main_v109 main_v111 main_v112 (addf : (⟨S1024x1, .f32⟩ : BufTy).Contents (Elt F) → (⟨S1024x1, .f32⟩ : BufTy).Contents (Elt F) → (⟨S1024x1, .f32⟩ : BufTy).Contents (Elt F)),
    StableHlo.reshape main_v112 main_v113 rfl shapeCasts_S1024x1_S1024 ]

theorem opsC2_sub : (opsC2 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub ..⟩

theorem opsC2_fresh : (opsC2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers this stretch writes. -/
abbrev opsC2_W : List (Ref sig .tc) := [main_v95, main_v96, main_v97, main_v98, main_v99, main_v100, main_call6_cst, main_call6_v0, main_v101, main_v102, main_v103, main_v104, main_v105, main_v106, main_call7_cst, main_call7_v0, main_v107, main_v108, main_v109, main_v110, main_v111, main_v112, main_v113]

theorem opsC2_writes : (opsC2 : List (HloOp τ sig (Elt F))).Forall fun op => op.writes ⊆ (opsC2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stretch does not write keeps its contents through it. -/
theorem opsC2_keep (V : Valuation τ sig (Elt F)) (r : Ref sig .tc) (h : r ∉ opsC2_W) :
    after opsC2 V (Proc.devRef .tc r) = V (Proc.devRef .tc r) :=
  after_of_writes_sub opsC2 V opsC2_writes h

/-- The first window's operations. -/
abbrev opsP0 : List (HloOp τ sig (Elt F)) := opsA1 ++ (opsA2 ++ opsA3)
/-- The second window's operations. -/
abbrev opsP1 : List (HloOp τ sig (Elt F)) := opsB1 ++ (opsB2 ++ (opsB3 ++ opsB4))
/-- The third window's operations. -/
abbrev opsP2 : List (HloOp τ sig (Elt F)) := opsC1 ++ opsC2
/-- All 160 operations, in order. -/
abbrev ops : List (HloOp τ sig (Elt F)) := opsP0 ++ (opsP1 ++ opsP2)

set_option maxRecDepth 8192 in
set_option maxHeartbeats 4000000 in
theorem main_part0_eq (c : Dev nD) : main_part0 (F := F) c = seq opsP0 := by
  simp only [main_part0, fn_argmax.body, fn_where.body, bind_assoc, pure_bind]
  rfl

set_option maxRecDepth 8192 in
set_option maxHeartbeats 4000000 in
theorem main_part1_eq (c : Dev nD) : main_part1 (F := F) c = seq opsP1 := by
  simp only [main_part1, fn_relu.body, bind_assoc, pure_bind]
  rfl

set_option maxRecDepth 8192 in
set_option maxHeartbeats 4000000 in
theorem main_part2_eq (c : Dev nD) : main_part2 (F := F) c = seq opsP2 := by
  simp only [main_part2, fn_relu.body, fn_relu_0.body, bind_assoc, pure_bind]
  rfl

theorem main_eq (c : Dev nD) : main (F := F) c = seq ops := by
  simp only [ops, seq_append (opsP0 (F := F)), seq_append (opsP1 (F := F)), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, opsP0, opsP1, opsP2, List.mem_append] at h
    rcases h with (h | h | h) | (h | h | h | h) | h | h
    exacts [List.forall_iff_forall_mem.mp opsA1_sub op h, List.forall_iff_forall_mem.mp opsA2_sub op h, List.forall_iff_forall_mem.mp opsA3_sub op h, List.forall_iff_forall_mem.mp opsB1_sub op h, List.forall_iff_forall_mem.mp opsB2_sub op h, List.forall_iff_forall_mem.mp opsB3_sub op h, List.forall_iff_forall_mem.mp opsB4_sub op h, List.forall_iff_forall_mem.mp opsC1_sub op h, List.forall_iff_forall_mem.mp opsC2_sub op h]

theorem ops_fresh : ∀ op ∈ (ops : List (HloOp τ sig (Elt F))), op.fresh = ∅ := fun op h => by
  simp only [ops, opsP0, opsP1, opsP2, List.mem_append] at h
  rcases h with (h | h | h) | (h | h | h | h) | h | h
  exacts [List.forall_iff_forall_mem.mp opsA1_fresh op h, List.forall_iff_forall_mem.mp opsA2_fresh op h, List.forall_iff_forall_mem.mp opsA3_fresh op h, List.forall_iff_forall_mem.mp opsB1_fresh op h, List.forall_iff_forall_mem.mp opsB2_fresh op h, List.forall_iff_forall_mem.mp opsB3_fresh op h, List.forall_iff_forall_mem.mp opsB4_fresh op h, List.forall_iff_forall_mem.mp opsC1_fresh op h, List.forall_iff_forall_mem.mp opsC2_fresh op h]

/-- On every device, from any memory with zero counters: every weakly fair execution of the reference ends, and
    each buffer then holds what the 160 operations, folded in order over the launch contents, leave in it. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.HandRun

end
-- ==== Proof.Ref.RunA.lean ====
/-
  What the first three stretches of the reference leave in the buffers that later stretches read, each as a
  function of what the stretch finds: the flattened boards, the square numbers and the two kings; the two
  piece masks and my feature numbers; their feature numbers, the two masked choices and the board-number
  column.
-/
import proofs.«431275_j61529701482572_2_alg».proof.Proof.Ref.RunOps
import proofs.«431275_j61529701482572_2_alg».proof.Proof.Ref.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

attribute [local irreducible] Host.reduce2

/-- The boards, flattened. -/
theorem A1_v0 (W : Valuation τ sig (Elt F))   :
    after opsA1 W (Proc.devRef .tc main_v0) = St.squares (W (Proc.devRef .tc main_arg0)) := by
  after_results_simp
  all_goals (rfl)

/-- The square numbers 0..63. -/
theorem A1_v1 (W : Valuation τ sig (Elt F))   :
    after opsA1 W (Proc.devRef .tc main_v1) = iotaInDim S64 32 0 := by
  after_results_simp
  all_goals (rfl)

/-- My king's square on each board. -/
theorem A1_v4 (W : Valuation τ sig (Elt F))   :
    after opsA1 W (Proc.devRef .tc main_v4) = St.king 0#32 (St.squares (W (Proc.devRef .tc main_arg0))) := by
  after_results_simp
  all_goals (rfl)

/-- Their king's square on each board. -/
theorem A1_v7 (W : Valuation τ sig (Elt F))   :
    after opsA1 W (Proc.devRef .tc main_v7) = St.king 12#32 (St.squares (W (Proc.devRef .tc main_arg0))) := by
  after_results_simp
  all_goals (rfl)

/-- The mask of my pieces. -/
theorem A2_v12 (W : Valuation τ sig (Elt F)) (d : IVec S1024x64 32) (h0 : W (Proc.devRef .tc main_v0) = d) :
    after opsA2 W (Proc.devRef .tc main_v12) = St.isMy d := by
  subst h0
  after_results_simp
  all_goals (rfl)

/-- The mask of their pieces. -/
theorem A2_v17 (W : Valuation τ sig (Elt F)) (d : IVec S1024x64 32) (h0 : W (Proc.devRef .tc main_v0) = d) :
    after opsA2 W (Proc.devRef .tc main_v17) = St.isOpp d := by
  subst h0
  after_results_simp
  all_goals (rfl)

/-- The feature number of each square of mine. -/
theorem A2_v29 (W : Valuation τ sig (Elt F)) (d : IVec S1024x64 32) (h0 : W (Proc.devRef .tc main_v0) = d) (h1 : W (Proc.devRef .tc main_v1) = iotaInDim S64 32 0) (h4 : W (Proc.devRef .tc main_v4) = St.king 0#32 d) :
    after opsA2 W (Proc.devRef .tc main_v29) = St.myFeat d := by
  after_results_simp
  all_goals (rewrite [h0, h1, h4]; rfl)

/-- My feature numbers, 41024 off my pieces. -/
theorem A3_v42 (W : Valuation τ sig (Elt F)) (p : IVec S1024x64 1) (x : IVec S1024x64 32) (h12 : W (Proc.devRef .tc main_v12) = p) (h29 : W (Proc.devRef .tc main_v29) = x) :
    after opsA3 W (Proc.devRef .tc main_v42) = St.orDrop p x := by
  subst h12
  subst h29
  after_results_simp
  all_goals (rfl)

/-- Their feature numbers, 41024 off their pieces. -/
theorem A3_v43 (W : Valuation τ sig (Elt F)) (d : IVec S1024x64 32) (p : IVec S1024x64 1) (h0 : W (Proc.devRef .tc main_v0) = d) (h1 : W (Proc.devRef .tc main_v1) = iotaInDim S64 32 0) (h7 : W (Proc.devRef .tc main_v7) = St.king 12#32 d) (h17 : W (Proc.devRef .tc main_v17) = p) :
    after opsA3 W (Proc.devRef .tc main_v43) = St.orDrop p (St.oppFeat d) := by
  after_results_simp
  all_goals (rewrite [h0, h1, h7, h17]; rfl)

/-- The board numbers as a column. -/
theorem A3_v45 (W : Valuation τ sig (Elt F))   :
    after opsA3 W (Proc.devRef .tc main_v45) = broadcastInDim S1024x1 ![0] bcast_S1024_S1024x1_0 (iotaInDim S1024 32 0) := by
  after_results_simp
  all_goals (rfl)

end Cert.ReferenceIdeal.HandRun

end
-- ==== Proof.Ref.RunB.lean ====
/-
  What the four stretches of the reference's second window leave in the buffers that later stretches read:
  the zero rows and my two index columns; my feature rows and their two index columns; their feature rows;
  the first wide layer rectified and the second before its rectifier.
-/
import proofs.«431275_j61529701482572_2_alg».proof.Proof.Ref.RunOps
import proofs.«431275_j61529701482572_2_alg».proof.Proof.Ref.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

attribute [local irreducible] Host.scatter

/-- A wide layer before its rectifier: rows of features times the transposed weights, plus the bias. -/
def preWide (x : FVec F S1024x41024 .f32) (W : FVec F S256x41024 .f32) (b : FVec F S256 .f32) : FVec F S1024x256 .f32 :=
  addf (Host.dotGeneral dot_S1024x41024_S41024x256_S1024x256_1_0_0_1_n_n none x (transpose S41024x256 [1, 0] W transposes_S256x41024_S41024x256_1_0))
    (broadcastInDim S1024x256 ![0, 1] bcast_S1x256_S1024x256_0_1 (broadcastInDim S1x256 ![1] bcast_S256_S1x256_1 b))

theorem wide_eq (x : FVec F S1024x41024 .f32) (W : FVec F S256x41024 .f32) (b : FVec F S256 .f32) :
    St.wide x W b = St.relu256 (preWide x W b) := rfl

/-- The zero rows. -/
theorem B1_v46 (W : Valuation τ sig (Elt F))   :
    after opsB1 W (Proc.devRef .tc main_v46) = broadcastInDim S1024x41024 ![] bcast_S_S1024x41024 (constant S_ .f32 0x00000000#32) := by
  after_results_simp
  all_goals (rfl)

/-- The board-number index column. -/
theorem B1_v58 (W : Valuation τ sig (Elt F))  (h45 : W (Proc.devRef .tc main_v45) = broadcastInDim S1024x1 ![0] bcast_S1024_S1024x1_0 (iotaInDim S1024 32 0)) :
    after opsB1 W (Proc.devRef .tc main_v58) = broadcastInDim S1024x64x1 ![0, 1] bcast_S1024x64_S1024x64x1_0_1 (broadcastInDim S1024x64 ![0, 1] bcast_S1024x1_S1024x64_0_1 St.rowNo) := by
  after_results_simp
  all_goals (rewrite [h45]; rfl)

/-- My feature-number index column. -/
theorem B1_v59 (W : Valuation τ sig (Elt F)) (x : IVec S1024x64 32) (h42 : W (Proc.devRef .tc main_v42) = x) :
    after opsB1 W (Proc.devRef .tc main_v59) = broadcastInDim S1024x64x1 ![0, 1] bcast_S1024x64_S1024x64x1_0_1 (St.wrapFeat x) := by
  subst h42
  after_results_simp
  all_goals (rfl)

/-- My feature rows. -/
theorem B2_v62 (W : Valuation τ sig (Elt F)) (x : IVec S1024x64 32) (h58 : W (Proc.devRef .tc main_v58) = broadcastInDim S1024x64x1 ![0, 1] bcast_S1024x64_S1024x64x1_0_1 (broadcastInDim S1024x64 ![0, 1] bcast_S1024x1_S1024x64_0_1 St.rowNo)) (h59 : W (Proc.devRef .tc main_v59) = broadcastInDim S1024x64x1 ![0, 1] bcast_S1024x64_S1024x64x1_0_1 (St.wrapFeat x)) (h46 : W (Proc.devRef .tc main_v46) = broadcastInDim S1024x41024 ![] bcast_S_S1024x41024 (constant S_ .f32 0x00000000#32)) :
    after opsB2 W (Proc.devRef .tc main_v62) = St.feats x := by
  after_results_simp
  all_goals (rewrite [h58, h59, h46]; rfl)

/-- The zero rows, again. -/
theorem B2_v63 (W : Valuation τ sig (Elt F))   :
    after opsB2 W (Proc.devRef .tc main_v63) = broadcastInDim S1024x41024 ![] bcast_S_S1024x41024 (constant S_ .f32 0x00000000#32) := by
  after_results_simp
  all_goals (rfl)

/-- The board-number index column, again. -/
theorem B2_v75 (W : Valuation τ sig (Elt F))  (h45 : W (Proc.devRef .tc main_v45) = broadcastInDim S1024x1 ![0] bcast_S1024_S1024x1_0 (iotaInDim S1024 32 0)) :
    after opsB2 W (Proc.devRef .tc main_v75) = broadcastInDim S1024x64x1 ![0, 1] bcast_S1024x64_S1024x64x1_0_1 (broadcastInDim S1024x64 ![0, 1] bcast_S1024x1_S1024x64_0_1 St.rowNo) := by
  after_results_simp
  all_goals (rewrite [h45]; rfl)

/-- Their feature-number index column. -/
theorem B2_v76 (W : Valuation τ sig (Elt F)) (y : IVec S1024x64 32) (h43 : W (Proc.devRef .tc main_v43) = y) :
    after opsB2 W (Proc.devRef .tc main_v76) = broadcastInDim S1024x64x1 ![0, 1] bcast_S1024x64_S1024x64x1_0_1 (St.wrapFeat y) := by
  subst h43
  after_results_simp
  all_goals (rfl)

/-- Their feature rows. -/
theorem B3_v79 (W : Valuation τ sig (Elt F)) (y : IVec S1024x64 32) (h75 : W (Proc.devRef .tc main_v75) = broadcastInDim S1024x64x1 ![0, 1] bcast_S1024x64_S1024x64x1_0_1 (broadcastInDim S1024x64 ![0, 1] bcast_S1024x1_S1024x64_0_1 St.rowNo)) (h76 : W (Proc.devRef .tc main_v76) = broadcastInDim S1024x64x1 ![0, 1] bcast_S1024x64_S1024x64x1_0_1 (St.wrapFeat y)) (h63 : W (Proc.devRef .tc main_v63) = broadcastInDim S1024x41024 ![] bcast_S_S1024x41024 (constant S_ .f32 0x00000000#32)) :
    after opsB3 W (Proc.devRef .tc main_v79) = St.feats y := by
  after_results_simp
  all_goals (rewrite [h75, h76, h63]; rfl)

/-- The first wide layer, rectified. -/
theorem B4_v88 (W : Valuation τ sig (Elt F)) (d : IVec S1024x64 32) (h79 : W (Proc.devRef .tc main_v79) = St.opps d) (h62 : W (Proc.devRef .tc main_v62) = St.mys d) :
    after opsB4 W (Proc.devRef .tc main_v88) = St.wide (St.firstHalf d) (W (Proc.devRef .tc main_arg1)) (W (Proc.devRef .tc main_arg2)) := by
  after_results_simp
  all_goals (rewrite [h79, h62]; rfl)

/-- The second wide layer before its rectifier. -/
theorem B4_v93 (W : Valuation τ sig (Elt F)) (d : IVec S1024x64 32) (h79 : W (Proc.devRef .tc main_v79) = St.opps d) (h62 : W (Proc.devRef .tc main_v62) = St.mys d) :
    after opsB4 W (Proc.devRef .tc main_v93) = preWide (St.secondHalf d) (W (Proc.devRef .tc main_arg3)) (W (Proc.devRef .tc main_arg4)) := by
  after_results_simp
  all_goals (rewrite [h79, h62]; rfl)

end Cert.ReferenceIdeal.HandRun

end
-- ==== Proof.Ref.RunC.lean ====
/-
  What the two stretches of the reference's last window leave: the second wide layer rectified, and the score
  after the three small layers.
-/
import proofs.«431275_j61529701482572_2_alg».proof.Proof.Ref.RunOps
import proofs.«431275_j61529701482572_2_alg».proof.Proof.Ref.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The second wide layer, rectified. -/
theorem C1_v94 (W : Valuation τ sig (Elt F)) (p : FVec F S1024x256 .f32) (h93 : W (Proc.devRef .tc main_v93) = p) :
    after opsC1 W (Proc.devRef .tc main_v94) = St.relu256 p := by
  subst h93
  after_results_simp
  all_goals (rfl)

/-- The score. -/
theorem C2_v113 (W : Valuation τ sig (Elt F)) (a b : FVec F S1024x256 .f32) (h88 : W (Proc.devRef .tc main_v88) = a) (h94 : W (Proc.devRef .tc main_v94) = b) :
    after opsC2 W (Proc.devRef .tc main_v113) = St.score (St.hidden2 (St.hidden1 (concatenate S1024x512 1 [⟨S1024x256, a⟩, ⟨S1024x256, b⟩] concatenates_S1024x256_S1024x256_S1024x512_d1) (W (Proc.devRef .tc main_arg5)) (W (Proc.devRef .tc main_arg6))) (W (Proc.devRef .tc main_arg7)) (W (Proc.devRef .tc main_arg8))) (W (Proc.devRef .tc main_arg9)) (W (Proc.devRef .tc main_arg10)) := by
  subst h88
  subst h94
  after_results_simp
  all_goals (rfl)

end Cert.ReferenceIdeal.HandRun

end
-- ==== Proof.Ref.Run.lean ====
/-
  The run of the reference program, read back: every weakly fair execution ends with the result buffer at
  the composition of the stages (the function `St.result` of the eleven argument arrays) and the arguments
  unchanged. The nine stretches of operations are folded one after the other; what each leaves in the
  buffers its successors read is taken from the stretch's own statement, and a buffer a stretch does not
  write is carried through it.
-/
import proofs.«431275_j61529701482572_2_alg».proof.Proof.Ref.RunA
import proofs.«431275_j61529701482572_2_alg».proof.Proof.Ref.RunB
import proofs.«431275_j61529701482572_2_alg».proof.Proof.Ref.RunC

noncomputable section

namespace Cert.ReferenceIdeal.HandRun

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The boards as the run finds them, flattened. -/
abbrev brd (V : Valuation τ sig (Elt F)) : IVec S1024x64 32 := St.squares (V (Proc.devRef .tc main_arg0))

/-- The contents after the first stretch. -/
def st1 (V : Valuation τ sig (Elt F)) : Valuation τ sig (Elt F) := after opsA1 V
/-- The contents after the first 2 stretches. -/
def st2 (V : Valuation τ sig (Elt F)) : Valuation τ sig (Elt F) := after opsA2 (st1 V)
/-- The contents after the first 3 stretches. -/
def st3 (V : Valuation τ sig (Elt F)) : Valuation τ sig (Elt F) := after opsA3 (st2 V)
/-- The contents after the first 4 stretches. -/
def st4 (V : Valuation τ sig (Elt F)) : Valuation τ sig (Elt F) := after opsB1 (st3 V)
/-- The contents after the first 5 stretches. -/
def st5 (V : Valuation τ sig (Elt F)) : Valuation τ sig (Elt F) := after opsB2 (st4 V)
/-- The contents after the first 6 stretches. -/
def st6 (V : Valuation τ sig (Elt F)) : Valuation τ sig (Elt F) := after opsB3 (st5 V)
/-- The contents after the first 7 stretches. -/
def st7 (V : Valuation τ sig (Elt F)) : Valuation τ sig (Elt F) := after opsB4 (st6 V)
/-- The contents after the first 8 stretches. -/
def st8 (V : Valuation τ sig (Elt F)) : Valuation τ sig (Elt F) := after opsC1 (st7 V)
/-- The contents after the first 9 stretches. -/
def st9 (V : Valuation τ sig (Elt F)) : Valuation τ sig (Elt F) := after opsC2 (st8 V)

theorem after_ops (V : Valuation τ sig (Elt F)) : after ops V = st9 V := by
  simp only [ops, opsP0, opsP1, opsP2, after_append]
  rfl

/-- Every buffer some stretch writes. -/
abbrev allW : List (Ref sig .tc) := opsA1_W ++ (opsA2_W ++ (opsA3_W ++ (opsB1_W ++ (opsB2_W ++ (opsB3_W ++ (opsB4_W ++ (opsC1_W ++ (opsC2_W))))))))

theorem st1_keep (V : Valuation τ sig (Elt F)) (r : Ref sig .tc) (h : r ∉ allW) : st1 V (Proc.devRef .tc r) = V (Proc.devRef .tc r) :=
  opsA1_keep V r (fun hm => h (List.mem_append_left _ hm))
theorem st2_keep (V : Valuation τ sig (Elt F)) (r : Ref sig .tc) (h : r ∉ allW) : st2 V (Proc.devRef .tc r) = V (Proc.devRef .tc r) :=
  (opsA2_keep (st1 V) r (fun hm => h (List.mem_append_right _ (List.mem_append_left _ hm)))).trans (st1_keep V r h)
theorem st3_keep (V : Valuation τ sig (Elt F)) (r : Ref sig .tc) (h : r ∉ allW) : st3 V (Proc.devRef .tc r) = V (Proc.devRef .tc r) :=
  (opsA3_keep (st2 V) r (fun hm => h (List.mem_append_right _ (List.mem_append_right _ (List.mem_append_left _ hm))))).trans (st2_keep V r h)
theorem st4_keep (V : Valuation τ sig (Elt F)) (r : Ref sig .tc) (h : r ∉ allW) : st4 V (Proc.devRef .tc r) = V (Proc.devRef .tc r) :=
  (opsB1_keep (st3 V) r (fun hm => h (List.mem_append_right _ (List.mem_append_right _ (List.mem_append_right _ (List.mem_append_left _ hm)))))).trans (st3_keep V r h)
theorem st5_keep (V : Valuation τ sig (Elt F)) (r : Ref sig .tc) (h : r ∉ allW) : st5 V (Proc.devRef .tc r) = V (Proc.devRef .tc r) :=
  (opsB2_keep (st4 V) r (fun hm => h (List.mem_append_right _ (List.mem_append_right _ (List.mem_append_right _ (List.mem_append_right _ (List.mem_append_left _ hm))))))).trans (st4_keep V r h)
theorem st6_keep (V : Valuation τ sig (Elt F)) (r : Ref sig .tc) (h : r ∉ allW) : st6 V (Proc.devRef .tc r) = V (Proc.devRef .tc r) :=
  (opsB3_keep (st5 V) r (fun hm => h (List.mem_append_right _ (List.mem_append_right _ (List.mem_append_right _ (List.mem_append_right _ (List.mem_append_right _ (List.mem_append_left _ hm)))))))).trans (st5_keep V r h)
theorem st7_keep (V : Valuation τ sig (Elt F)) (r : Ref sig .tc) (h : r ∉ allW) : st7 V (Proc.devRef .tc r) = V (Proc.devRef .tc r) :=
  (opsB4_keep (st6 V) r (fun hm => h (List.mem_append_right _ (List.mem_append_right _ (List.mem_append_right _ (List.mem_append_right _ (List.mem_append_right _ (List.mem_append_right _ (List.mem_append_left _ hm))))))))).trans (st6_keep V r h)
theorem st8_keep (V : Valuation τ sig (Elt F)) (r : Ref sig .tc) (h : r ∉ allW) : st8 V (Proc.devRef .tc r) = V (Proc.devRef .tc r) :=
  (opsC1_keep (st7 V) r (fun hm => h (List.mem_append_right _ (List.mem_append_right _ (List.mem_append_right _ (List.mem_append_right _ (List.mem_append_right _ (List.mem_append_right _ (List.mem_append_right _ (List.mem_append_left _ hm)))))))))).trans (st7_keep V r h)
theorem st9_keep (V : Valuation τ sig (Elt F)) (r : Ref sig .tc) (h : r ∉ allW) : st9 V (Proc.devRef .tc r) = V (Proc.devRef .tc r) :=
  (opsC2_keep (st8 V) r (fun hm => h (List.mem_append_right _ (List.mem_append_right _ (List.mem_append_right _ (List.mem_append_right _ (List.mem_append_right _ (List.mem_append_right _ (List.mem_append_right _ (List.mem_append_right _ (hm))))))))))).trans (st8_keep V r h)

theorem arg0_nw : main_arg0 ∉ allW := by decide
theorem arg1_nw : main_arg1 ∉ allW := by decide
theorem arg2_nw : main_arg2 ∉ allW := by decide
theorem arg3_nw : main_arg3 ∉ allW := by decide
theorem arg4_nw : main_arg4 ∉ allW := by decide
theorem arg5_nw : main_arg5 ∉ allW := by decide
theorem arg6_nw : main_arg6 ∉ allW := by decide
theorem arg7_nw : main_arg7 ∉ allW := by decide
theorem arg8_nw : main_arg8 ∉ allW := by decide
theorem arg9_nw : main_arg9 ∉ allW := by decide
theorem arg10_nw : main_arg10 ∉ allW := by decide

theorem st1_v0 (V : Valuation τ sig (Elt F)) : st1 V (Proc.devRef .tc main_v0) = brd V :=
  A1_v0 V

theorem st1_v1 (V : Valuation τ sig (Elt F)) : st1 V (Proc.devRef .tc main_v1) = iotaInDim S64 32 0 :=
  A1_v1 V

theorem st1_v4 (V : Valuation τ sig (Elt F)) : st1 V (Proc.devRef .tc main_v4) = St.king 0#32 (brd V) :=
  A1_v4 V

theorem st1_v7 (V : Valuation τ sig (Elt F)) : st1 V (Proc.devRef .tc main_v7) = St.king 12#32 (brd V) :=
  A1_v7 V

theorem st2_v0 (V : Valuation τ sig (Elt F)) : st2 V (Proc.devRef .tc main_v0) = brd V :=
  (opsA2_keep (st1 V) main_v0 (by decide)).trans (st1_v0 V)

theorem st2_v1 (V : Valuation τ sig (Elt F)) : st2 V (Proc.devRef .tc main_v1) = iotaInDim S64 32 0 :=
  (opsA2_keep (st1 V) main_v1 (by decide)).trans (st1_v1 V)

theorem st2_v7 (V : Valuation τ sig (Elt F)) : st2 V (Proc.devRef .tc main_v7) = St.king 12#32 (brd V) :=
  (opsA2_keep (st1 V) main_v7 (by decide)).trans (st1_v7 V)

theorem st2_v12 (V : Valuation τ sig (Elt F)) : st2 V (Proc.devRef .tc main_v12) = St.isMy (brd V) :=
  A2_v12 (st1 V) (brd V) (st1_v0 V)

theorem st2_v17 (V : Valuation τ sig (Elt F)) : st2 V (Proc.devRef .tc main_v17) = St.isOpp (brd V) :=
  A2_v17 (st1 V) (brd V) (st1_v0 V)

theorem st2_v29 (V : Valuation τ sig (Elt F)) : st2 V (Proc.devRef .tc main_v29) = St.myFeat (brd V) :=
  A2_v29 (st1 V) (brd V) (st1_v0 V) (st1_v1 V) (st1_v4 V)

theorem st3_v42 (V : Valuation τ sig (Elt F)) : st3 V (Proc.devRef .tc main_v42) = (St.orDrop (St.isMy (brd V)) (St.myFeat (brd V))) :=
  A3_v42 (st2 V) _ _ (st2_v12 V) (st2_v29 V)

theorem st3_v43 (V : Valuation τ sig (Elt F)) : st3 V (Proc.devRef .tc main_v43) = (St.orDrop (St.isOpp (brd V)) (St.oppFeat (brd V))) :=
  A3_v43 (st2 V) (brd V) _ (st2_v0 V) (st2_v1 V) (st2_v7 V) (st2_v17 V)

theorem st3_v45 (V : Valuation τ sig (Elt F)) : st3 V (Proc.devRef .tc main_v45) = broadcastInDim S1024x1 ![0] bcast_S1024_S1024x1_0 (iotaInDim S1024 32 0) :=
  A3_v45 (st2 V)

theorem st4_v43 (V : Valuation τ sig (Elt F)) : st4 V (Proc.devRef .tc main_v43) = (St.orDrop (St.isOpp (brd V)) (St.oppFeat (brd V))) :=
  (opsB1_keep (st3 V) main_v43 (by decide)).trans (st3_v43 V)

theorem st4_v45 (V : Valuation τ sig (Elt F)) : st4 V (Proc.devRef .tc main_v45) = broadcastInDim S1024x1 ![0] bcast_S1024_S1024x1_0 (iotaInDim S1024 32 0) :=
  (opsB1_keep (st3 V) main_v45 (by decide)).trans (st3_v45 V)

theorem st4_v46 (V : Valuation τ sig (Elt F)) : st4 V (Proc.devRef .tc main_v46) = broadcastInDim S1024x41024 ![] bcast_S_S1024x41024 (constant S_ .f32 0x00000000#32) :=
  B1_v46 (st3 V)

theorem st4_v58 (V : Valuation τ sig (Elt F)) : st4 V (Proc.devRef .tc main_v58) = broadcastInDim S1024x64x1 ![0, 1] bcast_S1024x64_S1024x64x1_0_1 (broadcastInDim S1024x64 ![0, 1] bcast_S1024x1_S1024x64_0_1 St.rowNo) :=
  B1_v58 (st3 V) (st3_v45 V)

theorem st4_v59 (V : Valuation τ sig (Elt F)) : st4 V (Proc.devRef .tc main_v59) = broadcastInDim S1024x64x1 ![0, 1] bcast_S1024x64_S1024x64x1_0_1 (St.wrapFeat (St.orDrop (St.isMy (brd V)) (St.myFeat (brd V)))) :=
  B1_v59 (st3 V) _ (st3_v42 V)

theorem st5_v62 (V : Valuation τ sig (Elt F)) : st5 V (Proc.devRef .tc main_v62) = St.mys (brd V) :=
  B2_v62 (st4 V) _ (st4_v58 V) (st4_v59 V) (st4_v46 V)

theorem st5_v63 (V : Valuation τ sig (Elt F)) : st5 V (Proc.devRef .tc main_v63) = broadcastInDim S1024x41024 ![] bcast_S_S1024x41024 (constant S_ .f32 0x00000000#32) :=
  B2_v63 (st4 V)

theorem st5_v75 (V : Valuation τ sig (Elt F)) : st5 V (Proc.devRef .tc main_v75) = broadcastInDim S1024x64x1 ![0, 1] bcast_S1024x64_S1024x64x1_0_1 (broadcastInDim S1024x64 ![0, 1] bcast_S1024x1_S1024x64_0_1 St.rowNo) :=
  B2_v75 (st4 V) (st4_v45 V)

theorem st5_v76 (V : Valuation τ sig (Elt F)) : st5 V (Proc.devRef .tc main_v76) = broadcastInDim S1024x64x1 ![0, 1] bcast_S1024x64_S1024x64x1_0_1 (St.wrapFeat (St.orDrop (St.isOpp (brd V)) (St.oppFeat (brd V)))) :=
  B2_v76 (st4 V) _ (st4_v43 V)

theorem st6_v62 (V : Valuation τ sig (Elt F)) : st6 V (Proc.devRef .tc main_v62) = St.mys (brd V) :=
  (opsB3_keep (st5 V) main_v62 (by decide)).trans (st5_v62 V)

theorem st6_v79 (V : Valuation τ sig (Elt F)) : st6 V (Proc.devRef .tc main_v79) = St.opps (brd V) :=
  B3_v79 (st5 V) _ (st5_v75 V) (st5_v76 V) (st5_v63 V)

theorem st7_v88 (V : Valuation τ sig (Elt F)) : st7 V (Proc.devRef .tc main_v88) = St.wide (St.firstHalf (brd V)) (V (Proc.devRef .tc main_arg1)) (V (Proc.devRef .tc main_arg2)) :=
  (B4_v88 (st6 V) (brd V) (st6_v79 V) (st6_v62 V)).trans (by rw [st6_keep V main_arg1 arg1_nw, st6_keep V main_arg2 arg2_nw])

theorem st7_v93 (V : Valuation τ sig (Elt F)) : st7 V (Proc.devRef .tc main_v93) = preWide (St.secondHalf (brd V)) (V (Proc.devRef .tc main_arg3)) (V (Proc.devRef .tc main_arg4)) :=
  (B4_v93 (st6 V) (brd V) (st6_v79 V) (st6_v62 V)).trans (by rw [st6_keep V main_arg3 arg3_nw, st6_keep V main_arg4 arg4_nw])

theorem st8_v88 (V : Valuation τ sig (Elt F)) : st8 V (Proc.devRef .tc main_v88) = St.wide (St.firstHalf (brd V)) (V (Proc.devRef .tc main_arg1)) (V (Proc.devRef .tc main_arg2)) :=
  (opsC1_keep (st7 V) main_v88 (by decide)).trans (st7_v88 V)

theorem st8_v94 (V : Valuation τ sig (Elt F)) : st8 V (Proc.devRef .tc main_v94) = St.wide (St.secondHalf (brd V)) (V (Proc.devRef .tc main_arg3)) (V (Proc.devRef .tc main_arg4)) :=
  C1_v94 (st7 V) _ (st7_v93 V)

theorem st9_v113 (V : Valuation τ sig (Elt F)) : st9 V (Proc.devRef .tc main_v113) = St.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  (C2_v113 (st8 V) _ _ (st8_v88 V) (st8_v94 V)).trans (by
    rw [st8_keep V main_arg5 arg5_nw, st8_keep V main_arg6 arg6_nw, st8_keep V main_arg7 arg7_nw, st8_keep V main_arg8 arg8_nw, st8_keep V main_arg9 arg9_nw, st8_keep V main_arg10 arg10_nw]
    rfl)

/-- The result buffer after all the operations: the composition of the stages at the arguments. -/
theorem out_eq (V : Valuation τ sig (Elt F)) : after ops V (Proc.devRef .tc main_v113) = St.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops]; exact st9_v113 V

/-- No operation writes an argument. -/
theorem arg_eq (V : Valuation τ sig (Elt F)) (r : Ref sig .tc) (h : r ∉ allW) : after ops V (Proc.devRef .tc r) = V (Proc.devRef .tc r) := by
  rw [after_ops]; exact st9_keep V r h

/-- On every device, for any float values, from any memory with zero counters: every weakly fair execution of the
    reference terminates with the result buffer at the stages' composition of the arguments' launch contents, and
    the eleven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v113) = St.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v113).trans (out_eq _),
      (h c main_arg0).trans (arg_eq _ main_arg0 arg0_nw),
      (h c main_arg1).trans (arg_eq _ main_arg1 arg1_nw),
      (h c main_arg2).trans (arg_eq _ main_arg2 arg2_nw),
      (h c main_arg3).trans (arg_eq _ main_arg3 arg3_nw),
      (h c main_arg4).trans (arg_eq _ main_arg4 arg4_nw),
      (h c main_arg5).trans (arg_eq _ main_arg5 arg5_nw),
      (h c main_arg6).trans (arg_eq _ main_arg6 arg6_nw),
      (h c main_arg7).trans (arg_eq _ main_arg7 arg7_nw),
      (h c main_arg8).trans (arg_eq _ main_arg8 arg8_nw),
      (h c main_arg9).trans (arg_eq _ main_arg9 arg9_nw),
      (h c main_arg10).trans (arg_eq _ main_arg10 arg10_nw)⟩)
    (run_ops m ρ)

end Cert.ReferenceIdeal.HandRun

end
-- ==== Proof.LibScatterConst.lean ====
/-
  A scatter that overwrites (its body returns the update) with every update the same value `c`: the order of the
  updates and repeated result indices do not matter, and the result at an operand index is `c` when some update
  index lands there, and the operand's own element when none does. The scatter is a left fold over the update
  positions; the two statements are proved of the fold over any list of positions, by induction on the list.
-/
import Idealize.ShloMosaic.PureOps.ShapeOps

namespace Idealize.ShloMosaic

variable {α : Type} {s si u : Shape} {w : Nat}

/-- One step of the scatter's fold: the update at row-major position `n` written where it lands, if it lands. -/
def scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of that step over all update positions. -/
theorem Host.scatter_eq_foldl (d : ScatterDims s si u) (f : α → α → α) (x : s.Idx → α) (idx : IVec si w) (upd : u.Idx → α) :
    Host.scatter d f x idx upd = (List.finRange u.numel).foldl (scatterStep d f idx upd) x := rfl

/-- Positions none of which lands at `i'` leave the element at `i'` alone (any body, any updates). -/
theorem foldl_scatterStep_of_miss (d : ScatterDims s si u) (f : α → α → α) (idx : IVec si w) (upd : u.Idx → α) (i' : s.Idx) :
    ∀ (l : List (Fin u.numel)) (x : s.Idx → α), (∀ n ∈ l, d.resultIdx? (u.rowMajor.symm n) idx ≠ some i') →
      l.foldl (scatterStep d f idx upd) x i' = x i'
  | [], _, _ => rfl
  | n :: t, x, h => by
    rw [List.foldl_cons, foldl_scatterStep_of_miss d f idx upd i' t _ fun m hm => h m (List.mem_cons_of_mem _ hm)]
    have hn := h n List.mem_cons_self
    unfold scatterStep
    cases hr : d.resultIdx? (u.rowMajor.symm n) idx with
    | none => rfl
    | some i =>
      have : i' ≠ i := fun e => hn (by rw [hr, e])
      exact if_neg this

/-- With the overwriting body and constant updates `c`: once the element at `i'` is `c`, or if a position of the
    list lands at `i'`, the fold's element at `i'` is `c`. -/
theorem foldl_scatterStep_const (d : ScatterDims s si u) (idx : IVec si w) (c : α) (i' : s.Idx) :
    ∀ (l : List (Fin u.numel)) (x : s.Idx → α), (x i' = c ∨ ∃ n ∈ l, d.resultIdx? (u.rowMajor.symm n) idx = some i') →
      l.foldl (scatterStep d (fun _ b => b) idx fun _ => c) x i' = c
  | [], x, h => by
    rcases h with h | ⟨n, hn, _⟩
    · exact h
    · cases hn
  | n :: t, x, h => by
    rw [List.foldl_cons]
    refine foldl_scatterStep_const d idx c i' t _ ?_
    unfold scatterStep
    cases hr : d.resultIdx? (u.rowMajor.symm n) idx with
    | none =>
      rcases h with h | ⟨m, hm, hmi⟩
      · exact Or.inl h
      · rcases List.mem_cons.1 hm with rfl | hm
        · rw [hr] at hmi; cases hmi
        · exact Or.inr ⟨m, hm, hmi⟩
    | some i =>
      by_cases e : i' = i
      · exact Or.inl (if_pos e)
      · rcases h with h | ⟨m, hm, hmi⟩
        · exact Or.inl ((if_neg e).trans h)
        · rcases List.mem_cons.1 hm with rfl | hm
          · rw [hr] at hmi; exact absurd (Option.some.inj hmi).symm e
          · exact Or.inr ⟨m, hm, hmi⟩

/-- An overwriting scatter of constant updates `c` reads `c` wherever some update index lands. -/
theorem Host.scatter_const_of_hit (d : ScatterDims s si u) (x : s.Idx → α) (idx : IVec si w) (c : α) (i' : s.Idx)
    (h : ∃ j : u.Idx, d.resultIdx? j idx = some i') :
    Host.scatter d (fun _ b => b) x idx (fun _ => c) i' = c := by
  obtain ⟨j, hj⟩ := h
  rw [Host.scatter_eq_foldl]
  exact foldl_scatterStep_const d idx c i' _ x
    (Or.inr ⟨u.rowMajor j, List.mem_finRange _, by rw [Equiv.symm_apply_apply]; exact hj⟩)

/-- A scatter leaves alone every element no update index lands at. -/
theorem Host.scatter_of_miss (d : ScatterDims s si u) (f : α → α → α) (x : s.Idx → α) (idx : IVec si w) (upd : u.Idx → α) (i' : s.Idx)
    (h : ∀ j : u.Idx, d.resultIdx? j idx ≠ some i') :
    Host.scatter d f x idx upd i' = x i' := by
  rw [Host.scatter_eq_foldl]
  exact foldl_scatterStep_of_miss d f idx upd i' _ x fun n _ => h _

end Idealize.ShloMosaic
-- ==== Proof.Ref.Words.lean ====
/-
  The 32-bit words of the feature computation, one square at a time. A square holding piece `p` with the king on
  square `k < 64` names the feature `k * 641 + band * 64 + s`, the band `11 − p` for a piece 7..11 and `p − 1` for
  a piece 1..5; every such number is below 41024, far below 2^31, so no product, sum or difference wraps and the
  signed reading of the word is the number itself. A square outside the range names 41024.
-/
import Idealize.ShloMosaic.PureOps.Float

namespace Cert.ReferenceIdeal.Words

open Idealize.ShloMosaic

/-- The conjunction of two comparison bits is set exactly when both comparisons hold. -/
theorem andi_ofBool_eq_one_iff (a b : Bool) : IntOp.andi (BitVec.ofBool a) (BitVec.ofBool b) = 1#1 ↔ a = true ∧ b = true := by
  cases a <;> cases b <;> decide

/-- A signed sandwich between two small non-negative literals is the unsigned sandwich of the word's value. -/
theorem sle_sle_iff (p : BitVec 32) (lo hi : Nat) (hlo : lo < 2 ^ 31) (hhi : hi < 2 ^ 31) :
    ((BitVec.ofNat 32 lo).sle p = true ∧ p.sle (BitVec.ofNat 32 hi) = true) ↔ (lo ≤ p.toNat ∧ p.toNat ≤ hi) := by
  rw [BitVec.sle_iff_toInt_le, BitVec.sle_iff_toInt_le, BitVec.toInt_eq_toNat_cond p,
    BitVec.toInt_eq_toNat_of_lt (x := BitVec.ofNat 32 lo) (by rw [BitVec.toNat_ofNat]; omega),
    BitVec.toInt_eq_toNat_of_lt (x := BitVec.ofNat 32 hi) (by rw [BitVec.toNat_ofNat]; omega),
    BitVec.toNat_ofNat, BitVec.toNat_ofNat]
  have := p.isLt
  split <;> omega

/-- "lo ≤ p ≤ hi, signed" as the program computes it. -/
def inBand (lo hi : Nat) (p : BitVec 32) : BitVec 1 :=
  IntOp.andi (IntOp.cmpi .sge p (BitVec.ofNat 32 lo)) (IntOp.cmpi .sle p (BitVec.ofNat 32 hi))

theorem inBand_eq_one_iff (lo hi : Nat) (hlo : lo < 2 ^ 31) (hhi : hi < 2 ^ 31) (p : BitVec 32) :
    inBand lo hi p = 1#1 ↔ (lo ≤ p.toNat ∧ p.toNat ≤ hi) := by
  unfold inBand IntOp.cmpi
  rw [andi_ofBool_eq_one_iff]
  exact sle_sle_iff p lo hi hlo hhi

/-- The feature a piece 7..11 names. -/
def oppWord (k p s : BitVec 32) : BitVec 32 :=
  IntOp.addi (IntOp.addi (IntOp.muli k 641#32) (IntOp.muli (IntOp.subi 11#32 p) 64#32)) s
/-- The feature a piece 1..5 names. -/
def myWord (k p s : BitVec 32) : BitVec 32 :=
  IntOp.addi (IntOp.addi (IntOp.muli k 641#32) (IntOp.muli (IntOp.subi p 1#32) 64#32)) s

theorem oppWord_toNat (k p s : BitVec 32) (hk : k.toNat < 64) (hp : 7 ≤ p.toNat ∧ p.toNat ≤ 11) (hs : s.toNat < 64) :
    (oppWord k p s).toNat = k.toNat * 641 + (11 - p.toNat) * 64 + s.toNat := by
  unfold oppWord IntOp.addi IntOp.muli IntOp.subi
  simp only [BitVec.toNat_add, BitVec.toNat_mul, BitVec.toNat_sub, BitVec.toNat_ofNat]
  omega

theorem myWord_toNat (k p s : BitVec 32) (hk : k.toNat < 64) (hp : 1 ≤ p.toNat ∧ p.toNat ≤ 5) (hs : s.toNat < 64) :
    (myWord k p s).toNat = k.toNat * 641 + (p.toNat - 1) * 64 + s.toNat := by
  unfold myWord IntOp.addi IntOp.muli IntOp.subi
  simp only [BitVec.toNat_add, BitVec.toNat_mul, BitVec.toNat_sub, BitVec.toNat_ofNat]
  omega

/-- A negative index counted from the end, as the program computes it. -/
def wrapWord (n : Nat) (x : BitVec 32) : BitVec 32 :=
  Scalar.select (IntOp.cmpi .slt x 0#32) (IntOp.addi x (BitVec.ofNat 32 n)) x

/-- A word below 2^31 is not negative: it is kept, and read signed it is its value. -/
theorem wrapWord_toInt (n : Nat) (x : BitVec 32) (hx : x.toNat < 2 ^ 31) : (wrapWord n x).toInt = x.toNat := by
  have hi : x.toInt = x.toNat := BitVec.toInt_eq_toNat_of_lt (by omega)
  have h0 : x.slt 0#32 = false := by
    rw [BitVec.slt_eq_decide, hi]
    exact decide_eq_false (by simp)
  unfold wrapWord IntOp.cmpi
  rw [h0]
  exact hi

end Cert.ReferenceIdeal.Words
-- ==== Proof.Ref.ScatterAt.lean ====
/-
  The feature rows read at an index. The scatter takes one pair (board, feature) per square; its dimension numbers send
  the update of square `s` of board `b'` to row `b'`, column the square's feature read signed, and drop it when the
  column is outside `[0, 41024)`. Every update is one and the operand is zero, so the row of board `b` is one at a
  column some square of the board names and zero at every other column.
-/
import proofs.«431275_j61529701482572_2_alg».proof.Proof.Ref.Stages
import proofs.«431275_j61529701482572_2_alg».proof.Proof.LibScatterConst
import proofs.«431275_j61529701482572_2_alg».proof.Proof.Ref.Words
import Idealize.ShloMosaic.Lib.ValueIdx
import Idealize.ShloMosaic.Lib.IdealHost
import Idealize.ShloMosaic.Lib.Pipeline.Value

noncomputable section
namespace Cert.ReferenceIdeal.RefValue
open Cert.ReferenceIdeal Idealize.ShloMosaic Idealize.ShloMosaic.ValueIdx
open Cert.ReferenceIdeal.Facts₀
variable [Cert.ReferenceIdeal.Facts]

abbrev sd := scatter_S1024x41024_S1024x64x2_S1024x64_n_01_01_2

theorem sd_siIdx (b : Fin 1024) (s : Fin 64) (c : Fin 2) :
    sd.siIdx (ix2 b s) (c.cast (by rfl)) = ix3 b s c := by
  funext a; refine Fin.ext ?_
  match a with
  | ⟨0, _⟩ => rfl
  | ⟨1, _⟩ => rfl
  | ⟨2, _⟩ => rfl

theorem sd_start0 (idx : IVec S1024x64x2 32) (b : Fin 1024) (s : Fin 64) :
    sd.start (ix2 b s) idx 0 = (idx (ix3 b s 0)).toInt := by
  unfold ScatterDims.start
  rw [dif_pos (show (0 : Fin 2) ∈ sd.scatterDimsToOperandDims from (List.mem_cons_self : (0 : Fin 2) ∈ [0, 1]))]
  rw [← sd_siIdx b s 0]
  rfl

theorem sd_start1 (idx : IVec S1024x64x2 32) (b : Fin 1024) (s : Fin 64) :
    sd.start (ix2 b s) idx 1 = (idx (ix3 b s 1)).toInt := by
  unfold ScatterDims.start
  rw [dif_pos (show (1 : Fin 2) ∈ sd.scatterDimsToOperandDims from (List.mem_cons_of_mem _ List.mem_cons_self : (1 : Fin 2) ∈ [0, 1]))]
  rw [← sd_siIdx b s 1]
  rfl

theorem sd_window (j : S1024x64.Idx) (a : Fin 2) : sd.window j a = 0 := by
  unfold ScatterDims.window
  exact dif_neg (show a ∉ ([] : List (Fin 2)) from List.not_mem_nil)

theorem sd_resultIdx_iff (idx : IVec S1024x64x2 32) (b : Fin 1024) (s : Fin 64) (r : Fin 1024) (f : Fin 41024) :
    sd.resultIdx? (ix2 b s) idx = some (ix2 r f) ↔ (idx (ix3 b s 0)).toInt = r.val ∧ (idx (ix3 b s 1)).toInt = f.val := by
  unfold ScatterDims.resultIdx?
  have h0 := sd_start0 idx b s
  have h1 := sd_start1 idx b s
  have hr := r.isLt
  have hf := f.isLt
  split
  · next h =>
    constructor
    · intro e
      have e' := Option.some.inj e
      have e0 := congrArg (fun i : S1024x41024.Idx => (i 0).val) e'
      have e1 := congrArg (fun i : S1024x41024.Idx => (i 1).val) e'
      have g0 := h 0
      have g1 := h 1
      rw [sd_window, h0] at g0
      rw [sd_window, h1] at g1
      simp only [sd_window, h0, h1] at e0 e1
      change ((idx (ix3 b s 0)).toInt + ((0 : Nat) : Int)).toNat = r.val at e0
      change ((idx (ix3 b s 1)).toInt + ((0 : Nat) : Int)).toNat = f.val at e1
      omega
    · rintro ⟨e0, e1⟩
      congr 1
      funext a; refine Fin.ext ?_
      match a with
      | ⟨0, _⟩ =>
        show (sd.start (ix2 b s) idx 0 + (sd.window (ix2 b s) 0 : Int)).toNat = r.val
        rw [sd_window, h0, e0]; simp
      | ⟨1, _⟩ =>
        show (sd.start (ix2 b s) idx 1 + (sd.window (ix2 b s) 1 : Int)).toNat = f.val
        rw [sd_window, h1, e1]; simp
  · next h =>
    constructor
    · intro e; cases e
    · rintro ⟨e0, e1⟩
      exfalso; apply h
      intro a
      match a with
      | ⟨0, _⟩ =>
        show 0 ≤ sd.start (ix2 b s) idx 0 + (sd.window (ix2 b s) 0 : Int) ∧ sd.start (ix2 b s) idx 0 + (sd.window (ix2 b s) 0 : Int) < (1024 : Nat)
        rw [sd_window, h0, e0]; omega
      | ⟨1, _⟩ =>
        show 0 ≤ sd.start (ix2 b s) idx 1 + (sd.window (ix2 b s) 1 : Int) ∧ sd.start (ix2 b s) idx 1 + (sd.window (ix2 b s) 1 : Int) < (41024 : Nat)
        rw [sd_window, h1, e1]; omega

/-- The board-number column of the index pairs. -/
theorem pairs_row (x : IVec S1024x64 32) (b : Fin 1024) (s : Fin 64) : St.pairs x (ix3 b s 0) = St.rowNo (ix2 b 0) := by
  unfold St.pairs
  refine (concatenate_pair_apply_left (s₁ := S1024x64x1) (s₂ := S1024x64x1) _ _ _ _ (ix3 b s (0 : Fin 2)) rfl (ix3 b s (0 : Fin 1))
    (fun a => by match a with | ⟨0, _⟩ => rfl | ⟨1, _⟩ => rfl | ⟨2, _⟩ => rfl)).trans ?_
  refine (broadcastInDim_apply _ _ _ (ix3 b s (0 : Fin 1)) (ix2 b s) (fun a => by match a with | ⟨0, _⟩ => rfl | ⟨1, _⟩ => rfl)).trans ?_
  exact broadcastInDim_apply _ _ _ (ix2 b s) (ix2 b (0 : Fin 1)) (fun a => by match a with | ⟨0, _⟩ => rfl | ⟨1, _⟩ => rfl)

/-- The feature column of the index pairs. -/
theorem pairs_feat (x : IVec S1024x64 32) (b : Fin 1024) (s : Fin 64) : St.pairs x (ix3 b s 1) = St.wrapFeat x (ix2 b s) := by
  unfold St.pairs
  refine (concatenate_pair_apply_right (s₁ := S1024x64x1) (s₂ := S1024x64x1) _ _ _ _ (ix3 b s (1 : Fin 2)) rfl rfl (ix3 b s (0 : Fin 1))
    (fun a ha => by match a with | ⟨0, _⟩ => rfl | ⟨1, _⟩ => rfl | ⟨2, _⟩ => exact absurd rfl ha) rfl).trans ?_
  exact broadcastInDim_apply _ _ _ (ix3 b s (0 : Fin 1)) (ix2 b s) (fun a => by match a with | ⟨0, _⟩ => rfl | ⟨1, _⟩ => rfl)

theorem wrapFeat_apply (x : IVec S1024x64 32) (b : Fin 1024) (s : Fin 64) :
    St.wrapFeat x (ix2 b s) = Words.wrapWord 41024 (x (ix2 b s)) := rfl

theorem rowNo_toInt (b : Fin 1024) : (St.rowNo (ix2 b 0)).toInt = b.val := by
  have hX : broadcastInDim S1024x1 ![0] bcast_S1024_S1024x1_0 (iotaInDim S1024 32 0) (ix2 b (0 : Fin 1)) = BitVec.ofNat 32 b.val :=
    broadcastInDim_apply _ _ _ (ix2 b (0 : Fin 1)) (ix1 b) (fun a => by match a with | ⟨0, _⟩ => rfl)
  have e : St.rowNo (ix2 b 0) = Words.wrapWord 1024 (BitVec.ofNat 32 b.val) := by
    show Scalar.select (IntOp.cmpi .slt (broadcastInDim S1024x1 ![0] bcast_S1024_S1024x1_0 (iotaInDim S1024 32 0) (ix2 b (0 : Fin 1))) 0#32)
      (IntOp.addi (broadcastInDim S1024x1 ![0] bcast_S1024_S1024x1_0 (iotaInDim S1024 32 0) (ix2 b (0 : Fin 1))) 1024#32)
      (broadcastInDim S1024x1 ![0] bcast_S1024_S1024x1_0 (iotaInDim S1024 32 0) (ix2 b (0 : Fin 1))) = _
    rw [hX]; rfl
  have hb := b.isLt
  rw [e, Words.wrapWord_toInt _ _ (by rw [BitVec.toNat_ofNat]; omega), BitVec.toNat_ofNat]
  congr 1; omega

/-- Where the update of square `s` of board `b'` lands. -/
theorem sd_lands_iff (x : IVec S1024x64 32) (b' : Fin 1024) (s : Fin 64) (b : Fin 1024) (f : Fin 41024) :
    sd.resultIdx? (ix2 b' s) (St.pairs x) = some (ix2 b f) ↔ b' = b ∧ (Words.wrapWord 41024 (x (ix2 b' s))).toInt = f.val := by
  rw [sd_resultIdx_iff, pairs_row, pairs_feat, rowNo_toInt, wrapFeat_apply]
  constructor
  · rintro ⟨h1, h2⟩; exact ⟨Fin.ext (by exact_mod_cast h1), h2⟩
  · rintro ⟨h1, h2⟩; exact ⟨by rw [h1], h2⟩

/-- The feature row reads one where a square of the board names the feature … -/
theorem feats_eq_one (x : IVec S1024x64 32) (b : Fin 1024) (f : Fin 41024)
    (h : ∃ s : Fin 64, (Words.wrapWord 41024 (x (ix2 b s))).toInt = f.val) : St.feats (F := Ideal) x (ix2 b f) = 1 := by
  obtain ⟨s, hs⟩ := h
  unfold St.feats
  show Host.scatter sd (fun _ b => b) _ (St.pairs x) (fun _ => Ideal.ofBits .f32 0x3F800000#32) (ix2 b f) = 1
  rw [Host.scatter_const_of_hit _ _ _ _ _ ⟨ix2 b s, (sd_lands_iff x b s b f).2 ⟨rfl, hs⟩⟩]
  exact Ideal.ofBits_one_f32

/-- … and zero where none does. -/
theorem feats_eq_zero (x : IVec S1024x64 32) (b : Fin 1024) (f : Fin 41024)
    (h : ∀ s : Fin 64, (Words.wrapWord 41024 (x (ix2 b s))).toInt ≠ f.val) : St.feats (F := Ideal) x (ix2 b f) = 0 := by
  unfold St.feats
  rw [Host.scatter_of_miss]
  · exact Ideal.ofBits_zero_f32
  · intro j
    obtain ⟨b', s, rfl⟩ : ∃ (b' : Fin 1024) (s : Fin 64), j = ix2 b' s := ⟨j 0, j 1, eq_ix2 j⟩
    intro e
    obtain ⟨rfl, e2⟩ := (sd_lands_iff x b' s b f).1 e
    exact h s e2

end Cert.ReferenceIdeal.RefValue
end
-- ==== Proof.Ref.OneHot.lean ====
/-
  Which features a board names, as arithmetic on natural numbers. Square `s` holding the word `p s` names
  `K * 641 + band (p s) * 64 + s` when the piece lies in `[lo, hi]`, and the out-of-range 41024 otherwise; `band` maps
  the pieces of the range one-to-one onto the bands `0..4`, `piece` is its inverse. With `K < 64`:
  feature `K * 641 + c`, `c < 384`, is named by some square exactly when `c < 320` and square `c % 64` holds the piece of
  band `c / 64`; and every named feature below 41024 is `K * 641 + c` for some `c < 384`.
-/
import proofs.«431275_j61529701482572_2_alg».proof.Proof.Ref.Words

namespace Cert.ReferenceIdeal.Words

/-- The feature square `s` names. -/
def named (p : Fin 64 → BitVec 32) (K lo hi : Nat) (band : Nat → Nat) (s : Fin 64) : Nat :=
  if lo ≤ (p s).toNat ∧ (p s).toNat ≤ hi then K * 641 + band (p s).toNat * 64 + s.val else 41024

section
variable (p : Fin 64 → BitVec 32) (K lo hi : Nat) (band piece : Nat → Nat)
  (hK : K < 64) (hhi : hi < 2 ^ 32)
  (hb : ∀ n, lo ≤ n → n ≤ hi → band n < 5 ∧ piece (band n) = n)
  (hp : ∀ v, v < 5 → lo ≤ piece v ∧ piece v ≤ hi ∧ band (piece v) = v)
include hK hhi hb hp

/-- Inside the king's block: the one-hot condition. -/
theorem named_block_iff (c : Fin 384) :
    (∃ s : Fin 64, named p K lo hi band s = K * 641 + c.val)
      ↔ (c.val < 320 ∧ p ⟨c.val % 64, Nat.mod_lt _ (by decide)⟩ = BitVec.ofNat 32 (piece (c.val / 64))) := by
  have hc := c.isLt
  constructor
  · rintro ⟨s, hs⟩
    have hsl := s.isLt
    unfold named at hs
    split at hs
    · next hin =>
      obtain ⟨hb5, hpb⟩ := hb _ hin.1 hin.2
      have e : c.val = band (p s).toNat * 64 + s.val := by omega
      have e1 : c.val / 64 = band (p s).toNat := by omega
      have e2 : c.val % 64 = s.val := by omega
      refine ⟨by omega, ?_⟩
      have es : (⟨c.val % 64, Nat.mod_lt _ (by decide)⟩ : Fin 64) = s := Fin.ext e2
      rw [es, e1, hpb, BitVec.ofNat_toNat, BitVec.setWidth_eq]
    · omega
  · rintro ⟨h320, hpc⟩
    refine ⟨⟨c.val % 64, Nat.mod_lt _ (by decide)⟩, ?_⟩
    have hv : c.val / 64 < 5 := by omega
    obtain ⟨h1, h2, h3⟩ := hp _ hv
    have hn : (p ⟨c.val % 64, Nat.mod_lt _ (by decide)⟩).toNat = piece (c.val / 64) := by
      rw [hpc, BitVec.toNat_ofNat]; exact Nat.mod_eq_of_lt (by omega)
    unfold named
    rw [hn, if_pos ⟨h1, h2⟩, h3]
    show K * 641 + c.val / 64 * 64 + c.val % 64 = K * 641 + c.val
    omega

/-- Outside the king's block nothing in range is named. -/
theorem named_in_block (s : Fin 64) (f : Nat) (hf : f < 41024) (h : named p K lo hi band s = f) :
    ∃ c : Fin 384, f = K * 641 + c.val := by
  have hsl := s.isLt
  unfold named at h
  split at h
  · next hin =>
    obtain ⟨hb5, _⟩ := hb _ hin.1 hin.2
    refine ⟨⟨band (p s).toNat * 64 + s.val, by omega⟩, ?_⟩
    show f = K * 641 + (band (p s).toNat * 64 + s.val)
    omega
  · omega

end

/-- The named feature as the program's word, read signed: in range the feature word `W` (its value `N`, below 2^31),
    otherwise 41024; the count-from-the-end step never applies. -/
theorem named_word_toInt (lo hi : Nat) (hlo : lo < 2 ^ 31) (hhi : hi < 2 ^ 31) (p W : BitVec 32) (N : Nat)
    (hN : lo ≤ p.toNat ∧ p.toNat ≤ hi → N < 2 ^ 31)
    (hW : lo ≤ p.toNat ∧ p.toNat ≤ hi → W.toNat = N) :
    (wrapWord 41024 (Idealize.ShloMosaic.Scalar.select (inBand lo hi p) W 41024#32)).toInt
      = ((if lo ≤ p.toNat ∧ p.toNat ≤ hi then N else 41024 : Nat) : Int) := by
  by_cases hin : lo ≤ p.toNat ∧ p.toNat ≤ hi
  · have h1 : inBand lo hi p = 1#1 := (inBand_eq_one_iff lo hi hlo hhi p).2 hin
    rw [if_pos hin, h1]
    show (wrapWord 41024 W).toInt = _
    rw [wrapWord_toInt _ _ (by rw [hW hin]; exact hN hin), hW hin]
  · have h1 : ¬ inBand lo hi p = 1#1 := fun h => hin ((inBand_eq_one_iff lo hi hlo hhi p).1 h)
    rw [if_neg hin]
    unfold Idealize.ShloMosaic.Scalar.select
    rw [if_neg (show ¬ inBand lo hi p = 1 from h1), wrapWord_toInt _ _ (by decide)]
    rfl

end Cert.ReferenceIdeal.Words
-- ==== Proof.Ref.Rows.lean ====
/-
  The two feature rows against the local one-hot rows. Square `s` of board `b` names, for a piece 7..11, the feature
  king * 641 + (11 − piece) * 64 + s around the king of code 12, and for a piece 1..5 the feature
  king * 641 + (piece − 1) * 64 + s around the king of code 0; any other square names 41024, which is dropped. With the
  king on one of the 64 squares, the row is the local one-hot row laid at the king's block and zero outside it, so its
  product with a weight column is the local row's product with the king's block of that column: the terms outside the
  block are zero times a weight, which is zero whatever the weight.
-/
import proofs.«431275_j61529701482572_2_alg».proof.Proof.Ref.ScatterAt
import proofs.«431275_j61529701482572_2_alg».proof.Proof.Ref.OneHot
import proofs.«431275_j61529701482572_2_alg».proof.Proof.Ref.King
import proofs.«431275_j61529701482572_2_alg».proof.Proof.Spec
import Mathlib.Algebra.BigOperators.Group.Finset.Basic

noncomputable section

namespace Cert.ReferenceIdeal.RefValue

open Cert.ReferenceIdeal Idealize.ShloMosaic Idealize.ShloMosaic.ValueIdx
open Cert.ReferenceIdeal.Facts₀
variable [Cert.ReferenceIdeal.Facts]

/-- A king's block offset on a square of its board. -/
theorem kingBase_apply (k : IVec S1024 32) (b : Fin 1024) (s : Fin 64) : St.kingBase k (ix2 b s) = IntOp.muli (k (ix1 b)) 641#32 := by
  unfold St.kingBase
  refine (broadcastInDim_apply _ _ _ (ix2 b s) (ix2 b (0 : Fin 1)) (fun a => by match a with | ⟨0, _⟩ => rfl | ⟨1, _⟩ => rfl)).trans ?_
  show IntOp.muli (broadcastInDim S1024x1 ![0] bcast_S1024_S1024x1_0 k (ix2 b (0 : Fin 1))) 641#32 = _
  rw [broadcastInDim_apply _ _ _ (ix2 b (0 : Fin 1)) (ix1 b) (fun a => by match a with | ⟨0, _⟩ => rfl)]

/-- The square's own number. -/
theorem sqNo_apply (b : Fin 1024) (s : Fin 64) : St.sqNo (ix2 b s) = BitVec.ofNat 32 s.val := by
  unfold St.sqNo
  refine (broadcastInDim_apply _ _ _ (ix2 b s) (ix2 (0 : Fin 1) s) (fun a => by match a with | ⟨0, _⟩ => rfl | ⟨1, _⟩ => rfl)).trans ?_
  exact broadcastInDim_apply _ _ _ (ix2 (0 : Fin 1) s) (ix1 s) (fun a => by match a with | ⟨0, _⟩ => rfl)

/-- The word a square sends to the "theirs" scatter. -/
theorem oppX_apply (d : IVec S1024x64 32) (b : Fin 1024) (s : Fin 64) :
    St.orDrop (St.isOpp d) (St.oppFeat d) (ix2 b s)
      = Scalar.select (Words.inBand 7 11 (d (ix2 b s)))
          (Words.oppWord (St.king 12#32 d (ix1 b)) (d (ix2 b s)) (BitVec.ofNat 32 s.val)) 41024#32 := by
  show Scalar.select (Words.inBand 7 11 (d (ix2 b s)))
    (IntOp.addi (IntOp.addi (St.kingBase (St.king 12#32 d) (ix2 b s)) (IntOp.muli (IntOp.subi 11#32 (d (ix2 b s))) 64#32)) (St.sqNo (ix2 b s)))
    41024#32 = _
  rw [kingBase_apply, sqNo_apply]; rfl

/-- The word a square sends to the "mine" scatter. -/
theorem myX_apply (d : IVec S1024x64 32) (b : Fin 1024) (s : Fin 64) :
    St.orDrop (St.isMy d) (St.myFeat d) (ix2 b s)
      = Scalar.select (Words.inBand 1 5 (d (ix2 b s)))
          (Words.myWord (St.king 0#32 d (ix1 b)) (d (ix2 b s)) (BitVec.ofNat 32 s.val)) 41024#32 := by
  show Scalar.select (Words.inBand 1 5 (d (ix2 b s)))
    (IntOp.addi (IntOp.addi (St.kingBase (St.king 0#32 d) (ix2 b s)) (IntOp.muli (IntOp.subi (d (ix2 b s)) 1#32) 64#32)) (St.sqNo (ix2 b s)))
    41024#32 = _
  rw [kingBase_apply, sqNo_apply]; rfl

/-- Read signed, the "theirs" word of a square is the feature the square names. -/
theorem opp_named (d : IVec S1024x64 32) (b : Fin 1024) (s : Fin 64) :
    (Words.wrapWord 41024 (St.orDrop (St.isOpp d) (St.oppFeat d) (ix2 b s))).toInt
      = (Words.named (fun s => d (ix2 b s)) (St.king 12#32 d (ix1 b)).toNat 7 11 (fun n => 11 - n) s : Nat) := by
  have hk := king_lt 12#32 d b
  have hs := s.isLt
  have hsw : (BitVec.ofNat 32 s.val).toNat = s.val := by rw [BitVec.toNat_ofNat]; exact Nat.mod_eq_of_lt (by omega)
  rw [oppX_apply, Words.named_word_toInt 7 11 (by decide) (by decide) _ _
    ((St.king 12#32 d (ix1 b)).toNat * 641 + (11 - (d (ix2 b s)).toNat) * 64 + s.val) (fun hin => by omega)
    (fun hin => by rw [Words.oppWord_toNat _ _ _ hk hin (by omega), hsw])]
  rfl

/-- Read signed, the "mine" word of a square is the feature the square names. -/
theorem my_named (d : IVec S1024x64 32) (b : Fin 1024) (s : Fin 64) :
    (Words.wrapWord 41024 (St.orDrop (St.isMy d) (St.myFeat d) (ix2 b s))).toInt
      = (Words.named (fun s => d (ix2 b s)) (St.king 0#32 d (ix1 b)).toNat 1 5 (fun n => n - 1) s : Nat) := by
  have hk := king_lt 0#32 d b
  have hs := s.isLt
  have hsw : (BitVec.ofNat 32 s.val).toNat = s.val := by rw [BitVec.toNat_ofNat]; exact Nat.mod_eq_of_lt (by omega)
  rw [myX_apply, Words.named_word_toInt 1 5 (by decide) (by decide) _ _
    ((St.king 0#32 d (ix1 b)).toNat * 641 + ((d (ix2 b s)).toNat - 1) * 64 + s.val) (fun hin => by omega)
    (fun hin => by rw [Words.myWord_toNat _ _ _ hk hin (by omega), hsw])]
  rfl

/-- THEIR row inside THEIR king's block is the local row of their pieces. -/
theorem opps_block (d : IVec S1024x64 32) (b : Fin 1024) (c : Fin 384)
    (h : (St.king 12#32 d (ix1 b)).toNat * 641 + c.val < 41024) :
    St.opps (F := Ideal) d (ix2 b ⟨(St.king 12#32 d (ix1 b)).toNat * 641 + c.val, h⟩)
      = Cert.Spec.localOpp (fun b s => d (ix2 b s)) b c := by
  have key := Words.named_block_iff (fun s => d (ix2 b s)) (St.king 12#32 d (ix1 b)).toNat 7 11 (fun n => 11 - n) (fun v => 11 - v)
    (king_lt 12#32 d b) (by decide)
    (fun n h1 h2 => by show 11 - n < 5 ∧ 11 - (11 - n) = n; omega)
    (fun v hv => by show 7 ≤ 11 - v ∧ 11 - v ≤ 11 ∧ 11 - (11 - v) = v; omega) c
  unfold Cert.Spec.localOpp Cert.Spec.localRow
  split
  · next hc =>
    obtain ⟨s, hs⟩ := key.2 hc
    exact feats_eq_one _ b _ ⟨s, by rw [opp_named, hs]⟩
  · next hc =>
    refine feats_eq_zero _ b _ fun s e => hc (key.1 ⟨s, ?_⟩)
    rw [opp_named] at e
    exact_mod_cast e

/-- MY row inside MY king's block is the local row of my pieces. -/
theorem mys_block (d : IVec S1024x64 32) (b : Fin 1024) (c : Fin 384)
    (h : (St.king 0#32 d (ix1 b)).toNat * 641 + c.val < 41024) :
    St.mys (F := Ideal) d (ix2 b ⟨(St.king 0#32 d (ix1 b)).toNat * 641 + c.val, h⟩)
      = Cert.Spec.localMy (fun b s => d (ix2 b s)) b c := by
  have key := Words.named_block_iff (fun s => d (ix2 b s)) (St.king 0#32 d (ix1 b)).toNat 1 5 (fun n => n - 1) (fun v => v + 1)
    (king_lt 0#32 d b) (by decide)
    (fun n h1 h2 => by show n - 1 < 5 ∧ n - 1 + 1 = n; omega)
    (fun v hv => by show 1 ≤ v + 1 ∧ v + 1 ≤ 5 ∧ v + 1 - 1 = v; omega) c
  unfold Cert.Spec.localMy Cert.Spec.localRow
  split
  · next hc =>
    obtain ⟨s, hs⟩ := key.2 hc
    exact feats_eq_one _ b _ ⟨s, by rw [my_named, hs]⟩
  · next hc =>
    refine feats_eq_zero _ b _ fun s e => hc (key.1 ⟨s, ?_⟩)
    rw [my_named] at e
    exact_mod_cast e

/-- THEIR row is zero outside THEIR king's block. -/
theorem opps_off (d : IVec S1024x64 32) (b : Fin 1024) (f : Fin 41024)
    (h : ∀ c : Fin 384, f.val ≠ (St.king 12#32 d (ix1 b)).toNat * 641 + c.val) : St.opps (F := Ideal) d (ix2 b f) = 0 := by
  refine feats_eq_zero _ b f fun s e => ?_
  rw [opp_named] at e
  obtain ⟨c, hc⟩ := Words.named_in_block (fun s => d (ix2 b s)) (St.king 12#32 d (ix1 b)).toNat 7 11 (fun n => 11 - n) (fun v => 11 - v)
    (king_lt 12#32 d b) (by decide)
    (fun n h1 h2 => by show 11 - n < 5 ∧ 11 - (11 - n) = n; omega)
    (fun v hv => by show 7 ≤ 11 - v ∧ 11 - v ≤ 11 ∧ 11 - (11 - v) = v; omega) s f.val f.isLt (by exact_mod_cast e)
  exact h c hc

/-- MY row is zero outside MY king's block. -/
theorem mys_off (d : IVec S1024x64 32) (b : Fin 1024) (f : Fin 41024)
    (h : ∀ c : Fin 384, f.val ≠ (St.king 0#32 d (ix1 b)).toNat * 641 + c.val) : St.mys (F := Ideal) d (ix2 b f) = 0 := by
  refine feats_eq_zero _ b f fun s e => ?_
  rw [my_named] at e
  obtain ⟨c, hc⟩ := Words.named_in_block (fun s => d (ix2 b s)) (St.king 0#32 d (ix1 b)).toNat 1 5 (fun n => n - 1) (fun v => v + 1)
    (king_lt 0#32 d b) (by decide)
    (fun n h1 h2 => by show n - 1 < 5 ∧ n - 1 + 1 = n; omega)
    (fun v hv => by show 1 ≤ v + 1 ∧ v + 1 ≤ 5 ∧ v + 1 - 1 = v; omega) s f.val f.isLt (by exact_mod_cast e)
  exact h c hc

/-- A row that is a local row laid at block `K` and zero elsewhere, against a weight column: only the block's terms remain. -/
theorem sum_king_block (K : Nat) (hK : K < 64) (x : Fin 41024 → EReal) (W : Fin 256 → Fin 41024 → EReal) (j : Fin 256)
    (lo : Fin 384 → EReal)
    (hin : ∀ (c : Fin 384) (h : K * 641 + c.val < 41024), x ⟨K * 641 + c.val, h⟩ = lo c)
    (hoff : ∀ f : Fin 41024, (∀ c : Fin 384, f.val ≠ K * 641 + c.val) → x f = 0) :
    ∑ f : Fin 41024, x f * W j f = ∑ c : Fin 384, lo c * Cert.Spec.colAt W j (K * 641 + c.val) := by
  have hlt : ∀ c : Fin 384, K * 641 + c.val < 41024 := fun c => by have := c.isLt; omega
  symm
  refine Fintype.sum_of_injective (fun c : Fin 384 => (⟨K * 641 + c.val, hlt c⟩ : Fin 41024)) ?_ _ _ ?_ ?_
  · intro c c' h
    have h' : K * 641 + c.val = K * 641 + c'.val := congrArg Fin.val h
    exact Fin.ext (by omega)
  · intro f hf
    rw [hoff f (fun c e => hf ⟨c, Fin.ext e.symm⟩), zero_mul]
  · intro c
    unfold Cert.Spec.colAt
    rw [dif_pos (hlt c), hin c (hlt c)]

end Cert.ReferenceIdeal.RefValue

end
-- ==== Proof.Ref.Tail.lean ====
/-
  The reference's last stages read entry by entry at the extended reals: the two wide layers' results side by
  side, the two rectified dense layers, and the final affine column. A dense layer is a plain matrix product
  against the transposed weights (one contracted axis, no batch axis), plus the bias row spread over the boards,
  then the maximum with zero; its entry (b, k) is max (∑ n, x b n * W k n + bias k) 0.
-/
import proofs.«431275_j61529701482572_2_alg».proof.Proof.Ref.Stages
import proofs.«431275_j61529701482572_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx
open scoped BigOperators
variable [Cert.ReferenceIdeal.Facts]

/-! ### A plain matrix product's index maps

For dimension numbers that contract the left operand's axis 1 with the right operand's axis 0, with no batch
axis, the operand indices at output index (r, c) and contraction position i are (r, i) and (i, c). -/

section Dot
variable {m k n : ℕ} (D : DotDims ⟨2, ![m, k]⟩ ⟨2, ![k, n]⟩ ⟨2, ![m, n]⟩)
  (hlc : D.lhsContracting = [1]) (hrc : D.rhsContracting = [0]) (hln : D.lhsNonContracting = [0])
  (hrn : D.rhsNonContracting = [1]) (hlb : D.lhsBatch = []) (hrb : D.rhsBatch = [])
include hlc hrc hln hrn hlb hrb

/-- The left operand's row is the output's row. -/
theorem dot_lhs_0 (j : (⟨2, ![m, n]⟩ : Shape).Idx) (q : D.contr.Idx) : (D.lhsIdx j q 0 : ℕ) = j 0 := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![m, n]⟩ : Shape).rank) (hp' : p' < (⟨2, ![m, n]⟩ : Shape).rank), p = p' →
      (j ⟨p, hp⟩).val = (j ⟨p', hp'⟩).val := fun p p' hp hp' h => by subst h; rfl
  exact key _ _ _ _ (by simp [hlb, hln])

/-- The right operand's column is the output's column. -/
theorem dot_rhs_1 (j : (⟨2, ![m, n]⟩ : Shape).Idx) (q : D.contr.Idx) : (D.rhsIdx j q 1 : ℕ) = j 1 := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![m, n]⟩ : Shape).rank) (hp' : p' < (⟨2, ![m, n]⟩ : Shape).rank), p = p' →
      (j ⟨p, hp⟩).val = (j ⟨p', hp'⟩).val := fun p p' hp hp' h => by subst h; rfl
  exact key _ _ _ _ (by simp [hlb, hln, hrn])

/-- One axis is contracted … -/
theorem dot_contr_rank : D.contr.rank = 1 := by rw [D.rank_contr, hlc]; rfl

/-- … of extent `k`. -/
theorem dot_contr_size : D.contr.size ⟨0, by rw [dot_contr_rank D hlc hrc hln hrn hlb hrb]; exact Nat.one_pos⟩ = k := by
  rw [D.size_contr 0 (by rw [hlc]; exact Nat.one_pos)]
  simp [hlc]

/-- The contraction's sum, term by term over the contracted extent. -/
theorem dot_sum (L : (⟨2, ![m, k]⟩ : Shape).Idx → EReal) (R : (⟨2, ![k, n]⟩ : Shape).Idx → EReal) (r : Fin m) (c : Fin n) :
    ∑ q : D.contr.Idx, L (D.lhsIdx (ix2 r c) q) * R (D.rhsIdx (ix2 r c) q) = ∑ i : Fin k, L (ix2 r i) * R (ix2 i c) := by
  have hr := dot_contr_rank D hlc hrc hln hrn hlb hrb
  have hs := dot_contr_size D hlc hrc hln hrn hlb hrb
  rw [← Equiv.sum_comp (contrEquiv1 D k hr hs).symm]
  refine Finset.sum_congr rfl fun i _ => ?_
  have hq : (((contrEquiv1 D k hr hs).symm i) ⟨0, by omega⟩ : ℕ) = i.val := contrEquiv1_symm_val D k hr hs i
  have eL : D.lhsIdx (ix2 r c) ((contrEquiv1 D k hr hs).symm i) = ix2 r i := by
    funext a
    refine Fin.ext ?_
    match a with
    | ⟨0, _⟩ => exact dot_lhs_0 D hlc hrc hln hrn hlb hrb _ _
    | ⟨1, _⟩ => exact (D.lhsIdx_val_of_single hlc _ _).trans hq
  have eR : D.rhsIdx (ix2 r c) ((contrEquiv1 D k hr hs).symm i) = ix2 i c := by
    funext a
    refine Fin.ext ?_
    match a with
    | ⟨0, _⟩ => exact (D.rhsIdx_val_of_single hrc _ _).trans hq
    | ⟨1, _⟩ => exact dot_rhs_1 D hlc hrc hln hrn hlb hrb _ _
  rw [eL, eR]

end Dot

/-! ### The pieces of a dense layer, read at an index -/

section Layer
variable {m k n : ℕ}

/-- A bias row spread over every board: `[n] → [1, n] → [m, n]` reads the bias at the column. -/
theorem bias_apply (bias : (⟨1, ![n]⟩ : Shape).Idx → EReal)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (r : Fin m) (c : Fin n) :
    broadcastInDim ⟨2, ![m, n]⟩ ![0, 1] h2 (broadcastInDim ⟨2, ![1, n]⟩ ![1] h1 bias) (ix2 r c) = bias (ix1 c) := by
  have hc : c.val = if n = 1 then 0 else c.val := by
    split
    · have := c.isLt; omega
    · rfl
  refine (broadcastInDim_apply _ h2 _ (ix2 r c) (ix2 (0 : Fin 1) c) fun a => ?_).trans ?_
  · match a with
    | ⟨0, _⟩ => rfl
    | ⟨1, _⟩ => exact hc
  · refine broadcastInDim_apply _ h1 _ (ix2 (0 : Fin 1) c) (ix1 c) fun a => ?_
    match a with
    | ⟨0, _⟩ => exact hc

/-- The rectifier: the maximum with the zero constant spread over the array. -/
theorem relu_apply {s : Shape} (x : FVec Ideal s .f32) (h0 : (⟨0, ![]⟩ : Shape).BroadcastsInDim s (![] : Fin 0 → Fin s.rank)) (i : s.Idx) :
    maximumf x (broadcastInDim s ![] h0 (constant (F := Ideal) ⟨0, ![]⟩ .f32 0x00000000#32)) i = max (x i) 0 := by
  rw [maximumf_apply]
  congr 1
  refine (broadcastInDim_apply _ h0 _ i ix0 fun a => a.elim0).trans ?_
  rw [constant_apply]
  exact Ideal.ofBits_zero_f32

/-- A product against transposed weights plus the spread bias, read at (r, c): the row of `x` against row `c` of
    the weights, plus the bias at `c`. -/
theorem affine_apply (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![m, k]⟩ .f32) (W : FVec Ideal ⟨2, ![n, k]⟩ .f32) (bias : FVec Ideal ⟨1, ![n]⟩ .f32)
    (ht : (⟨2, ![n, k]⟩ : Shape).Transposes [1, 0] ⟨2, ![k, n]⟩)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (r : Fin m) (c : Fin n) :
    addf (Host.dotGeneral (F := Ideal) D none x (transpose ⟨2, ![k, n]⟩ [1, 0] W ht))
      (broadcastInDim ⟨2, ![m, n]⟩ ![0, 1] h2 (broadcastInDim ⟨2, ![1, n]⟩ ![1] h1 bias)) (ix2 r c)
      = (∑ i : Fin k, x (ix2 r i) * W (ix2 c i)) + bias (ix1 c) := by
  rw [addf_apply, bias_apply]
  congr 1
  simp only [Host.dotGeneral]
  rw [Ideal.dotGeneral_apply, dot_sum D hlc hrc hln hrn hlb hrb]
  refine Finset.sum_congr rfl fun i _ => ?_
  rw [transpose_ix2_apply]

end Layer

/-- A single column flattened: `[m, 1] → [m]` reads the column at the row. -/
theorem flatten_col_apply {m : ℕ} {α : Type} (x : (⟨2, ![m, 1]⟩ : Shape).Idx → α)
    (h : (⟨2, ![m, 1]⟩ : Shape).ShapeCasts ⟨1, ![m]⟩) (r : Fin m) :
    shapeCast ⟨1, ![m]⟩ x h (ix1 r) = x (ix2 r (0 : Fin 1)) :=
  shapeCast_apply x h _ _ (by
    rw [Shape.rowMajor_val_two, Shape.rowMajor_val_one]
    show r.val * 1 + 0 = r.val
    omega)

/-! ### The reference's last stages, entry by entry -/

/-- The two wide layers side by side: columns below 256 are the first layer's, the others the second's. -/
theorem hidden0_apply (d : IVec S1024x64 32) (Wm : FVec Ideal S256x41024 .f32) (bm : FVec Ideal S256 .f32) (Wo : FVec Ideal S256x41024 .f32) (bo : FVec Ideal S256 .f32)
    (b : Fin 1024) (n : Fin 512) :
    St.hidden0 (F := Ideal) d Wm bm Wo bo (ix2 b n)
      = if h : n.val < 256 then St.wide (St.firstHalf d) Wm bm (ix2 b ⟨n.val, h⟩)
        else St.wide (St.secondHalf d) Wo bo (ix2 b ⟨n.val - 256, by have := n.isLt; omega⟩) := by
  unfold St.hidden0
  split
  · next h =>
    exact concatenate_pair_apply_left (t := S1024x512) (s₁ := S1024x256) (s₂ := S1024x256) 1 _ _ _ (ix2 b n) rfl (ix2 b ⟨n.val, h⟩)
      fun a => match a with | ⟨0, _⟩ => rfl | ⟨1, _⟩ => rfl
  · next h =>
    exact concatenate_pair_apply_right (t := S1024x512) (s₁ := S1024x256) (s₂ := S1024x256) 1 _ _ _ (ix2 b n) rfl rfl
      (ix2 b ⟨n.val - 256, by have := n.isLt; omega⟩)
      (fun a ha => match a, ha with | ⟨0, _⟩, _ => rfl | ⟨1, _⟩, ha => absurd rfl ha)
      (by show (n.val - 256) + 256 = n.val; omega)

/-- The first small layer, entry by entry. -/
theorem hidden1_apply (h : FVec Ideal S1024x512 .f32) (W1 : FVec Ideal S32x512 .f32) (b1 : FVec Ideal S32 .f32) (b : Fin 1024) (k : Fin 32) :
    St.hidden1 (F := Ideal) h W1 b1 (ix2 b k)
      = Cert.Spec.dense (fun b n => h (ix2 b n)) (fun k n => W1 (ix2 k n)) (fun k => b1 (ix1 k)) b k := by
  unfold St.hidden1 St.relu32
  refine (relu_apply _ _ _).trans ?_
  refine congrArg (max · 0) ?_
  exact affine_apply dot_S1024x512_S512x32_S1024x32_1_0_0_1_n_n rfl rfl rfl rfl rfl rfl h W1 b1 _ _ _ b k

/-- The second small layer, entry by entry. -/
theorem hidden2_apply (h : FVec Ideal S1024x32 .f32) (W2 : FVec Ideal S32x32 .f32) (b2 : FVec Ideal S32 .f32) (b : Fin 1024) (k : Fin 32) :
    St.hidden2 (F := Ideal) h W2 b2 (ix2 b k)
      = Cert.Spec.dense (fun b n => h (ix2 b n)) (fun k n => W2 (ix2 k n)) (fun k => b2 (ix1 k)) b k := by
  unfold St.hidden2 St.relu32
  refine (relu_apply _ _ _).trans ?_
  refine congrArg (max · 0) ?_
  exact affine_apply dot_S1024x32_S32x32_S1024x32_1_0_0_1_n_n rfl rfl rfl rfl rfl rfl h W2 b2 _ _ _ b k

/-- The last layer, entry by entry. -/
theorem score_apply (h : FVec Ideal S1024x32 .f32) (W3 : FVec Ideal S1x32 .f32) (b3 : FVec Ideal S1 .f32) (b : Fin 1024) :
    St.score (F := Ideal) h W3 b3 (ix1 b) = (∑ n : Fin 32, h (ix2 b n) * W3 (ix2 0 n)) + b3 (ix1 0) := by
  unfold St.score
  refine (flatten_col_apply _ _ b).trans ?_
  exact affine_apply dot_S1024x32_S32x1_S1024x1_1_0_0_1_n_n rfl rfl rfl rfl rfl rfl h W3 b3 _ _ _ b 0

end Cert.ReferenceIdeal.RefValue

end
-- ==== Proof.Ref.WideAt.lean ====
/-
  The halves of the feature rows and a wide layer, read entry by entry at the extended reals. The two feature
  arrays are laid side by side (theirs, then mine) and cut again at column 0 and at column 41024, so the first
  half is theirs and the second mine. A wide layer is the feature rows against the transposed weight table plus
  the bias row spread over the boards, then the maximum with zero: its entry (b, j) is
  max (∑ f, x b f * W j f + bias j) 0.
-/
import proofs.«431275_j61529701482572_2_alg».proof.Proof.Ref.Stages
import proofs.«431275_j61529701482572_2_alg».proof.Proof.Ref.Tail
import Idealize.ShloMosaic.Lib.ValueIdx
import Idealize.ShloMosaic.Lib.ValueLayout
import Idealize.ShloMosaic.Lib.Pipeline.Value

noncomputable section

namespace Cert.ReferenceIdeal.RefValue

open Cert.ReferenceIdeal Idealize.ShloMosaic Idealize.ShloMosaic.ValueIdx
open scoped BigOperators
variable [Cert.ReferenceIdeal.Facts]

/-- The first half of the side-by-side rows is their features. -/
theorem firstHalf_apply (d : IVec S1024x64 32) (b : Fin 1024) (f : Fin 41024) : St.firstHalf (F := Ideal) d (ix2 b f) = St.opps d (ix2 b f) := by
  unfold St.firstHalf St.both
  refine (slice2_axis1_apply 0 _ _ b f ⟨f.val, by have := f.isLt; omega⟩ (by show f.val = 0 + f.val; omega)).trans ?_
  exact concatenate_pair_apply_left (t := S1024x82048) (s₁ := S1024x41024) (s₂ := S1024x41024) 1 _ _ _
    (ix2 b ⟨f.val, by have := f.isLt; omega⟩) rfl (ix2 b f) fun a => match a with | ⟨0, _⟩ => rfl | ⟨1, _⟩ => rfl

/-- The second half of the side-by-side rows is my features. -/
theorem secondHalf_apply (d : IVec S1024x64 32) (b : Fin 1024) (f : Fin 41024) : St.secondHalf (F := Ideal) d (ix2 b f) = St.mys d (ix2 b f) := by
  unfold St.secondHalf St.both
  refine (slice2_axis1_apply 41024 _ _ b f ⟨41024 + f.val, by have := f.isLt; omega⟩ rfl).trans ?_
  exact concatenate_pair_apply_right (t := S1024x82048) (s₁ := S1024x41024) (s₂ := S1024x41024) 1 _ _ _
    (ix2 b ⟨41024 + f.val, by have := f.isLt; omega⟩) rfl rfl (ix2 b f)
    (fun a ha => match a, ha with | ⟨0, _⟩, _ => rfl | ⟨1, _⟩, ha => absurd rfl ha)
    (by show f.val + 41024 = 41024 + f.val; omega)

/-- A wide layer, entry by entry. -/
theorem wide_apply (x : FVec Ideal S1024x41024 .f32) (W : FVec Ideal S256x41024 .f32) (bias : FVec Ideal S256 .f32) (b : Fin 1024) (j : Fin 256) : St.wide (F := Ideal) x W bias (ix2 b j) = max ((∑ f : Fin 41024, x (ix2 b f) * W (ix2 j f)) + bias (ix1 j)) 0 := by
  unfold St.wide St.relu256
  refine (relu_apply _ _ _).trans ?_
  refine congrArg (max · 0) ?_
  exact affine_apply dot_S1024x41024_S41024x256_S1024x256_1_0_0_1_n_n rfl rfl rfl rfl rfl rfl x W bias _ _ _ b j

end Cert.ReferenceIdeal.RefValue

end
-- ==== Proof.Ref.Feats.lean ====
import proofs.«431275_j61529701482572_2_alg».proof.Proof.Ref.Stages
import proofs.«431275_j61529701482572_2_alg».proof.Proof.Spec
import proofs.«431275_j61529701482572_2_alg».proof.Proof.Ref.King
import proofs.«431275_j61529701482572_2_alg».proof.Proof.Ref.Rows
import proofs.«431275_j61529701482572_2_alg».proof.Proof.Ref.WideAt
import Idealize.ShloMosaic.Lib.ValueIdx

noncomputable section

namespace Cert.ReferenceIdeal.RefValue

open Cert.ReferenceIdeal Idealize.ShloMosaic Idealize.ShloMosaic.ValueIdx
variable [Cert.ReferenceIdeal.Facts]

/-- The "my" layer reads THEIR pieces around THEIR king: the scattered feature row against the whole table is the
    local row against the king's block. -/
theorem wide_first (d : IVec S1024x64 32) (Wm : FVec Ideal S256x41024 .f32) (bm : FVec Ideal S256 .f32) (b : Fin 1024) (j : Fin 256) :
    St.wide (F := Ideal) (St.firstHalf d) Wm bm (ix2 b j)
      = Cert.Spec.wide (fun j n => Wm (ix2 j n)) (Cert.Spec.localOpp (fun b s => d (ix2 b s))) (fun b => (St.king 12#32 d (ix1 b)).toNat) (fun j => bm (ix1 j)) b j := by
  have hsum := sum_king_block (St.king 12#32 d (ix1 b)).toNat (king_lt 12#32 d b)
    (fun f => St.firstHalf (F := Ideal) d (ix2 b f)) (fun j n => Wm (ix2 j n)) j (Cert.Spec.localOpp (fun b s => d (ix2 b s)) b)
    (fun c h => by rw [firstHalf_apply]; exact opps_block d b c h)
    (fun f h => by rw [firstHalf_apply]; exact opps_off d b f h)
  rw [wide_apply, hsum]
  rfl

/-- The "opp" layer reads MY pieces around MY king. -/
theorem wide_second (d : IVec S1024x64 32) (Wo : FVec Ideal S256x41024 .f32) (bo : FVec Ideal S256 .f32) (b : Fin 1024) (j : Fin 256) :
    St.wide (F := Ideal) (St.secondHalf d) Wo bo (ix2 b j)
      = Cert.Spec.wide (fun j n => Wo (ix2 j n)) (Cert.Spec.localMy (fun b s => d (ix2 b s))) (fun b => (St.king 0#32 d (ix1 b)).toNat) (fun j => bo (ix1 j)) b j := by
  have hsum := sum_king_block (St.king 0#32 d (ix1 b)).toNat (king_lt 0#32 d b)
    (fun f => St.secondHalf (F := Ideal) d (ix2 b f)) (fun j n => Wo (ix2 j n)) j (Cert.Spec.localMy (fun b s => d (ix2 b s)) b)
    (fun c h => by rw [secondHalf_apply]; exact mys_block d b c h)
    (fun f h => by rw [secondHalf_apply]; exact mys_off d b f h)
  rw [wide_apply, hsum]
  rfl

end Cert.ReferenceIdeal.RefValue

end
-- ==== Proof.Ref.Value.lean ====
import proofs.«431275_j61529701482572_2_alg».proof.Proof.Ref.Feats
import proofs.«431275_j61529701482572_2_alg».proof.Proof.Ref.Tail

noncomputable section

namespace Cert.ReferenceIdeal.RefValue

open Cert.ReferenceIdeal Idealize.ShloMosaic Idealize.ShloMosaic.ValueIdx
variable [Cert.ReferenceIdeal.Facts]

/-- The 512 entries entering the small layers are the closed form's: the first wide layer reads their pieces
    around their king, the second my pieces around my king. -/
theorem hidden0_eq (d : IVec S1024x64 32) (Wm : FVec Ideal S256x41024 .f32) (bm : FVec Ideal S256 .f32) (Wo : FVec Ideal S256x41024 .f32) (bo : FVec Ideal S256 .f32) :
    (fun (b : Fin 1024) (n : Fin 512) => St.hidden0 (F := Ideal) d Wm bm Wo bo (ix2 b n))
      = Cert.Spec.hidden0 (fun b s => d (ix2 b s)) (fun b => (St.king 0#32 d (ix1 b)).toNat) (fun b => (St.king 12#32 d (ix1 b)).toNat)
          (fun j n => Wm (ix2 j n)) (fun j => bm (ix1 j)) (fun j n => Wo (ix2 j n)) (fun j => bo (ix1 j)) := by
  funext b n
  rw [hidden0_apply]
  unfold Cert.Spec.hidden0
  by_cases h : n.val < 256
  · rw [dif_pos h, dif_pos h, wide_first]
  · rw [dif_neg h, dif_neg h, wide_second]

/-- The reference's result, board by board, is the network's closed form. -/
theorem result_apply (a0 : IVec S1024x8x8 32) (Wm : FVec Ideal S256x41024 .f32) (bm : FVec Ideal S256 .f32) (Wo : FVec Ideal S256x41024 .f32) (bo : FVec Ideal S256 .f32)
    (W1 : FVec Ideal S32x512 .f32) (b1 : FVec Ideal S32 .f32) (W2 : FVec Ideal S32x32 .f32) (b2 : FVec Ideal S32 .f32) (W3 : FVec Ideal S1x32 .f32) (b3 : FVec Ideal S1 .f32)
    (b : Fin 1024) :
    St.result (F := Ideal) a0 Wm bm Wo bo W1 b1 W2 b2 W3 b3 (ix1 b)
      = Cert.Spec.out (fun b s => St.squares a0 (ix2 b s)) (fun b => (St.king 0#32 (St.squares a0) (ix1 b)).toNat) (fun b => (St.king 12#32 (St.squares a0) (ix1 b)).toNat)
          (fun j n => Wm (ix2 j n)) (fun j => bm (ix1 j)) (fun j n => Wo (ix2 j n)) (fun j => bo (ix1 j))
          (fun k n => W1 (ix2 k n)) (fun k => b1 (ix1 k)) (fun k n => W2 (ix2 k n)) (fun k => b2 (ix1 k)) (fun k n => W3 (ix2 k n)) (fun k => b3 (ix1 k)) b := by
  unfold St.result Cert.Spec.out
  rw [score_apply]
  have h2 : (fun (b : Fin 1024) (n : Fin 32) => St.hidden2 (F := Ideal) (St.hidden1 (St.hidden0 (St.squares a0) Wm bm Wo bo) W1 b1) W2 b2 (ix2 b n))
      = Cert.Spec.dense (Cert.Spec.dense (Cert.Spec.hidden0 (fun b s => St.squares a0 (ix2 b s)) (fun b => (St.king 0#32 (St.squares a0) (ix1 b)).toNat)
          (fun b => (St.king 12#32 (St.squares a0) (ix1 b)).toNat) (fun j n => Wm (ix2 j n)) (fun j => bm (ix1 j)) (fun j n => Wo (ix2 j n)) (fun j => bo (ix1 j)))
          (fun k n => W1 (ix2 k n)) (fun k => b1 (ix1 k))) (fun k n => W2 (ix2 k n)) (fun k => b2 (ix1 k)) := by
    have h1 : (fun (b : Fin 1024) (n : Fin 32) => St.hidden1 (F := Ideal) (St.hidden0 (St.squares a0) Wm bm Wo bo) W1 b1 (ix2 b n))
        = Cert.Spec.dense (fun b n => St.hidden0 (F := Ideal) (St.squares a0) Wm bm Wo bo (ix2 b n)) (fun k n => W1 (ix2 k n)) (fun k => b1 (ix1 k)) := by
      funext b n
      rw [hidden1_apply]
    funext b n
    rw [hidden2_apply]
    exact congrArg (fun (g : Fin 1024 → Fin 32 → EReal) => Cert.Spec.dense g (fun k n => W2 (ix2 k n)) (fun k => b2 (ix1 k)) b n)
      (h1.trans (congrArg (fun (g : Fin 1024 → Fin 512 → EReal) => Cert.Spec.dense g (fun k n => W1 (ix2 k n)) (fun k => b1 (ix1 k)))
        (hidden0_eq (St.squares a0) Wm bm Wo bo)))
  have key : ∀ n : Fin 32, St.hidden2 (F := Ideal) (St.hidden1 (St.hidden0 (St.squares a0) Wm bm Wo bo) W1 b1) W2 b2 (ix2 b n) = _ :=
    fun n => congrFun (congrFun h2 b) n
  exact congrArg (· + b3 (ix1 0)) (Finset.sum_congr rfl fun n _ => congrArg (· * W3 (ix2 0 n)) (key n))

end Cert.ReferenceIdeal.RefValue

end
-- ==== Proof.lean ====
/-
  The certificate's claims. Both programs compute one network on 1024 boards: the squares holding the two
  kings select, per board, a block of 641 columns of each wide weight table; the pieces select at most 320
  columns inside that block; the two wide layers' rectified results feed three small dense layers.
  The reference builds each board's full feature row of width 41024 by a scatter and multiplies it into the
  whole table; the kernel builds a local row of width 384, walks the 64 king blocks of the table on a grid
  and keeps, by a 0/1 column, only the block of the board's own king. Over the extended reals both wide
  layers are ∑ c, local b c * W j (king b * 641 + c): a feature row vanishes off the king's block, and
  0 * x = 0 for every extended real x, so no finiteness of the weights is used. The small layers are the
  same sums on both sides.
  The three frames: each kernel program's by the launch theorem for one region with host operations before
  and after it, the body run case by case over the grid (first point, middle points, last point), the two
  accumulators carried between points; the reference's by running its host operations in order.
-/
import proofs.«431275_j61529701482572_2_alg».proof.Defs
import proofs.«431275_j61529701482572_2_alg».proof.Proof.Gen.Kernel
import proofs.«431275_j61529701482572_2_alg».proof.Proof.Gen.KernelIdeal
import proofs.«431275_j61529701482572_2_alg».proof.Proof.Gen.ReferenceIdeal
import proofs.«431275_j61529701482572_2_alg».proof.Proof.Gen.Pre_finite_inputs
import proofs.«431275_j61529701482572_2_alg».proof.Proof.K.Frame
import proofs.«431275_j61529701482572_2_alg».proof.Proof.KI.Frame
import proofs.«431275_j61529701482572_2_alg».proof.Proof.KI.Value
import proofs.«431275_j61529701482572_2_alg».proof.Proof.Ref.Run
import proofs.«431275_j61529701482572_2_alg».proof.Proof.Ref.Value

noncomputable section

namespace Cert.Proof.Claims

open Idealize.ShloMosaic Idealize.SL.Sem Idealize.ShloMosaic.TcCoe Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs to the end and leaves its arguments as they were. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs its host operations in order; its arguments are never written. -/
theorem frame_ri : Cert.frame_ReferenceIdeal := fun m ρ _ =>
  (θ_run Cert.ReferenceIdeal.defs _ _).mono (fun _ h c => (h c).2) (Cert.ReferenceIdeal.HandRun.run (F := Ideal) m ρ)

/-- The reference's composed function of the arguments is the kernel's closed form, board by board: the flattened
    boards and the two kings are the same terms in both programs. -/
theorem result_eq (a0 : IVec Cert.ReferenceIdeal.S1024x8x8 32) (Wm : FVec Ideal Cert.ReferenceIdeal.S256x41024 .f32) (bm : FVec Ideal Cert.ReferenceIdeal.S256 .f32)
    (Wo : FVec Ideal Cert.ReferenceIdeal.S256x41024 .f32) (bo : FVec Ideal Cert.ReferenceIdeal.S256 .f32)
    (W1 : FVec Ideal Cert.ReferenceIdeal.S32x512 .f32) (b1 : FVec Ideal Cert.ReferenceIdeal.S32 .f32) (W2 : FVec Ideal Cert.ReferenceIdeal.S32x32 .f32) (b2 : FVec Ideal Cert.ReferenceIdeal.S32 .f32)
    (W3 : FVec Ideal Cert.ReferenceIdeal.S1x32 .f32) (b3 : FVec Ideal Cert.ReferenceIdeal.S1 .f32) :
    Cert.ReferenceIdeal.St.result (F := Ideal) a0 Wm bm Wo bo W1 b1 W2 b2 W3 b3 = Cert.KernelIdeal.HandValue.kernelOut a0 Wm bm Wo bo W1 b1 W2 b2 W3 b3 := by
  funext i
  obtain ⟨b, rfl⟩ : ∃ b : Fin 1024, i = ix1 b := ⟨i 0, eq_ix1 i⟩
  rw [Cert.ReferenceIdeal.RefValue.result_apply]
  rfl

/-- From memories agreeing on the arguments both idealized programs end with the network's scores. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1, (hagree c).2.2.2.2.2.1, (hagree c).2.2.2.2.2.2.1,
    (hagree c).2.2.2.2.2.2.2.1, (hagree c).2.2.2.2.2.2.2.2.1, (hagree c).2.2.2.2.2.2.2.2.2.1, (hagree c).2.2.2.2.2.2.2.2.2.2]
  exact result_eq _ _ _ _ _ _ _ _ _ _ _

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
